-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S1x64 : Shape := ⟨2, ![1, 64]⟩
abbrev S3 : Shape := ⟨1, ![3]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S3 : S_.BroadcastsInDim S3 (![] : Fin 0 → Fin S3.rank)
  reducesTo_S3_S_d0 : S3.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_arg5 : FVec F S3 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg1 main_v24
  let main_c_9 : IVec S_ 32 := constantI S_ 32 8#32
  let main_v26 : IVec S1000000 32 := broadcastInDim S1000000 ![] bcast_S_S1000000 main_c_9
  let main_v27 : IVec S1000000 1 := cmpi .slt main_arg1 main_v26
  let main_v28 : IVec S1000000 1 := andi main_v25 main_v27
  let main_c_10 : IVec S_ 1 := constantI S_ 1 1#1
  let main_v29 : IVec S_ 1 := (fun x v => Host.reduce IntOp.andi x v reducesTo_S1000000_S_d0 h_S_) main_v28 main_c_10
  let main_v30 : IVec S_ 1 := andi main_v23 main_v29
  main_v30

def fn {F : FTy → Type} [FloatOps F] (main_arg0 : FVec F S1000000x64 .f32) (main_arg1 : IVec S1000000 32) (main_arg2 : FVec F S1x64 .f32) (main_arg3 : FVec F S1x64 .f32) (main_arg4 : FVec F S3 .f32) (main_arg5 : FVec F S3 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S3 .f32 := Host.absf main_arg4
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg1 main_arg5 main_v13 main_v16
-- ==== Kernel.lean ====
abbrev S1000000x64 : Shape := ⟨2, ![1000000, 64]⟩
abbrev S1000000 : Shape := ⟨1, ![1000000]⟩
abbrev S1x64 : Shape := ⟨2, ![1, 64]⟩
abbrev S3 : Shape := ⟨1, ![3]⟩
abbrev S1000000x1 : Shape := ⟨2, ![1000000, 1]⟩
abbrev S8x64 : Shape := ⟨2, ![8, 64]⟩
abbrev S20000x64 : Shape := ⟨2, ![20000, 64]⟩
abbrev S20000x1 : Shape := ⟨2, ![20000, 1]⟩
abbrev S1x8 : Shape := ⟨2, ![1, 8]⟩
abbrev S20000x8 : Shape := ⟨2, ![20000, 8]⟩
abbrev S64 : Shape := ⟨1, ![64]⟩
abbrev S_ : Shape := ⟨0, ![]⟩
abbrev S8 : Shape := ⟨1, ![8]⟩
abbrev S8x1 : Shape := ⟨2, ![8, 1]⟩
abbrev S1 : Shape := ⟨1, ![1]⟩

abbrev nBuf : Space → Nat
  | .hbm => 112
  | .vmem => 19
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1x64, .f32⟩
  | .hbm, ⟨3, _⟩ => ⟨S1x64, .f32⟩
  | .hbm, ⟨4, _⟩ => ⟨S3, .f32⟩
  | .hbm, ⟨5, _⟩ => ⟨S3, .f32⟩
  | .hbm, ⟨6, _⟩ => ⟨S1000000x1, .i32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S1x64, .f32⟩
  | .hbm, ⟨11, _⟩ => ⟨S1x64, .f32⟩
  | .hbm, ⟨12, _⟩ => ⟨S_, .f32⟩
  | .hbm, ⟨13, _⟩ => ⟨S8x64, .f32⟩
  | .hbm, ⟨14, _⟩ => ⟨S8x64, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x64, .f32⟩
  | .hbm, ⟨26, _⟩ => ⟨S8x64, .f32⟩
  | .hbm, ⟨27, _⟩ => ⟨S_, .f32⟩
  | .hbm, ⟨28, _⟩ => ⟨S8, .f32⟩
  | .hbm, ⟨29, _⟩ => ⟨S8x1, .f32⟩
  | .hbm, ⟨30, _⟩ => ⟨S_, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S8x1, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S_, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S3, .f32⟩
  | .hbm, ⟨52, _⟩ => ⟨S3, .f32⟩
  | .hbm, ⟨53, _⟩ => ⟨S3, .f32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S3, .f32⟩
  | .hbm, ⟨58, _⟩ => ⟨S3, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S3, .f32⟩
  | .hbm, ⟨65, _⟩ => ⟨S3, .f32⟩
  | .hbm, ⟨66, _⟩ => ⟨S3, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S3, .f32⟩
  | .hbm, ⟨71, _⟩ => ⟨S3, .f32⟩
  | .hbm, ⟨72, _⟩ => ⟨S1, .f32⟩
  | .hbm, ⟨73, _⟩ => ⟨S_, .f32⟩
  | .hbm, ⟨74, _⟩ => ⟨S8x64, .f32⟩
  | .hbm, ⟨75, _⟩ => ⟨S8x64, .f32⟩
  | .hbm, ⟨76, _⟩ => ⟨S1, .f32⟩
  | .hbm, ⟨77, _⟩ => ⟨S_, .f32⟩
  | .hbm, ⟨78, _⟩ => ⟨S8x1, .f32⟩
  | .hbm, ⟨79, _⟩ => ⟨S8x1, .f32⟩
  | .hbm, ⟨80, _⟩ => ⟨S8x64, .f32⟩
  | .hbm, ⟨81, _⟩ => ⟨S8x64, .f32⟩
  | .hbm, ⟨82, _⟩ => ⟨S1, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S8x64, .f32⟩
  | .hbm, ⟨87, _⟩ => ⟨S8x64, .f32⟩
  | .hbm, ⟨88, _⟩ => ⟨S1, .f32⟩
  | .hbm, ⟨89, _⟩ => ⟨S_, .f32⟩
  | .hbm, ⟨90, _⟩ => ⟨S8x64, .f32⟩
  | .hbm, ⟨91, _⟩ => ⟨S8x64, .f32⟩
  | .hbm, ⟨92, _⟩ => ⟨S1, .f32⟩
  | .hbm, ⟨93, _⟩ => ⟨S_, .f32⟩
  | .hbm, ⟨94, _⟩ => ⟨S8x1, .f32⟩
  | .hbm, ⟨95, _⟩ => ⟨S8x1, .f32⟩
  | .hbm, ⟨96, _⟩ => ⟨S8x64, .f32⟩
  | .hbm, ⟨97, _⟩ => ⟨S8x64, .f32⟩
  | .hbm, ⟨98, _⟩ => ⟨S1, .f32⟩
  | .hbm, ⟨99, _⟩ => ⟨S_, .f32⟩
  | .hbm, ⟨100, _⟩ => ⟨S1x64, .f32⟩
  | .hbm, ⟨101, _⟩ => ⟨S1x64, .f32⟩
  | .hbm, ⟨102, _⟩ => ⟨S8x64, .f32⟩
  | .hbm, ⟨103, _⟩ => ⟨S8x64, .f32⟩
  | .hbm, ⟨104, _⟩ => ⟨S_, .f32⟩
  | .hbm, ⟨105, _⟩ => ⟨S8x64, .f32⟩
  | .hbm, ⟨106, _⟩ => ⟨S8x64, .f32⟩
  | .hbm, ⟨107, _⟩ => ⟨S8x64, .f32⟩
  | .hbm, ⟨108, _⟩ => ⟨S_, .f32⟩
  | .hbm, ⟨109, _⟩ => ⟨S8x64, .f32⟩
  | .hbm, ⟨110, _⟩ => ⟨S8x64, .f32⟩
  | .hbm, ⟨111, _⟩ => ⟨S1000000x64, .f32⟩
  | .local _ .vmem, ⟨0, _⟩ => ⟨S20000x64, .f32⟩
  | .local _ .vmem, ⟨1, _⟩ => ⟨S20000x64, .f32⟩
  | .local _ .vmem, ⟨2, _⟩ => ⟨S20000x1, .i32⟩
  | .local _ .vmem, ⟨3, _⟩ => ⟨S20000x1, .i32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S1x64, .f32⟩
  | .local _ .vmem, ⟨8, _⟩ => ⟨S1x64, .f32⟩
  | .local _ .vmem, ⟨9, _⟩ => ⟨S20000x64, .f32⟩
  | .local _ .vmem, ⟨10, _⟩ => ⟨S20000x64, .f32⟩
  | .local _ .vmem, ⟨11, _⟩ => ⟨S20000x1, .i32⟩
  | .local _ .vmem, ⟨12, _⟩ => ⟨S20000x1, .i32⟩
  | .local _ .vmem, ⟨13, _⟩ => ⟨S8x64, .f32⟩
  | .local _ .vmem, ⟨14, _⟩ => ⟨S8x64, .f32⟩
  | .local _ .vmem, ⟨15, _⟩ => ⟨S1x64, .f32⟩
  | .local _ .vmem, ⟨16, _⟩ => ⟨S1x64, .f32⟩
  | .local _ .vmem, ⟨17, _⟩ => ⟨S20000x64, .f32⟩
  | .local _ .vmem, ⟨18, _⟩ => ⟨S20000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S20000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1000000_S1000000x1 : S1000000.ShapeCasts S1000000x1
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  inb_S20000x64_S20000x64_0_0 : ∀ a, (![0, 0] : Fin 2 → Nat) a + S20000x64.size a ≤ S20000x64.size a
  h_S20000x64 : 0 < S20000x64.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S1x8_d1_w32 : S1x8.Iotas .tc 32 [1]
  broadcasts_S20000x1_S20000x8 : S20000x1.Broadcasts S20000x8
  broadcasts_S1x8_S20000x8 : S1x8.Broadcasts S20000x8
  natLt_1_32 : 1 < 32
  shapeCasts_S8x64_S8x64 : S8x64.ShapeCasts S8x64
  shapeCasts_S1x64_S1x64 : S1x64.ShapeCasts S1x64
  reduces_S20000x64_S64 : S20000x64.Reduces [0] S64
  shapeCasts_S64_S1x64 : S64.ShapeCasts S1x64
  bcast_S_S8x64 : S_.BroadcastsInDim S8x64 (![] : Fin 0 → Fin S8x64.rank)
  reducesTo_S8x64_S8_d1 : S8x64.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S_S1x64 : S_.BroadcastsInDim S1x64 (![] : Fin 0 → Fin S1x64.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  slices_S3_S1_1 : S3.Slices ![1] S1
  bcast_S8x1_S8x64_0_1 : S8x1.BroadcastsInDim S8x64 (![0, 1] : Fin 2 → Fin S8x64.rank)
  slices_S3_S1_2 : S3.Slices ![2] S1
  bcast_S1x64_S8x64_0_1 : S1x64.BroadcastsInDim S8x64 (![0, 1] : Fin 2 → Fin S8x64.rank)
  broadcasts_S1x64_S20000x64 : S1x64.Broadcasts S20000x64
  dot_S20000x8_S20000x64_S8x64_0_0_1_1_n_n_wf : DotDims.WF S20000x8 S20000x64 S8x64 [0] [0] [1] [1] [] []
  dot_S20000x8_S8x64_S20000x64_1_0_0_1_n_n_wf : DotDims.WF S20000x8 S8x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .f32 = 32 ∨ (Rect.block (s := S1000000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1000000x1.size a
  hwx0_1 : ∀ i : grid0.Coords, EltTy.bits .i32 = 32 ∨ (Rect.block (s := S1000000x1) S20000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S1000000x64.size a
  hwx1_0 : ∀ i : grid1.Coords, EltTy.bits .f32 = 32 ∨ (Rect.block (s := S1000000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S1000000x1.size a
  hwx1_1 : ∀ i : grid1.Coords, EltTy.bits .i32 = 32 ∨ (Rect.block (s := S1000000x1) S20000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S20000x64.size a ≤ S1000000x64.size a
  hwx1_6 : ∀ i : grid1.Coords, EltTy.bits .f32 = 32 ∨ (Rect.block (s := S1000000x64) S20000x64.size (cc1_transform_6 i) (hinb1_6 i)).WholeWords (EltTy.packing .f32)

variable [Facts₀]

def dot_S20000x8_S20000x64_S8x64_0_0_1_1_n_n : DotDims S20000x8 S20000x64 S8x64 where
  lhsContracting := [0]
  rhsContracting := [0]
  lhsNonContracting := [1]
  rhsNonContracting := [1]
  lhsBatch := []
  rhsBatch := []
  wf := dot_S20000x8_S20000x64_S8x64_0_0_1_1_n_n_wf
def dot_S20000x8_S8x64_S20000x64_1_0_0_1_n_n : DotDims S20000x8 S8x64 S20000x64 where
  lhsContracting := [1]
  rhsContracting := [0]
  lhsNonContracting := [0]
  rhsNonContracting := [1]
  lhsBatch := []
  rhsBatch := []
  wf := dot_S20000x8_S8x64_S20000x64_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S8x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_4) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v84) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v85) S20000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S1x64 : Shape := ⟨2, ![1, 64]⟩
abbrev S3 : Shape := ⟨1, ![3]⟩
abbrev S_ : Shape := ⟨0, ![]⟩
abbrev S8 : Shape := ⟨1, ![8]⟩
abbrev S1000000x1 : Shape := ⟨2, ![1000000, 1]⟩
abbrev S8x64 : Shape := ⟨2, ![8, 64]⟩
abbrev S8x1 : Shape := ⟨2, ![8, 1]⟩
abbrev S64 : Shape := ⟨1, ![64]⟩
abbrev S1 : Shape := ⟨1, ![1]⟩

abbrev nBuf : Space → Nat
  | .hbm => 175
  | .vmem => 0
  | .smem => 0
  | _ => 0

abbrev hbmTy0_0 (i : Nat) : BufTy := match i % 128 with
  | 0 => ⟨S1000000x64, .f32⟩
  | 1 => ⟨S1000000, .i32⟩
  | 2 => ⟨S1x64, .f32⟩
  | 3 => ⟨S1x64, .f32⟩
  | 4 => ⟨S3, .f32⟩
  | 5 => ⟨S3, .f32⟩
  | 6 => ⟨S_, .f32⟩
  | 7 => ⟨S1000000, .f32⟩
  | 8 => ⟨S_, .f32⟩
  | 9 => ⟨S8, .f32⟩
  | 10 => ⟨S1000000x1, .i32⟩
  | 11 => ⟨S8, .f32⟩
  | 12 => ⟨S_, .f32⟩
  | 13 => ⟨S8, .f32⟩
  | 14 => ⟨S8, .f32⟩
  | 15 => ⟨S_, .f32⟩
  | 16 => ⟨S8x64, .f32⟩
  | 17 => ⟨S1000000x1, .i32⟩
  | 18 => ⟨S8x64, .f32⟩
  | 19 => ⟨S8x1, .f32⟩
  | 20 => ⟨S8x64, .f32⟩
  | 21 => ⟨S8x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x64, .f32⟩
  | 32 => ⟨S1000000x64, .f32⟩
  | 33 => ⟨S_, .f32⟩
  | 34 => ⟨S8x64, .f32⟩
  | 35 => ⟨S1000000x1, .i32⟩
  | 36 => ⟨S8x64, .f32⟩
  | 37 => ⟨S8x1, .f32⟩
  | 38 => ⟨S8x64, .f32⟩
  | 39 => ⟨S8x64, .f32⟩
  | 40 => ⟨S_, .f32⟩
  | 41 => ⟨S8, .f32⟩
  | 42 => ⟨S8x1, .f32⟩
  | 43 => ⟨S_, .f32⟩
  | 44 => ⟨S8x1, .f32⟩
  | 45 => ⟨S8x1, .f32⟩
  | 46 => ⟨S8x64, .f32⟩
  | 47 => ⟨S8x64, .f32⟩
  | 48 => ⟨S_, .f32⟩
  | 49 => ⟨S8, .f32⟩
  | 50 => ⟨S8x1, .f32⟩
  | 51 => ⟨S_, .f32⟩
  | 52 => ⟨S8x1, .f32⟩
  | 53 => ⟨S8x1, .f32⟩
  | 54 => ⟨S8x1, .f32⟩
  | 55 => ⟨S8x1, .f32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S1000000x64, .f32⟩
  | 70 => ⟨S1000000x64, .f32⟩
  | 71 => ⟨S1000000x64, .f32⟩
  | 72 => ⟨S_, .f32⟩
  | 73 => ⟨S_, .f32⟩
  | 74 => ⟨S_, .f32⟩
  | 75 => ⟨S_, .f32⟩
  | 76 => ⟨S64, .f32⟩
  | 77 => ⟨S1x64, .f32⟩
  | 78 => ⟨S1x64, .f32⟩
  | 79 => ⟨S1x64, .f32⟩
  | 80 => ⟨S_, .f32⟩
  | 81 => ⟨S_, .i1⟩
  | 82 => ⟨S_, .f32⟩
  | 83 => ⟨S_, .f32⟩
  | 84 => ⟨S1x64, .f32⟩
  | 85 => ⟨S1x64, .f32⟩
  | 86 => ⟨S_, .f32⟩
  | 87 => ⟨S_, .f32⟩
  | 88 => ⟨S_, .f32⟩
  | 89 => ⟨S_, .f32⟩
  | 90 => ⟨S1, .f32⟩
  | 91 => ⟨S3, .f32⟩
  | 92 => ⟨S3, .f32⟩
  | 93 => ⟨S3, .f32⟩
  | 94 => ⟨S_, .f32⟩
  | 95 => ⟨S_, .f32⟩
  | 96 => ⟨S1, .f32⟩
  | 97 => ⟨S3, .f32⟩
  | 98 => ⟨S3, .f32⟩
  | 99 => ⟨S_, .f32⟩
  | 100 => ⟨S_, .f32⟩
  | 101 => ⟨S_, .f32⟩
  | 102 => ⟨S_, .f32⟩
  | 103 => ⟨S1, .f32⟩
  | 104 => ⟨S3, .f32⟩
  | 105 => ⟨S3, .f32⟩
  | 106 => ⟨S3, .f32⟩
  | 107 => ⟨S_, .f32⟩
  | 108 => ⟨S_, .f32⟩
  | 109 => ⟨S1, .f32⟩
  | 110 => ⟨S3, .f32⟩
  | 111 => ⟨S3, .f32⟩
  | 112 => ⟨S1, .f32⟩
  | 113 => ⟨S_, .f32⟩
  | 114 => ⟨S8x64, .f32⟩
  | 115 => ⟨S8x64, .f32⟩
  | 116 => ⟨S1, .f32⟩
  | 117 => ⟨S_, .f32⟩
  | 118 => ⟨S8x1, .f32⟩
  | 119 => ⟨S8x1, .f32⟩
  | 120 => ⟨S8x64, .f32⟩
  | 121 => ⟨S8x64, .f32⟩
  | 122 => ⟨S1, .f32⟩
  | 123 => ⟨S_, .f32⟩
  | 124 => ⟨S1x64, .f32⟩
  | 125 => ⟨S1x64, .f32⟩
  | 126 => ⟨S8x64, .f32⟩
  | 127 => ⟨S8x64, .f32⟩
  | _ => ⟨S1000000x64, .f32⟩

abbrev hbmTy0_1 (i : Nat) : BufTy := match i % 128 with
  | 0 => ⟨S1, .f32⟩
  | 1 => ⟨S_, .f32⟩
  | 2 => ⟨S8x64, .f32⟩
  | 3 => ⟨S8x64, .f32⟩
  | 4 => ⟨S1, .f32⟩
  | 5 => ⟨S_, .f32⟩
  | 6 => ⟨S8x1, .f32⟩
  | 7 => ⟨S8x1, .f32⟩
  | 8 => ⟨S8x64, .f32⟩
  | 9 => ⟨S8x64, .f32⟩
  | 10 => ⟨S1, .f32⟩
  | 11 => ⟨S_, .f32⟩
  | 12 => ⟨S1x64, .f32⟩
  | 13 => ⟨S1x64, .f32⟩
  | 14 => ⟨S8x64, .f32⟩
  | 15 => ⟨S8x64, .f32⟩
  | 16 => ⟨S_, .f32⟩
  | 17 => ⟨S8x64, .f32⟩
  | 18 => ⟨S8x64, .f32⟩
  | 19 => ⟨S8x64, .f32⟩
  | 20 => ⟨S_, .f32⟩
  | 21 => ⟨S8x64, .f32⟩
  | 22 => ⟨S8x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S1000000x64, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S1000000x64, .f32⟩
  | 43 => ⟨S1000000x64, .f32⟩
  | 44 => ⟨S1000000x64, .f32⟩
  | 45 => ⟨S1000000x64, .f32⟩
  | 46 => ⟨S1000000x64, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_v12 : Ref sig .tc := ⟨.hbm, 79, rfl⟩
abbrev main_call0_cst_3 : Ref sig .tc := ⟨.hbm, 80, rfl⟩
abbrev main_call0_v13 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v43 : Ref sig .tc := ⟨.hbm, 85, rfl⟩
abbrev main_cst_12 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_14 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_15 : Ref sig .tc := ⟨.hbm, 99, rfl⟩
abbrev main_v54 : Ref sig .tc := ⟨.hbm, 100, rfl⟩
abbrev main_cst_16 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_17 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_18 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_19 : Ref sig .tc := ⟨.hbm, 148, rfl⟩
abbrev main_v99 : Ref sig .tc := ⟨.hbm, 149, rfl⟩
abbrev main_v100 : Ref sig .tc := ⟨.hbm, 150, rfl⟩
abbrev main_c_20 : Ref sig .tc := ⟨.hbm, 151, rfl⟩
abbrev main_v101 : Ref sig .tc := ⟨.hbm, 152, rfl⟩
abbrev main_v102 : Ref sig .tc := ⟨.hbm, 153, rfl⟩
abbrev main_c_21 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_22 : Ref sig .tc := ⟨.hbm, 161, rfl⟩
abbrev main_v109 : Ref sig .tc := ⟨.hbm, 162, rfl⟩
abbrev main_v110 : Ref sig .tc := ⟨.hbm, 163, rfl⟩
abbrev main_c_23 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S8 : S_.BroadcastsInDim S8 (![] : Fin 0 → Fin S8.rank)
  bcast_S1000000_S1000000x1_0 : S1000000.BroadcastsInDim S1000000x1 (![0] : Fin 1 → Fin S1000000x1.rank)
  bcast_S_S8x64 : S_.BroadcastsInDim S8x64 (![] : Fin 0 → Fin S8x64.rank)
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  reducesTo_S8x64_S8_d1 : S8x64.ReducesTo [1] S8
  h_S_ : 0 < S_.numel
  bcast_S_S8x1 : S_.BroadcastsInDim S8x1 (![] : Fin 0 → Fin S8x1.rank)
  reducesTo_S1000000x64_S64_d0 : S1000000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S1000000x64_0_1 : S1x64.BroadcastsInDim S1000000x64 (![0, 1] : Fin 2 → Fin S1000000x64.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  slices_S3_S1_1 : S3.Slices ![1] S1
  slices_S3_S1_2 : S3.Slices ![2] S1
  bcast_S1x64_S8x64_0_1 : S1x64.BroadcastsInDim S8x64 (![0, 1] : Fin 2 → Fin S8x64.rank)
  scatter_S8_S1000000x1_S1000000_n_0_0_1_wf : ScatterDims.WF S8 S1000000x1 S1000000 [] [0] [0] 1
  scatter_S8x64_S1000000x1_S1000000x64_1_0_0_1_wf : ScatterDims.WF S8x64 S1000000x1 S1000000x64 [1] [0] [0] 1
  gather_S8x64_S1000000x1_S1000000x64_1_0_n_n_0_1_164_wf : GatherDims.WF S8x64 S1000000x1 S1000000x64 [1] [0] [] [0] [] 1 ![1, 64]

variable [Facts₀]

def scatter_S8_S1000000x1_S1000000_n_0_0_1 : ScatterDims S8 S1000000x1 S1000000 where
  updateWindowDims := []
  insertedWindowDims := [0]
  scatterDimsToOperandDims := [0]
  indexVectorDim := 1
  wf := scatter_S8_S1000000x1_S1000000_n_0_0_1_wf
def scatter_S8x64_S1000000x1_S1000000x64_1_0_0_1 : ScatterDims S8x64 S1000000x1 S1000000x64 where
  updateWindowDims := [1]
  insertedWindowDims := [0]
  scatterDimsToOperandDims := [0]
  indexVectorDim := 1
  wf := scatter_S8x64_S1000000x1_S1000000x64_1_0_0_1_wf
def gather_S8x64_S1000000x1_S1000000x64_1_0_n_n_0_1_164 : GatherDims S8x64 S1000000x1 S1000000x64 where
  offsetDims := [1]
  collapsedSliceDims := [0]
  operandBatchingDims := []
  startIndicesBatchingDims := []
  startIndexMap := [0]
  indexVectorDim := 1
  sliceSizes := ![1, 64]
  wf := gather_S8x64_S1000000x1_S1000000x64_1_0_n_n_0_1_164_wf

class Facts : Prop extends Facts₀ where

variable [Facts]
-- ==== Proof.Spec.lean ====
/-
  The mathematics of the switchable normalisation both programs compute, stated once.

  Rows r < 1000000 of x : [1000000, 64] carry a segment number b r. For each segment k < 8 and column q: the segment
  mean meanIn k q = (∑_{b r = k} x r q) / max(#{b r = k}, 1), the segment variance varIn k q, the layer statistics
  (row means over the 64 columns), and the batch statistics meanBn q, varBn q over all rows. A softmax of three
  weights mixes the three means into mean k q and the three variances into var k q; the result at (r, q) is
  (x r q - mean (b r) q) · (1 / √(var (b r) q + ε)) · w q + bias q.

  The part both programs spell identically (the layer statistics, the two softmaxes, the two mixtures and the
  reciprocal square root) is tailMean / tailInv, functions of the segment and batch statistics. The two programs
  differ only in how they obtain those statistics (r…: from scatter-adds and centred squares; k…: from the five
  sums ∑x, ∑x², ∑1 per segment and ∑x, ∑x² over all rows) and in how they read mean (b r) (a gather; a product with a
  one-hot row).
-/
import proofs.«419685_j35708358099270_1_alg».proof.Proof.Gen.ReferenceIdeal
import Idealize.ShloMosaic.PureOps.Ideal
import Idealize.ShloMosaic.Lib.ValueIdx

open scoped BigOperators

noncomputable section

namespace Cert.Spec

open Idealize.ShloMosaic Idealize.ShloMosaic.ValueIdx Cert.ReferenceIdeal Cert.ReferenceIdeal.Facts₀

/-- An array of extended reals of shape S. -/
abbrev Fv (S : Shape) := FVec Ideal S .f32

/-- The scalar whose f32 pattern is w, laid over the shape S. -/
def splat (S : Shape) (h : S_.BroadcastsInDim S (![] : Fin 0 → Fin S.rank)) (w : BitVec 32) : Fv S :=
  broadcastInDim S ![] h (constant (F := Ideal) S_ .f32 w)

/-! ## The part the two programs share -/

/-- The mean over the 64 columns of each of the 8 rows, kept as a column. -/
def rowMean (a : Fv S8x64) : Fv S8x1 :=
  Host.divf
    (broadcastInDim S8x1 ![0] bcast_S8_S8x1_0
      (Host.reduceAdd a (constant (F := Ideal) S_ .f32 0x00000000#32) reducesTo_S8x64_S8_d1 h_S_))
    (splat S8x1 bcast_S_S8x1 0x42800000#32)

/-- The softmax of three weights: exp (v - max v) / ∑ exp (v - max v). -/
def softmax3 (v : Fv S3) : Fv S3 :=
  let e : Fv S3 := Host.exp (subf v (broadcastInDim S3 ![0] bcast_S1_S3_0 (broadcastInDim S1 ![] bcast_S_S1
    (maximumf (constant (F := Ideal) S_ .f32 0xFF800000#32)
      (Host.reduce FloatOps.maximumf v (constant (F := Ideal) S_ .f32 0xFF800000#32) reducesTo_S3_S_d0 h_S_)))))
  Host.divf e (broadcastInDim S3 ![0] bcast_S1_S3_0 (broadcastInDim S1 ![] bcast_S_S1
    (Host.reduceAdd e (constant (F := Ideal) S_ .f32 0x00000000#32) reducesTo_S3_S_d0 h_S_)))

/-- Entry off of a vector of three, as a scalar. -/
def pick (s : Fv S3) (off : Fin 1 → Nat) (h : S3.Slices off S1) : Fv S_ :=
  shapeCast S_ (extractStridedSlice S1 off s h) shapeCasts_S1_S_

/-- s₀ · a + s₁ · l + s₂ · g: the per-segment array a, the per-segment column l laid over the columns and the
    per-column row g laid over the segments, mixed by the three weights s. -/
def mix (s : Fv S3) (a : Fv S8x64) (l : Fv S8x1) (g : Fv S1x64) : Fv S8x64 :=
  addf
    (addf (mulf (broadcastInDim S8x64 ![] bcast_S_S8x64 (pick s ![0] slices_S3_S1_0)) a)
      (broadcastInDim S8x64 ![0, 1] bcast_S8x1_S8x64_0_1
        (mulf (broadcastInDim S8x1 ![] bcast_S_S8x1 (pick s ![1] slices_S3_S1_1)) l)))
    (broadcastInDim S8x64 ![0, 1] bcast_S1x64_S8x64_0_1
      (mulf (broadcastInDim S1x64 ![] bcast_S_S1x64 (pick s ![2] slices_S3_S1_2)) g))

/-- The layer variance: the row mean of varIn + meanIn² minus the square of the row mean of meanIn. -/
def varLn (meanIn varIn : Fv S8x64) : Fv S8x1 :=
  subf (rowMean (addf varIn (mulf meanIn meanIn))) (mulf (rowMean meanIn) (rowMean meanIn))

/-- The mixed mean of each segment and column. -/
def tailMean (meanIn : Fv S8x64) (meanBn : Fv S1x64) (mw : Fv S3) : Fv S8x64 :=
  mix (softmax3 mw) meanIn (rowMean meanIn) meanBn

/-- 1 / √(var + ε) of the mixed variance of each segment and column. -/
def tailInv (meanIn varIn : Fv S8x64) (varBn : Fv S1x64) (vw : Fv S3) : Fv S8x64 :=
  Host.divf (splat S8x64 bcast_S_S8x64 0x3F800000#32)
    (Host.sqrt (addf (mix (softmax3 vw) varIn (varLn meanIn varIn) varBn) (splat S8x64 bcast_S_S8x64 0x3727C5AC#32)))

/-! ## The statistics as the reference obtains them -/

/-- The segment numbers as a column of scatter / gather indices. -/
def colIdx (b : IVec S1000000 32) : IVec S1000000x1 32 :=
  broadcastInDim S1000000x1 ![0] bcast_S1000000_S1000000x1_0 b

/-- A negative segment number counted from the end (b + 8), as array indexing does before a gather. -/
def wrapIdx (b : IVec S1000000 32) : IVec S1000000 32 :=
  select (cmpi .slt b (broadcastInDim S1000000 ![] bcast_S_S1000000 (constantI S_ 32 0#32)))
    (addi b (broadcastInDim S1000000 ![] bcast_S_S1000000 (constantI S_ 32 8#32))) b

/-- max(#segment, 1) per segment. -/
def rCounts (b : IVec S1000000 32) : Fv S8 :=
  maximumf
    (Host.scatterAdd scatter_S8_S1000000x1_S1000000_n_0_0_1 (splat S8 bcast_S_S8 0x00000000#32) (colIdx b)
      (splat S1000000 bcast_S_S1000000 0x3F800000#32))
    (splat S8 bcast_S_S8 0x3F800000#32)

/-- The same laid over the 64 columns. -/
def rCountsB (b : IVec S1000000 32) : Fv S8x64 :=
  broadcastInDim S8x64 ![0, 1] bcast_S8x1_S8x64_0_1 (broadcastInDim S8x1 ![0] bcast_S8_S8x1_0 (rCounts b))

/-- The sum of the rows u of each segment, column by column. -/
def segScatter (b : IVec S1000000 32) (u : Fv S1000000x64) : Fv S8x64 :=
  Host.scatterAdd scatter_S8x64_S1000000x1_S1000000x64_1_0_0_1 (splat S8x64 bcast_S_S8x64 0x00000000#32) (colIdx b) u

/-- Row r of the result is row b r (wrapped, clamped) of the table T. -/
def segGather (T : Fv S8x64) (b : IVec S1000000 32) : Fv S1000000x64 :=
  Host.gather gather_S8x64_S1000000x1_S1000000x64_1_0_n_n_0_1_164 T (colIdx (wrapIdx b))

/-- The segment mean. -/
def rMeanIn (x : Fv S1000000x64) (b : IVec S1000000 32) : Fv S8x64 :=
  Host.divf (segScatter b x) (rCountsB b)

/-- The segment variance from centred squares. -/
def rVarIn (x : Fv S1000000x64) (b : IVec S1000000 32) : Fv S8x64 :=
  Host.divf (segScatter b (mulf (subf x (segGather (rMeanIn x b) b)) (subf x (segGather (rMeanIn x b) b)))) (rCountsB b)

/-- The sum over all rows, column by column, kept as a row. -/
def colSum (x : Fv S1000000x64) : Fv S1x64 :=
  broadcastInDim S1x64 ![1] bcast_S64_S1x64_1
    (Host.reduceAdd x (constant (F := Ideal) S_ .f32 0x00000000#32) reducesTo_S1000000x64_S64_d0 h_S_)

/-- The batch mean. -/
def rMeanBn (x : Fv S1000000x64) : Fv S1x64 :=
  Host.divf (colSum x) (splat S1x64 bcast_S_S1x64 0x49742400#32)

/-- The divisor of the unbiased variance, 1000000 - 1, as the reference computes it. -/
def rDof : Fv S_ :=
  subf (constant (F := Ideal) S_ .f32 0x49742400#32) (sitofp .f32 (constantI S_ 32 1#32))

/-- The unbiased batch variance from centred squares (with the reference's guard dof > 0). -/
def rVarBn (x : Fv S1000000x64) : Fv S1x64 :=
  select (broadcastInDim S1x64 ![] bcast_S_S1x64 (cmpf .ogt rDof (constant (F := Ideal) S_ .f32 0x00000000#32)))
    (Host.divf
      (colSum (mulf (subf x (broadcastInDim S1000000x64 ![0, 1] bcast_S1x64_S1000000x64_0_1 (rMeanBn x)))
        (subf x (broadcastInDim S1000000x64 ![0, 1] bcast_S1x64_S1000000x64_0_1 (rMeanBn x)))))
      (broadcastInDim S1x64 ![] bcast_S_S1x64 rDof))
    (broadcastInDim S1x64 ![] bcast_S_S1x64 (id (constant (F := Ideal) S_ .f32 0x7FC00000#32)))

/-- The reference's result. -/
def rOut (x : Fv S1000000x64) (b : IVec S1000000 32) (w bias : Fv S1x64) (mw vw : Fv S3) : Fv S1000000x64 :=
  addf
    (mulf
      (mulf (subf x (segGather (tailMean (rMeanIn x b) (rMeanBn x) mw) b))
        (segGather (tailInv (rMeanIn x b) (rVarIn x b) (rVarBn x) vw) b))
      (broadcastInDim S1000000x64 ![0, 1] bcast_S1x64_S1000000x64_0_1 w))
    (broadcastInDim S1000000x64 ![0, 1] bcast_S1x64_S1000000x64_0_1 bias)

/-! ## The statistics as the kernel's program obtains them, from the five sums of its first pass -/

/-- s0 = ∑ x, s2 = ∑ 1 per segment (each laid over the 64 columns). -/
def kMeanIn (s0 s2 : Fv S8x64) : Fv S8x64 :=
  Host.divf s0 (maximumf s2 (splat S8x64 bcast_S_S8x64 0x3F800000#32))

/-- E[x²] - E[x]² per segment; s1 = ∑ x². -/
def kVarIn (s0 s1 s2 : Fv S8x64) : Fv S8x64 :=
  subf (Host.divf s1 (maximumf s2 (splat S8x64 bcast_S_S8x64 0x3F800000#32))) (mulf (kMeanIn s0 s2) (kMeanIn s0 s2))

/-- s3 = ∑ x over all rows. -/
def kMeanBn (s3 : Fv S1x64) : Fv S1x64 :=
  Host.divf s3 (splat S1x64 bcast_S_S1x64 0x49742400#32)

/-- (∑ x² - N · mean · mean) / (N - 1); s4 = ∑ x² over all rows. -/
def kVarBn (s3 s4 : Fv S1x64) : Fv S1x64 :=
  Host.divf (subf s4 (mulf (mulf (splat S1x64 bcast_S_S1x64 0x49742400#32) (kMeanBn s3)) (kMeanBn s3)))
    (splat S1x64 bcast_S_S1x64 0x497423F0#32)

/-- The mixed mean from the five sums. -/
def kMean (s0 s2 : Fv S8x64) (s3 : Fv S1x64) (mw : Fv S3) : Fv S8x64 :=
  tailMean (kMeanIn s0 s2) (kMeanBn s3) mw

/-- The reciprocal standard deviation from the five sums. -/
def kInv (s0 s1 s2 : Fv S8x64) (s3 s4 : Fv S1x64) (vw : Fv S3) : Fv S8x64 :=
  tailInv (kMeanIn s0 s2) (kVarIn s0 s1 s2) (kVarBn s3 s4) vw

/-! ## Entry by entry -/

/-- The rows whose segment word is the word k (as the kernel's one-hot row tests it). -/
def segW (B : IVec S1000000x1 32) (k : Fin 8) : Finset (Fin 1000000) :=
  Finset.univ.filter fun r => B (ix2 r (0 : Fin 1)) = BitVec.ofNat 32 k.val

/-- The one-hot entry: 1 where the word is k, else 0. -/
def oh (w : BitVec 32) (k : Fin 8) : EReal := if w = BitVec.ofNat 32 k.val then 1 else 0

/-- What the kernel's second pass writes at (r, q): the tables M, I read through the one-hot row of B r. -/
def applyK (X : Fv S1000000x64) (B : IVec S1000000x1 32) (M I : Fv S8x64) (Wt Bi : Fv S1x64)
    (r : Fin 1000000) (q : Fin 64) : EReal :=
  ((X (ix2 r q) - ∑ k : Fin 8, oh (B (ix2 r (0 : Fin 1))) k * M (ix2 k q))
      * (∑ k : Fin 8, oh (B (ix2 r (0 : Fin 1))) k * I (ix2 k q)))
    * Wt (ix2 (0 : Fin 1) q) + Bi (ix2 (0 : Fin 1) q)

end Cert.Spec

end
-- ==== Proof.KRegion0.lean ====
import proofs.«419685_j35708358099270_1_alg».proof.Proof.Gen.KernelIdeal.Frame
import proofs.«419685_j35708358099270_1_alg».proof.Proof.Spec
import Idealize.ShloMosaic.Lib.Pipeline.Value
import Idealize.ShloMosaic.Lib.ValueLayout
import Idealize.ShloMosaic.Lib.IdealHost

set_option maxRecDepth 16384

open scoped BigOperators

noncomputable section

namespace Cert.KV.R0

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- The rows as the first pass finds them. -/
abbrev X (c : Dev nD) : Fv S1000000x64 := V c main_arg0
/-- The segment words as the first pass finds them (a column). -/
abbrev B (c : Dev nD) : IVec S1000000x1 32 := V c main_v0
/-- Output array w of the first pass after its last grid point. -/
abbrev A8 (w : Fin cfg0.W) (c : Dev nD) := (dat0 (F := Ideal) V c).arrAt w cfg0.N

/-! # The first pass: its five output arrays are the five sums

  The first pass walks the 1000000 rows in 50 blocks of 20000. It keeps five accumulators, each one block that every
  grid point revisits: three 8 x 64 tables (per segment word k and column q: the sum of x, of x * x and of 1 over the
  rows whose word is k) and two 1 x 64 rows (per column: the sum of x and of x * x over all rows). The first point
  zeroes them; every point adds its block's share: a product of the block's one-hot matrix (transposed) with the block
  of x, of x * x, of ones, and the block's column sums. Only the last point writes the accumulators back, and each
  output array is one block, so the arrays end holding what the last point left.

  The proof: what the body's stores leave in each staging buffer, case by case; each stored value read at an entry as
  a sum over the block's 20000 rows; a block's row j at point t is row 20000 t + j of the array; by induction on the
  point, after point n an accumulator holds the sum over the rows below 20000 (n + 1) (addition of extended reals is
  commutative and associative and 0 + s = s, so no finiteness is used; 0 * s = 0 and 1 * s = s turn the one-hot
  weighted sum into the sum over a segment's rows); the last point's write-back covers the array. -/

section Pieces
variable {F : FTy → Type} [FloatOps F]

/-- Every store and load of the body is at offset (0, 0). -/
theorem hz : (![0, 0] : Fin 2 → Nat) = fun _ => 0 := funext fun a => by fin_cases a <;> rfl

/-- What a later point leaves in the table of sums of x: the update of what it found. -/
theorem pieceB2 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S20000x64 .f32) (x1 : Vec F S20000x1 .i32) (xo2 xo3 xo4 : Vec F S8x64 .f32) (xo5 xo6 : Vec F S1x64 .f32) :
    out0_B_2 c i a1 h1 a2 h2 a3 h3 a4 h4 a5 h5 a6 h6 a7 h7 hc x0 x1 xo2 xo3 xo4 xo5 xo6 = k0_pay10 x0 x1 xo2 := by
  unfold out0_B_2
  rw [View.read_writes_eq_canon _ _ _ (cover0_B_2 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S8x64) hz]

/-- What a later point leaves in the table of sums of x * x. -/
theorem pieceB3 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S20000x64 .f32) (x1 : Vec F S20000x1 .i32) (xo2 xo3 xo4 : Vec F S8x64 .f32) (xo5 xo6 : Vec F S1x64 .f32) :
    out0_B_3 c i a1 h1 a2 h2 a3 h3 a4 h4 a5 h5 a6 h6 a7 h7 hc x0 x1 xo2 xo3 xo4 xo5 xo6 = k0_pay11 x0 x1 xo3 := by
  unfold out0_B_3
  rw [View.read_writes_eq_canon _ _ _ (cover0_B_3 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S8x64) hz]

/-- What a later point leaves in the table of counts. -/
theorem pieceB4 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S20000x64 .f32) (x1 : Vec F S20000x1 .i32) (xo2 xo3 xo4 : Vec F S8x64 .f32) (xo5 xo6 : Vec F S1x64 .f32) :
    out0_B_4 c i a1 h1 a2 h2 a3 h3 a4 h4 a5 h5 a6 h6 a7 h7 hc x0 x1 xo2 xo3 xo4 xo5 xo6 = k0_pay12 x1 xo4 := by
  unfold out0_B_4
  rw [View.read_writes_eq_canon _ _ _ (cover0_B_4 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S8x64) hz]

/-- What a later point leaves in the row of column sums of x. -/
theorem pieceB5 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S20000x64 .f32) (x1 : Vec F S20000x1 .i32) (xo2 xo3 xo4 : Vec F S8x64 .f32) (xo5 xo6 : Vec F S1x64 .f32) :
    out0_B_5 c i a1 h1 a2 h2 a3 h3 a4 h4 a5 h5 a6 h6 a7 h7 hc x0 x1 xo2 xo3 xo4 xo5 xo6 = k0_pay1 x0 (k0_pay13 xo5) := by
  unfold out0_B_5
  rw [View.read_writes_eq_canon _ _ _ (cover0_B_5 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S1x64) hz]

/-- What a later point leaves in the row of column sums of x * x. -/
theorem pieceB6 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : ¬cond0_0 i)
    (x0 : Vec F S20000x64 .f32) (x1 : Vec F S20000x1 .i32) (xo2 xo3 xo4 : Vec F S8x64 .f32) (xo5 xo6 : Vec F S1x64 .f32) :
    out0_B_6 c i a1 h1 a2 h2 a3 h3 a4 h4 a5 h5 a6 h6 a7 h7 hc x0 x1 xo2 xo3 xo4 xo5 xo6 = k0_pay2 (k0_pay9 x0) xo6 := by
  unfold out0_B_6
  rw [View.read_writes_eq_canon _ _ _ (cover0_B_6 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S1x64) hz]

/-- What the first point leaves in the table of sums of x: the update of the zero fill it has just stored. -/
theorem pieceA2 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S20000x64 .f32) (x1 : Vec F S20000x1 .i32) :
    out0_A_2 c i a1 h1 a2 h2 a3 h3 a4 h4 a5 h5 a6 h6 a7 h7 hc x0 x1 = k0_pay10 x0 x1 (k0_pay3 (F := F)) := by
  unfold out0_A_2
  rw [View.read_writes_eq_canon _ _ _ (cover0_A_2 c i a1 h1 a2 h2 a3 h3 a4 h4 a5 h5 a6 h6 a7 h7 hc x0 x1)]
  unfold kernelRun0_A
  dsimp only
  sl_unfold_words
  rw [View.canon_cons_unit_zero (S := S8x64) hz, View.readCov_unit_zero (S := S8x64) _ hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S8x64) hz]

/-- What the first point leaves in the table of sums of x * x. -/
theorem pieceA3 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S20000x64 .f32) (x1 : Vec F S20000x1 .i32) :
    out0_A_3 c i a1 h1 a2 h2 a3 h3 a4 h4 a5 h5 a6 h6 a7 h7 hc x0 x1 = k0_pay11 x0 x1 (k0_pay4 (F := F)) := by
  unfold out0_A_3
  rw [View.read_writes_eq_canon _ _ _ (cover0_A_3 c i a1 h1 a2 h2 a3 h3 a4 h4 a5 h5 a6 h6 a7 h7 hc x0 x1)]
  unfold kernelRun0_A
  dsimp only
  sl_unfold_words
  rw [View.canon_cons_unit_zero (S := S8x64) hz, View.readCov_unit_zero (S := S8x64) _ hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S8x64) hz]

/-- What the first point leaves in the table of counts. -/
theorem pieceA4 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S20000x64 .f32) (x1 : Vec F S20000x1 .i32) :
    out0_A_4 c i a1 h1 a2 h2 a3 h3 a4 h4 a5 h5 a6 h6 a7 h7 hc x0 x1 = k0_pay12 x1 (k0_pay5 (F := F)) := by
  unfold out0_A_4
  rw [View.read_writes_eq_canon _ _ _ (cover0_A_4 c i a1 h1 a2 h2 a3 h3 a4 h4 a5 h5 a6 h6 a7 h7 hc x0 x1)]
  unfold kernelRun0_A
  dsimp only
  sl_unfold_words
  rw [View.canon_cons_unit_zero (S := S8x64) hz, View.readCov_unit_zero (S := S8x64) _ hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S8x64) hz]

/-- What the first point leaves in the row of column sums of x. -/
theorem pieceA5 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S20000x64 .f32) (x1 : Vec F S20000x1 .i32) :
    out0_A_5 c i a1 h1 a2 h2 a3 h3 a4 h4 a5 h5 a6 h6 a7 h7 hc x0 x1 = k0_pay1 x0 (k0_pay13 (k0_pay6 (F := F))) := by
  unfold out0_A_5
  rw [View.read_writes_eq_canon _ _ _ (cover0_A_5 c i a1 h1 a2 h2 a3 h3 a4 h4 a5 h5 a6 h6 a7 h7 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S1x64) hz]

/-- What the first point leaves in the row of column sums of x * x. -/
theorem pieceA6 (c : Dev nD) (i : grid0.Coords) (a1 : Memref sig .tc .vmem S20000x64 .f32) (h1 : a1.IsWhole) (a2 : Memref sig .tc .vmem S20000x1 .i32) (h2 : a2.IsWhole) (a3 : Memref sig .tc .vmem S8x64 .f32) (h3 : a3.IsWhole) (a4 : Memref sig .tc .vmem S8x64 .f32) (h4 : a4.IsWhole) (a5 : Memref sig .tc .vmem S8x64 .f32) (h5 : a5.IsWhole) (a6 : Memref sig .tc .vmem S1x64 .f32) (h6 : a6.IsWhole) (a7 : Memref sig .tc .vmem S1x64 .f32) (h7 : a7.IsWhole) (hc : cond0_0 i)
    (x0 : Vec F S20000x64 .f32) (x1 : Vec F S20000x1 .i32) :
    out0_A_6 c i a1 h1 a2 h2 a3 h3 a4 h4 a5 h5 a6 h6 a7 h7 hc x0 x1 = k0_pay2 (k0_pay9 x0) (k0_pay7 (F := F)) := by
  unfold out0_A_6
  rw [View.read_writes_eq_canon _ _ _ (cover0_A_6 c i a1 h1 a2 h2 a3 h3 a4 h4 a5 h5 a6 h6 a7 h7 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S20000x64) hz, View.ld_unit_zero (S := S20000x1) hz, View.ld_unit_zero (S := S1x64) hz]

end Pieces

section Payloads

/-- The index a lane sum over the rows reads at row r of column q. -/
theorem lift_col (h : S20000x64.Reduces [0] S64) (q : Fin 64) (r : Fin 20000) : h.lift (ix1 q) r = ix2 r q :=
  funext fun a => Fin.ext (by match a with | ⟨0, _⟩ => rfl | ⟨1, _⟩ => rfl)

/-- The column sum of a block added to a running row. -/
theorem pay1_apply (x0 : Vec Ideal S20000x64 .f32) (v : FVec Ideal S1x64 .f32) (q : Fin 64) :
    k0_pay1 x0 v (ix2 (0 : Fin 1) q) = v (ix2 (0 : Fin 1) q) + ∑ r : Fin 20000, x0 (ix2 r q) := by
  unfold k0_pay1
  refine (addf_apply _ _ _).trans ?_
  refine congrArg (v (ix2 (0 : Fin 1) q) + ·) ?_
  refine (shapeCast_a_1a_apply _ _ (0 : Fin 1) q).trans ?_
  refine (Ideal.multiReduction_add_single x0 0x00000000#32 reduces_S20000x64_S64 (.inl rfl) rfl (ix1 q)).trans ?_
  exact Finset.sum_congr rfl fun r _ => congrArg x0 (lift_col _ q r)

/-- The column sum of a block's squares added to a running row. -/
theorem pay2_apply (x0 : Vec Ideal S20000x64 .f32) (v : Vec Ideal S1x64 .f32) (q : Fin 64) :
    k0_pay2 (k0_pay9 x0) v (ix2 (0 : Fin 1) q)
      = v (ix2 (0 : Fin 1) q) + ∑ r : Fin 20000, x0 (ix2 r q) * x0 (ix2 r q) := by
  unfold k0_pay2 k0_pay9
  refine (addf_apply _ _ _).trans ?_
  refine congrArg₂ (· + ·) (congrFun (shapeCast_self v _) _) ?_
  refine (shapeCast_a_1a_apply _ _ (0 : Fin 1) q).trans ?_
  refine (Ideal.multiReduction_add_single (mulf x0 x0) 0x00000000#32 reduces_S20000x64_S64 (.inl rfl) rfl (ix1 q)).trans ?_
  exact Finset.sum_congr rfl fun r _ => by
    rw [lift_col reduces_S20000x64_S64 q r]; exact mulf_apply x0 x0 (ix2 r q)

/-- A cast of a row to its own shape. -/
theorem pay13_eq (v : Vec Ideal S1x64 .f32) : k0_pay13 v = v := shapeCast_self v _

end Payloads

section Matmul

/-- The one-hot word as a real: 1 where the segment word is the column's number, else 0. -/
theorem oh_word (x : BitVec 32) (k : Fin 8) :
    (FloatOps.sitofp (F := Ideal) .f32 ((IntOp.cmpi .eq x (BitVec.ofNat 32 k.val)).setWidth 32) : EReal) = oh x k := by
  show (((((IntOp.cmpi .eq x (BitVec.ofNat 32 k.val)).setWidth 32).toInt : ℝ)) : EReal) = oh x k
  unfold oh IntOp.cmpi
  by_cases h : x = BitVec.ofNat 32 k.val
  · rw [if_pos h, h]; simp
  · rw [if_neg h, show (x == BitVec.ofNat 32 k.val) = false from beq_eq_false_iff_ne.mpr h]; simp

/-- The one-hot matrix of a block of segment words at (row, column). -/
theorem pay8_apply (x1 : Vec Ideal S20000x1 .i32) (r : Fin 20000) (k : Fin 8) :
    k0_pay8 (F := Ideal) x1 (ix2 r k) = oh (x1 (ix2 r (0 : Fin 1))) k := by
  unfold k0_pay8
  refine Eq.trans ?_ (oh_word (x1 (ix2 r (0 : Fin 1))) k)
  refine congrArg (fun w : BitVec 1 => (FloatOps.sitofp (F := Ideal) .f32 (w.setWidth 32) : EReal)) ?_
  refine congrArg₂ (IntOp.cmpi .eq) ?_ ?_
  · refine (broadcastTo_apply _ _ (ix2 r k) (ix2 r (0 : Fin 1)) fun ax => ?_).trans
      (congrFun (shapeCast_self x1 _) _)
    match ax with
    | ⟨0, _⟩ => rfl
    | ⟨1, _⟩ => rfl
  · refine (broadcastTo_1b_ab_apply _ _ r k).trans ?_
    exact iota_single_apply .tc S1x8 32 1 _ (ix2 (0 : Fin 1) k)

/-- The operands' indices of the product at output entry i and contraction position q: the left operand is read at
    (q, i 0), the right at (q, i 1). -/
theorem lhs_0 (i : S8x64.Idx) (q : dot_S20000x8_S20000x64_S8x64_0_0_1_1_n_n.contr.Idx) :
    (dot_S20000x8_S20000x64_S8x64_0_0_1_1_n_n.lhsIdx i q 0).val = (q ⟨0, by decide⟩).val :=
  dot_S20000x8_S20000x64_S8x64_0_0_1_1_n_n.lhsIdx_val_of_single rfl i q
theorem lhs_1 (i : S8x64.Idx) (q : dot_S20000x8_S20000x64_S8x64_0_0_1_1_n_n.contr.Idx) :
    (dot_S20000x8_S20000x64_S8x64_0_0_1_1_n_n.lhsIdx i q 1).val = (i 0).val := by
  unfold DotDims.lhsIdx
  rw [dif_neg (show ¬(1 : Fin S20000x8.rank) ∈ dot_S20000x8_S20000x64_S8x64_0_0_1_1_n_n.lhsBatch by decide), dif_pos (show (1 : Fin S20000x8.rank) ∈ dot_S20000x8_S20000x64_S8x64_0_0_1_1_n_n.lhsNonContracting by decide)]
  rfl
theorem rhs_0 (i : S8x64.Idx) (q : dot_S20000x8_S20000x64_S8x64_0_0_1_1_n_n.contr.Idx) :
    (dot_S20000x8_S20000x64_S8x64_0_0_1_1_n_n.rhsIdx i q 0).val = (q ⟨0, by decide⟩).val :=
  dot_S20000x8_S20000x64_S8x64_0_0_1_1_n_n.rhsIdx_val_of_single rfl i q
theorem rhs_1 (i : S8x64.Idx) (q : dot_S20000x8_S20000x64_S8x64_0_0_1_1_n_n.contr.Idx) :
    (dot_S20000x8_S20000x64_S8x64_0_0_1_1_n_n.rhsIdx i q 1).val = (i 1).val := by
  unfold DotDims.rhsIdx
  rw [dif_neg (show ¬(1 : Fin S20000x64.rank) ∈ dot_S20000x8_S20000x64_S8x64_0_0_1_1_n_n.rhsBatch by decide), dif_pos (show (1 : Fin S20000x64.rank) ∈ dot_S20000x8_S20000x64_S8x64_0_0_1_1_n_n.rhsNonContracting by decide)]
  rfl

/-- The product of a transposed 20000 x 8 block with a 20000 x 64 block into a zero accumulator, at (k, q): the sum
    over the 20000 rows. -/
theorem mm_apply (L : FVec Ideal S20000x8 .f32) (R : FVec Ideal S20000x64 .f32) (k : Fin 8) (q : Fin 64) :
    matmul dot_S20000x8_S20000x64_S8x64_0_0_1_1_n_n none L R (constant (F := Ideal) S8x64 .f32 0x00000000#32) (ix2 k q)
      = ∑ r : Fin 20000, L (ix2 r k) * R (ix2 r q) := by
  simp only [matmul]
  rw [Ideal.matmul_constant_zero_apply, ← Equiv.sum_comp (contrEquiv1 dot_S20000x8_S20000x64_S8x64_0_0_1_1_n_n 20000 rfl rfl).symm]
  refine Finset.sum_congr rfl fun r _ => ?_
  have hk := contrEquiv1_symm_val dot_S20000x8_S20000x64_S8x64_0_0_1_1_n_n 20000 rfl rfl r
  have el : dot_S20000x8_S20000x64_S8x64_0_0_1_1_n_n.lhsIdx (ix2 k q) ((contrEquiv1 dot_S20000x8_S20000x64_S8x64_0_0_1_1_n_n 20000 rfl rfl).symm r) = ix2 r k := funext fun a => Fin.ext (by
    match a with
    | ⟨0, _⟩ => exact (lhs_0 _ _).trans hk
    | ⟨1, _⟩ => exact lhs_1 _ _)
  have er : dot_S20000x8_S20000x64_S8x64_0_0_1_1_n_n.rhsIdx (ix2 k q) ((contrEquiv1 dot_S20000x8_S20000x64_S8x64_0_0_1_1_n_n 20000 rfl rfl).symm r) = ix2 r q := funext fun a => Fin.ext (by
    match a with
    | ⟨0, _⟩ => exact (rhs_0 _ _).trans hk
    | ⟨1, _⟩ => exact rhs_1 _ _)
  rw [el, er]

/-- A block's rows summed per segment word into a running 8 x 64 table. -/
theorem pay10_apply (x0 : Vec Ideal S20000x64 .f32) (x1 : Vec Ideal S20000x1 .i32) (xo : Vec Ideal S8x64 .f32)
    (k : Fin 8) (q : Fin 64) :
    k0_pay10 x0 x1 xo (ix2 k q) = xo (ix2 k q) + ∑ r : Fin 20000, oh (x1 (ix2 r (0 : Fin 1))) k * x0 (ix2 r q) := by
  unfold k0_pay10
  refine (addf_apply _ _ _).trans ?_
  refine congrArg₂ (· + ·) (congrFun (shapeCast_self xo _) _) ?_
  refine (mm_apply (k0_pay8 x1) x0 k q).trans ?_
  exact Finset.sum_congr rfl fun r _ => congrArg (· * x0 (ix2 r q)) (pay8_apply x1 r k)

/-- The same of the squares. -/
theorem pay11_apply (x0 : Vec Ideal S20000x64 .f32) (x1 : Vec Ideal S20000x1 .i32) (xo : Vec Ideal S8x64 .f32)
    (k : Fin 8) (q : Fin 64) :
    k0_pay11 x0 x1 xo (ix2 k q)
      = xo (ix2 k q) + ∑ r : Fin 20000, oh (x1 (ix2 r (0 : Fin 1))) k * (x0 (ix2 r q) * x0 (ix2 r q)) := by
  unfold k0_pay11 k0_pay9
  refine (addf_apply _ _ _).trans ?_
  refine congrArg₂ (· + ·) (congrFun (shapeCast_self xo _) _) ?_
  refine (mm_apply (k0_pay8 x1) (mulf x0 x0) k q).trans ?_
  exact Finset.sum_congr rfl fun r _ => congrArg₂ (· * ·) (pay8_apply x1 r k) (mulf_apply x0 x0 _)

/-- The same of ones: the rows counted per segment word. -/
theorem pay12_apply (x1 : Vec Ideal S20000x1 .i32) (xo : Vec Ideal S8x64 .f32) (k : Fin 8) (q : Fin 64) :
    k0_pay12 x1 xo (ix2 k q) = xo (ix2 k q) + ∑ r : Fin 20000, oh (x1 (ix2 r (0 : Fin 1))) k * 1 := by
  unfold k0_pay12
  refine (addf_apply _ _ _).trans ?_
  refine congrArg₂ (· + ·) (congrFun (shapeCast_self xo _) _) ?_
  refine (mm_apply (k0_pay8 x1) (broadcast S20000x64 (Scalar.ofBits (F := Ideal) .f32 0x3F800000#32)) k q).trans ?_
  exact Finset.sum_congr rfl fun r _ => congrArg₂ (· * ·) (pay8_apply x1 r k) Ideal.ofBits_one_f32

/-- The zero fills read 0. -/
theorem zero8_apply (j : S8x64.Idx) : (broadcast S8x64 (Scalar.ofBits (F := Ideal) .f32 0x00000000#32) : Vec Ideal S8x64 .f32) j = 0 :=
  Ideal.ofBits_zero_f32
theorem zero1_apply (j : S1x64.Idx) : (broadcast S1x64 (Scalar.ofBits (F := Ideal) .f32 0x00000000#32) : Vec Ideal S1x64 .f32) j = 0 :=
  Ideal.ofBits_zero_f32

end Matmul

section Sums

/-- A function of the 1000000 rows continued by 0 past the last row. -/
def ext (f : Fin 1000000 → EReal) (r : ℕ) : EReal := if h : r < 1000000 then f ⟨r, h⟩ else 0

/-- Its sum over the rows of the first n blocks of 20000 rows. -/
def psum (f : Fin 1000000 → EReal) (n : ℕ) : EReal := ∑ r ∈ Finset.range (20000 * n), ext f r

theorem psum_zero (f : Fin 1000000 → EReal) : psum f 0 = 0 := by
  unfold psum; rw [Nat.mul_zero, Finset.range_zero, Finset.sum_empty]

/-- One more block adds that block's 20000 rows. -/
theorem psum_succ (f : Fin 1000000 → EReal) (n : ℕ) (hn : n < 50) :
    psum f (n + 1) = psum f n + ∑ j : Fin 20000, f ⟨20000 * n + j.val, by have := j.isLt; omega⟩ := by
  unfold psum
  rw [Nat.mul_succ, Finset.sum_range_add, ← Fin.sum_univ_eq_sum_range (fun j => ext f (20000 * n + j)) 20000]
  refine congrArg (_ + ·) (Finset.sum_congr rfl fun j _ => ?_)
  unfold ext
  exact dif_pos (by have := j.isLt; omega)

/-- All 50 blocks are all the rows. -/
theorem psum_last (f : Fin 1000000 → EReal) : psum f 50 = ∑ r : Fin 1000000, f r := by
  unfold psum
  rw [show 20000 * 50 = 1000000 from rfl, ← Fin.sum_univ_eq_sum_range (fun r => ext f r) 1000000]
  refine Finset.sum_congr rfl fun r _ => ?_
  unfold ext
  exact dif_pos r.isLt

/-- The one-hot weighted sum over all rows is the sum over the rows of that segment word. -/
theorem sum_oh (B : IVec S1000000x1 32) (k : Fin 8) (g : Fin 1000000 → EReal) :
    ∑ r : Fin 1000000, oh (B (ix2 r (0 : Fin 1))) k * g r = ∑ r ∈ segW B k, g r := by
  unfold segW
  rw [Finset.sum_filter]
  refine Finset.sum_congr rfl fun r _ => ?_
  unfold oh
  by_cases h : B (ix2 r (0 : Fin 1)) = BitVec.ofNat 32 k.val
  · rw [if_pos h, if_pos h, one_mul]
  · rw [if_neg h, if_neg h, zero_mul]

end Sums

section Blocks

/-- The block of rows the body reads at grid point t, -/
def xb (c : Dev nD) (t : Fin cfg0.N) : Vec Ideal S20000x64 .f32 := iblk0 V c 0 t
/-- and the block of segment words. -/
def bb (c : Dev nD) (t : Fin cfg0.N) : Vec Ideal S20000x1 .i32 := iblk0 V c 1 t

/-- The grid has 50 points. -/
theorem lt50 (t : Fin cfg0.N) : t.val < 50 := lt_of_lt_of_eq t.isLt N_0

/-- Both input windows step by one block of rows per grid point and stay in column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row j of the block at point t is row 20000 t + j of the array. -/
theorem xb_apply (c : Dev nD) (t : Fin cfg0.N) (j : Fin 20000) (q : Fin 64) :
    xb V c t (ix2 j q) = X V c (ix2 ⟨20000 * t.val + j.val, by have := lt50 t; have := j.isLt; omega⟩ q) := by
  have hi := idx_facts t
  unfold xb iblk0
  rw [View.read_apply]
  show V c main_arg0 _ = V c main_arg0 _
  congr 1
  funext a
  apply Fin.ext
  match a with
  | ⟨0, _⟩ => show win0_0.index t 0 * 20000 + 1 * j.val = 20000 * t.val + j.val; rw [hi.1]; omega
  | ⟨1, _⟩ => show win0_0.index t 1 * 64 + 1 * q.val = q.val; rw [hi.2.1]; omega

/-- The same for the column of segment words. -/
theorem bb_apply (c : Dev nD) (t : Fin cfg0.N) (j : Fin 20000) :
    bb V c t (ix2 j (0 : Fin 1)) = B V c (ix2 ⟨20000 * t.val + j.val, by have := lt50 t; have := j.isLt; omega⟩ (0 : Fin 1)) := by
  have hi := idx_facts t
  unfold bb iblk0
  rw [View.read_apply]
  show V c main_v0 _ = V c main_v0 _
  congr 1
  funext a
  apply Fin.ext
  match a with
  | ⟨0, _⟩ => show win0_1.index t 0 * 20000 + 1 * j.val = 20000 * t.val + j.val; rw [hi.2.2.1]; omega
  | ⟨1, _⟩ => show win0_1.index t 1 * 1 + 1 * 0 = 0; rw [hi.2.2.2]

end Blocks

section Recurrence

/-- After the first point: every accumulator is its zero fill plus the first block's contribution. -/
theorem outs_first (c : Dev nD) (h : 0 < cfg0.N) :
    outsAt0 V c 0 h
      = (k0_pay10 (xb V c ⟨0, h⟩) (bb V c ⟨0, h⟩) (k0_pay3 (F := Ideal)),
         k0_pay11 (xb V c ⟨0, h⟩) (bb V c ⟨0, h⟩) (k0_pay4 (F := Ideal)),
         k0_pay12 (bb V c ⟨0, h⟩) (k0_pay5 (F := Ideal)),
         k0_pay1 (xb V c ⟨0, h⟩) (k0_pay13 (k0_pay6 (F := Ideal))),
         k0_pay2 (k0_pay9 (xb V c ⟨0, h⟩)) (k0_pay7 (F := Ideal))) :=
  (outsAt0_A V c ⟨0, h⟩ (Nat.zero_mod 50)).trans
    (congrArg₂ Prod.mk (pieceA2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod 50)) (iblk0 V c 0 ⟨0, h⟩) (iblk0 V c 1 ⟨0, h⟩)) (congrArg₂ Prod.mk (pieceA3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod 50)) (iblk0 V c 0 ⟨0, h⟩) (iblk0 V c 1 ⟨0, h⟩)) (congrArg₂ Prod.mk (pieceA4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod 50)) (iblk0 V c 0 ⟨0, h⟩) (iblk0 V c 1 ⟨0, h⟩)) (congrArg₂ Prod.mk (pieceA5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod 50)) (iblk0 V c 0 ⟨0, h⟩) (iblk0 V c 1 ⟨0, h⟩)) (pieceA6 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr (Nat.zero_mod 50)) (iblk0 V c 0 ⟨0, h⟩) (iblk0 V c 1 ⟨0, h⟩))))))

/-- After a later point: what the point before left plus this block's contribution. -/
theorem outs_next (c : Dev nD) (n : ℕ) (h : n + 1 < cfg0.N) :
    outsAt0 V c (n + 1) h
      = (k0_pay10 (xb V c ⟨n + 1, h⟩) (bb V c ⟨n + 1, h⟩) (outsAt0 V c n (Nat.lt_of_succ_lt h)).1,
         k0_pay11 (xb V c ⟨n + 1, h⟩) (bb V c ⟨n + 1, h⟩) (outsAt0 V c n (Nat.lt_of_succ_lt h)).2.1,
         k0_pay12 (bb V c ⟨n + 1, h⟩) (outsAt0 V c n (Nat.lt_of_succ_lt h)).2.2.1,
         k0_pay1 (xb V c ⟨n + 1, h⟩) (k0_pay13 (outsAt0 V c n (Nat.lt_of_succ_lt h)).2.2.2.1),
         k0_pay2 (k0_pay9 (xb V c ⟨n + 1, h⟩)) (outsAt0 V c n (Nat.lt_of_succ_lt h)).2.2.2.2) := by
  have hB : ¬(⟨n + 1, h⟩ : Fin cfg0.N).val % 50 = 0 := by
    have := lt50 ⟨n + 1, h⟩; dsimp only at this ⊢; omega
  exact (outsAt0_B V c ⟨n + 1, h⟩ hB).trans
    (congrArg₂ Prod.mk (pieceB2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2) (congrArg₂ Prod.mk (pieceB3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2) (congrArg₂ Prod.mk (pieceB4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2) (congrArg₂ Prod.mk (pieceB5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2) (pieceB6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2)))))

end Recurrence

section Invariant

/-- The summands of the five sums, as functions of the row. -/
def fX (c : Dev nD) (k : Fin 8) (q : Fin 64) : Fin 1000000 → EReal :=
  fun r => oh (B V c (ix2 r (0 : Fin 1))) k * X V c (ix2 r q)
def fXX (c : Dev nD) (k : Fin 8) (q : Fin 64) : Fin 1000000 → EReal :=
  fun r => oh (B V c (ix2 r (0 : Fin 1))) k * (X V c (ix2 r q) * X V c (ix2 r q))
def fN (c : Dev nD) (k : Fin 8) : Fin 1000000 → EReal :=
  fun r => oh (B V c (ix2 r (0 : Fin 1))) k * 1
def gX (c : Dev nD) (q : Fin 64) : Fin 1000000 → EReal := fun r => X V c (ix2 r q)
def gXX (c : Dev nD) (q : Fin 64) : Fin 1000000 → EReal := fun r => X V c (ix2 r q) * X V c (ix2 r q)

/-- One grid point: an accumulator holding the sum over the blocks before t holds, after the body, the sum over the
    blocks up to t. -/
theorem step2 (c : Dev nD) (t : Fin cfg0.N) (acc : Vec Ideal S8x64 .f32) (k : Fin 8) (q : Fin 64)
    (hacc : acc (ix2 k q) = psum (fX V c k q) t.val) :
    k0_pay10 (xb V c t) (bb V c t) acc (ix2 k q) = psum (fX V c k q) (t.val + 1) := by
  refine (pay10_apply (xb V c t) (bb V c t) acc k q).trans ?_
  rw [hacc, psum_succ _ _ (lt50 t)]
  refine congrArg (_ + ·) (Finset.sum_congr rfl fun j _ => ?_)
  rw [bb_apply, xb_apply]
  rfl

theorem step3 (c : Dev nD) (t : Fin cfg0.N) (acc : Vec Ideal S8x64 .f32) (k : Fin 8) (q : Fin 64)
    (hacc : acc (ix2 k q) = psum (fXX V c k q) t.val) :
    k0_pay11 (xb V c t) (bb V c t) acc (ix2 k q) = psum (fXX V c k q) (t.val + 1) := by
  refine (pay11_apply (xb V c t) (bb V c t) acc k q).trans ?_
  rw [hacc, psum_succ _ _ (lt50 t)]
  refine congrArg (_ + ·) (Finset.sum_congr rfl fun j _ => ?_)
  rw [bb_apply, xb_apply]
  rfl

theorem step4 (c : Dev nD) (t : Fin cfg0.N) (acc : Vec Ideal S8x64 .f32) (k : Fin 8) (q : Fin 64)
    (hacc : acc (ix2 k q) = psum (fN V c k) t.val) :
    k0_pay12 (bb V c t) acc (ix2 k q) = psum (fN V c k) (t.val + 1) := by
  refine (pay12_apply (bb V c t) acc k q).trans ?_
  rw [hacc, psum_succ _ _ (lt50 t)]
  refine congrArg (_ + ·) (Finset.sum_congr rfl fun j _ => ?_)
  rw [bb_apply]
  rfl

theorem step5 (c : Dev nD) (t : Fin cfg0.N) (acc : Vec Ideal S1x64 .f32) (q : Fin 64)
    (hacc : acc (ix2 (0 : Fin 1) q) = psum (gX V c q) t.val) :
    k0_pay1 (xb V c t) (k0_pay13 acc) (ix2 (0 : Fin 1) q) = psum (gX V c q) (t.val + 1) := by
  refine (pay1_apply (xb V c t) (k0_pay13 acc) q).trans ?_
  rw [pay13_eq, hacc, psum_succ _ _ (lt50 t)]
  refine congrArg (_ + ·) (Finset.sum_congr rfl fun j _ => ?_)
  rw [xb_apply]
  rfl

theorem step6 (c : Dev nD) (t : Fin cfg0.N) (acc : Vec Ideal S1x64 .f32) (q : Fin 64)
    (hacc : acc (ix2 (0 : Fin 1) q) = psum (gXX V c q) t.val) :
    k0_pay2 (k0_pay9 (xb V c t)) acc (ix2 (0 : Fin 1) q) = psum (gXX V c q) (t.val + 1) := by
  refine (pay2_apply (xb V c t) acc q).trans ?_
  rw [hacc, psum_succ _ _ (lt50 t)]
  refine congrArg (_ + ·) (Finset.sum_congr rfl fun j _ => ?_)
  rw [xb_apply]
  rfl

/-- After grid point n each accumulator holds its sum over the rows of blocks 0 … n. -/
theorem inv (c : Dev nD) : ∀ (n : ℕ) (h : n < cfg0.N),
    (∀ (k : Fin 8) (q : Fin 64), (outsAt0 V c n h).1 (ix2 k q) = psum (fX V c k q) (n + 1))
    ∧ (∀ (k : Fin 8) (q : Fin 64), (outsAt0 V c n h).2.1 (ix2 k q) = psum (fXX V c k q) (n + 1))
    ∧ (∀ (k : Fin 8) (q : Fin 64), (outsAt0 V c n h).2.2.1 (ix2 k q) = psum (fN V c k) (n + 1))
    ∧ (∀ q : Fin 64, (outsAt0 V c n h).2.2.2.1 (ix2 (0 : Fin 1) q) = psum (gX V c q) (n + 1))
    ∧ (∀ q : Fin 64, (outsAt0 V c n h).2.2.2.2 (ix2 (0 : Fin 1) q) = psum (gXX V c q) (n + 1))
  | 0, h => by
    rw [outs_first V c h]
    exact ⟨fun k q => step2 V c ⟨0, h⟩ (k0_pay3 (F := Ideal)) k q ((zero8_apply (ix2 k q)).trans (psum_zero _).symm),
      fun k q => step3 V c ⟨0, h⟩ (k0_pay4 (F := Ideal)) k q ((zero8_apply (ix2 k q)).trans (psum_zero _).symm),
      fun k q => step4 V c ⟨0, h⟩ (k0_pay5 (F := Ideal)) k q ((zero8_apply (ix2 k q)).trans (psum_zero _).symm),
      fun q => step5 V c ⟨0, h⟩ (k0_pay6 (F := Ideal)) q ((zero1_apply (ix2 (0 : Fin 1) q)).trans (psum_zero _).symm),
      fun q => step6 V c ⟨0, h⟩ (k0_pay7 (F := Ideal)) q ((zero1_apply (ix2 (0 : Fin 1) q)).trans (psum_zero _).symm)⟩
  | n + 1, h => by
    have ih := inv c n (Nat.lt_of_succ_lt h)
    rw [outs_next V c n h]
    exact ⟨fun k q => step2 V c ⟨n + 1, h⟩ (outsAt0 V c n (Nat.lt_of_succ_lt h)).1 k q (ih.1 k q),
      fun k q => step3 V c ⟨n + 1, h⟩ (outsAt0 V c n (Nat.lt_of_succ_lt h)).2.1 k q (ih.2.1 k q),
      fun k q => step4 V c ⟨n + 1, h⟩ (outsAt0 V c n (Nat.lt_of_succ_lt h)).2.2.1 k q (ih.2.2.1 k q),
      fun q => step5 V c ⟨n + 1, h⟩ (outsAt0 V c n (Nat.lt_of_succ_lt h)).2.2.2.1 q (ih.2.2.2.1 q),
      fun q => step6 V c ⟨n + 1, h⟩ (outsAt0 V c n (Nat.lt_of_succ_lt h)).2.2.2.2 q (ih.2.2.2.2 q)⟩

end Invariant

section Final

/-- Point 49 is a point of the grid. -/
theorem last_lt : 49 < cfg0.N := lt_of_lt_of_eq (by decide) N_0.symm
/-- The last grid point. -/
abbrev tL : Fin cfg0.N := ⟨49, last_lt⟩

/-- Output array 2's one block is the whole array and only the last point writes it back: the array ends holding
    what the last point left in the staging buffer. -/
theorem final2 (c : Dev nD) : (dat0 V c).arrAt 2 cfg0.N = (outsAt0 V c tL.val tL.isLt).1 := by
  have hz' : (fun a => win0_2.index tL a * main_v1_0.ty.shape.size a) = fun _ => 0 :=
    funext fun a => by fin_cases a <;> decide +kernel
  refine (congrArg ((dat0 V c).arrAt 2) (N_0 : cfg0.N = tL.val + 1)).trans ?_
  refine ((dat0 V c).arrAt_succ 2 tL).trans ?_
  rw [if_pos ((flush0_2 tL).mpr rfl)]
  refine (Memref.write_access_unit_zero_univ (Elt Ideal) main_v1_0 hz' (fun a => by rw [congrFun hz' a]; simp) _ _).trans ?_
  show (cfg0.win 2).cut (grid0.coords tL) ((dat0 V c).after 2 tL) = _
  rw [after0_2 V c tL]
  generalize (outsAt0 V c tL.val tL.isLt).1 = Y
  rfl

/-- Output array 3's one block is the whole array and only the last point writes it back: the array ends holding
    what the last point left in the staging buffer. -/
theorem final3 (c : Dev nD) : (dat0 V c).arrAt 3 cfg0.N = (outsAt0 V c tL.val tL.isLt).2.1 := by
  have hz' : (fun a => win0_3.index tL a * main_v1_1.ty.shape.size a) = fun _ => 0 :=
    funext fun a => by fin_cases a <;> decide +kernel
  refine (congrArg ((dat0 V c).arrAt 3) (N_0 : cfg0.N = tL.val + 1)).trans ?_
  refine ((dat0 V c).arrAt_succ 3 tL).trans ?_
  rw [if_pos ((flush0_3 tL).mpr rfl)]
  refine (Memref.write_access_unit_zero_univ (Elt Ideal) main_v1_1 hz' (fun a => by rw [congrFun hz' a]; simp) _ _).trans ?_
  show (cfg0.win 3).cut (grid0.coords tL) ((dat0 V c).after 3 tL) = _
  rw [after0_3 V c tL]
  generalize (outsAt0 V c tL.val tL.isLt).2.1 = Y
  rfl

/-- Output array 4's one block is the whole array and only the last point writes it back: the array ends holding
    what the last point left in the staging buffer. -/
theorem final4 (c : Dev nD) : (dat0 V c).arrAt 4 cfg0.N = (outsAt0 V c tL.val tL.isLt).2.2.1 := by
  have hz' : (fun a => win0_4.index tL a * main_v1_2.ty.shape.size a) = fun _ => 0 :=
    funext fun a => by fin_cases a <;> decide +kernel
  refine (congrArg ((dat0 V c).arrAt 4) (N_0 : cfg0.N = tL.val + 1)).trans ?_
  refine ((dat0 V c).arrAt_succ 4 tL).trans ?_
  rw [if_pos ((flush0_4 tL).mpr rfl)]
  refine (Memref.write_access_unit_zero_univ (Elt Ideal) main_v1_2 hz' (fun a => by rw [congrFun hz' a]; simp) _ _).trans ?_
  show (cfg0.win 4).cut (grid0.coords tL) ((dat0 V c).after 4 tL) = _
  rw [after0_4 V c tL]
  generalize (outsAt0 V c tL.val tL.isLt).2.2.1 = Y
  rfl

/-- Output array 5's one block is the whole array and only the last point writes it back: the array ends holding
    what the last point left in the staging buffer. -/
theorem final5 (c : Dev nD) : (dat0 V c).arrAt 5 cfg0.N = (outsAt0 V c tL.val tL.isLt).2.2.2.1 := by
  have hz' : (fun a => win0_5.index tL a * main_v1_3.ty.shape.size a) = fun _ => 0 :=
    funext fun a => by fin_cases a <;> decide +kernel
  refine (congrArg ((dat0 V c).arrAt 5) (N_0 : cfg0.N = tL.val + 1)).trans ?_
  refine ((dat0 V c).arrAt_succ 5 tL).trans ?_
  rw [if_pos ((flush0_5 tL).mpr rfl)]
  refine (Memref.write_access_unit_zero_univ (Elt Ideal) main_v1_3 hz' (fun a => by rw [congrFun hz' a]; simp) _ _).trans ?_
  show (cfg0.win 5).cut (grid0.coords tL) ((dat0 V c).after 5 tL) = _
  rw [after0_5 V c tL]
  generalize (outsAt0 V c tL.val tL.isLt).2.2.2.1 = Y
  rfl

/-- Output array 6's one block is the whole array and only the last point writes it back: the array ends holding
    what the last point left in the staging buffer. -/
theorem final6 (c : Dev nD) : (dat0 V c).arrAt 6 cfg0.N = (outsAt0 V c tL.val tL.isLt).2.2.2.2 := by
  have hz' : (fun a => win0_6.index tL a * main_v1_4.ty.shape.size a) = fun _ => 0 :=
    funext fun a => by fin_cases a <;> decide +kernel
  refine (congrArg ((dat0 V c).arrAt 6) (N_0 : cfg0.N = tL.val + 1)).trans ?_
  refine ((dat0 V c).arrAt_succ 6 tL).trans ?_
  rw [if_pos ((flush0_6 tL).mpr rfl)]
  refine (Memref.write_access_unit_zero_univ (Elt Ideal) main_v1_4 hz' (fun a => by rw [congrFun hz' a]; simp) _ _).trans ?_
  show (cfg0.win 6).cut (grid0.coords tL) ((dat0 V c).after 6 tL) = _
  rw [after0_6 V c tL]
  generalize (outsAt0 V c tL.val tL.isLt).2.2.2.2 = Y
  rfl

end Final

theorem r0_sumX (c : Dev nD) (k : Fin 8) (q : Fin 64) :
    (A8 V 2 c : Fv S8x64) (ix2 k q) = ∑ r ∈ segW (B V c) k, X V c (ix2 r q) :=
  (congrFun (final2 V c) (ix2 k q)).trans (((inv V c tL.val tL.isLt).1 k q).trans
    ((psum_last _).trans (sum_oh (B V c) k fun r => X V c (ix2 r q))))

theorem r0_sumXX (c : Dev nD) (k : Fin 8) (q : Fin 64) :
    (A8 V 3 c : Fv S8x64) (ix2 k q) = ∑ r ∈ segW (B V c) k, X V c (ix2 r q) * X V c (ix2 r q) :=
  (congrFun (final3 V c) (ix2 k q)).trans (((inv V c tL.val tL.isLt).2.1 k q).trans
    ((psum_last _).trans (sum_oh (B V c) k fun r => X V c (ix2 r q) * X V c (ix2 r q))))

theorem r0_cnt (c : Dev nD) (k : Fin 8) (q : Fin 64) :
    (A8 V 4 c : Fv S8x64) (ix2 k q) = ∑ r ∈ segW (B V c) k, (1 : EReal) :=
  (congrFun (final4 V c) (ix2 k q)).trans (((inv V c tL.val tL.isLt).2.2.1 k q).trans
    ((psum_last _).trans (sum_oh (B V c) k fun _ => (1 : EReal))))

theorem r0_colX (c : Dev nD) (q : Fin 64) :
    (A8 V 5 c : Fv S1x64) (ix2 (0 : Fin 1) q) = ∑ r : Fin 1000000, X V c (ix2 r q) :=
  (congrFun (final5 V c) (ix2 (0 : Fin 1) q)).trans (((inv V c tL.val tL.isLt).2.2.2.1 q).trans (psum_last _))

theorem r0_colXX (c : Dev nD) (q : Fin 64) :
    (A8 V 6 c : Fv S1x64) (ix2 (0 : Fin 1) q) = ∑ r : Fin 1000000, X V c (ix2 r q) * X V c (ix2 r q) :=
  (congrFun (final6 V c) (ix2 (0 : Fin 1) q)).trans (((inv V c tL.val tL.isLt).2.2.2.2 q).trans (psum_last _))

end Cert.KV.R0

end
-- ==== Proof.KRegion1.lean ====
/-
  The second pass of the kernel's program, read as mathematics.

  The pass runs over 50 grid points. Point t holds rows 20000·t … 20000·t + 19999 of the rows x and of the column of
  segment words, and the whole of the two [8, 64] tables and of the [1, 64] weight and bias rows. From the words of its
  rows it builds the one-hot array (entry (p, k) is 1 where the word of row p is k, else 0), multiplies it with each
  table (so row p of a product is the table's row named by the word of row p, or zero when the word names no row), and
  writes (x − product₁) · product₂ · weight + bias over its 20000 rows of the output.

  Three steps. (1) The body's payload at an entry (p, q) of a block, from the loaded blocks: the one-hot entry, the two
  products as sums over the 8 table rows, the row broadcasts. (2) What point t writes back is the block of rows
  20000·t … of ONE function of the six whole input arrays, applyK of Spec at every (row, column): each input block is
  read where the output's block says, a block's coordinate being block index × block size + the coordinate inside.
  (3) The 50 blocks cover the 1000000 rows (row r lies in the block of point r / 20000) and every point writes its
  block back, so the output array after the last point is that function.
-/
import proofs.«419685_j35708358099270_1_alg».proof.Proof.Gen.KernelIdeal.Frame
import proofs.«419685_j35708358099270_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

open scoped BigOperators

noncomputable section

namespace Cert.KV.R1

open Idealize.ShloMosaic Idealize.ShloMosaic.TcCoe Idealize.ShloMosaic.ValueIdx Idealize.SL.Sem
open Cert.KernelIdeal Cert.KernelIdeal.Gen Cert.Spec

/-! ## The payload at an index -/

/-- The test "word a is word b", widened to 32 bits and read as a signed integer, is 1 or 0. -/
theorem oneHot_scalar (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    have e : (IntOp.cmpi .eq a a).setWidth 32 = 1#32 := by
      unfold IntOp.cmpi; simp
    rw [e, if_pos rfl]; norm_num
  · have hb : (a == b) = false := by simpa using h
    have e : (IntOp.cmpi .eq a b).setWidth 32 = 0#32 := by
      unfold IntOp.cmpi; rw [hb]; rfl
    rw [e, if_neg h]; norm_num

/-- The one-hot array of a column of words: entry (p, k) tests the word of row p against k. -/
abbrev ohArr (v : IVec S20000x1 32) : FVec Ideal S20000x8 .f32 :=
  sitofp (F := Ideal) .f32 (extui 32 (cmpi .eq
    (broadcastTo S20000x8 (shapeCast S20000x1 v shapeCasts_S20000x1_S20000x1) broadcasts_S20000x1_S20000x8)
    (broadcastTo S20000x8 (iota .tc S1x8 32 [1] iota_S1x8_d1_w32) broadcasts_S1x8_S20000x8)) natLt_1_32)

/-- Entry (p, k) of the one-hot array built from the column of words v: 1 where the word of row p is k. -/
theorem oneHot_apply (v : IVec S20000x1 32) (p : Fin 20000) (k : Fin 8) :
    ohArr v (ix2 p k) = oh (v (ix2 p (0 : Fin 1))) k := by
  have e1 : broadcastTo S20000x8 (shapeCast S20000x1 v shapeCasts_S20000x1_S20000x1) broadcasts_S20000x1_S20000x8 (ix2 p k)
      = v (ix2 p (0 : Fin 1)) := by
    rw [shapeCast_self]
    refine broadcastTo_apply v broadcasts_S20000x1_S20000x8 (ix2 p k) (ix2 p (0 : Fin 1)) fun ax => ?_
    match ax with
    | ⟨0, _⟩ => rfl
    | ⟨1, _⟩ => rfl
  have e2 : broadcastTo S20000x8 (iota .tc S1x8 32 [1] iota_S1x8_d1_w32) broadcasts_S1x8_S20000x8 (ix2 p k)
      = BitVec.ofNat 32 k.val := by
    rw [broadcastTo_1b_ab_apply, iota_single_apply]
  show FloatOps.sitofp (F := Ideal) .f32 ((IntOp.cmpi .eq
      (broadcastTo S20000x8 (shapeCast S20000x1 v shapeCasts_S20000x1_S20000x1) broadcasts_S20000x1_S20000x8 (ix2 p k))
      (broadcastTo S20000x8 (iota .tc S1x8 32 [1] iota_S1x8_d1_w32) broadcasts_S1x8_S20000x8 (ix2 p k))).setWidth 32) = _
  rw [e1, e2, oneHot_scalar]
  rfl

/-! The operand indices of the product [20000, 8] · [8, 64]: at result index i and contraction index q the left
    operand is read at (i 0, q) and the right operand at (q, i 1). -/

theorem lhs_ax0 (i : S20000x64.Idx) (q : dot_S20000x8_S8x64_S20000x64_1_0_0_1_n_n.contr.Idx) :
    (dot_S20000x8_S8x64_S20000x64_1_0_0_1_n_n.lhsIdx i q 0).val = (i 0).val := by
  unfold DotDims.lhsIdx
  rw [dif_neg (show ¬(0 : Fin S20000x8.rank) ∈ dot_S20000x8_S8x64_S20000x64_1_0_0_1_n_n.lhsBatch by decide),
    dif_pos (show (0 : Fin S20000x8.rank) ∈ dot_S20000x8_S8x64_S20000x64_1_0_0_1_n_n.lhsNonContracting by decide)]
  rfl

theorem lhs_ax1 (i : S20000x64.Idx) (q : dot_S20000x8_S8x64_S20000x64_1_0_0_1_n_n.contr.Idx) :
    (dot_S20000x8_S8x64_S20000x64_1_0_0_1_n_n.lhsIdx i q 1).val = (q ⟨0, by decide⟩).val :=
  dot_S20000x8_S8x64_S20000x64_1_0_0_1_n_n.lhsIdx_val_of_single rfl i q

theorem rhs_ax0 (i : S20000x64.Idx) (q : dot_S20000x8_S8x64_S20000x64_1_0_0_1_n_n.contr.Idx) :
    (dot_S20000x8_S8x64_S20000x64_1_0_0_1_n_n.rhsIdx i q 0).val = (q ⟨0, by decide⟩).val :=
  dot_S20000x8_S8x64_S20000x64_1_0_0_1_n_n.rhsIdx_val_of_single rfl i q

theorem rhs_ax1 (i : S20000x64.Idx) (q : dot_S20000x8_S8x64_S20000x64_1_0_0_1_n_n.contr.Idx) :
    (dot_S20000x8_S8x64_S20000x64_1_0_0_1_n_n.rhsIdx i q 1).val = (i 1).val := by
  unfold DotDims.rhsIdx
  rw [dif_neg (show ¬(1 : Fin S8x64.rank) ∈ dot_S20000x8_S8x64_S20000x64_1_0_0_1_n_n.rhsBatch by decide),
    dif_pos (show (1 : Fin S8x64.rank) ∈ dot_S20000x8_S8x64_S20000x64_1_0_0_1_n_n.rhsNonContracting by decide)]
  rfl

/-- The product into a zero accumulator at (p, q): the sum over the 8 columns of A's row p against T's column q. -/
theorem matmul_apply_ix (A : FVec Ideal S20000x8 .f32) (T : FVec Ideal S8x64 .f32) (p : Fin 20000) (q : Fin 64) :
    matmul dot_S20000x8_S8x64_S20000x64_1_0_0_1_n_n none A T (constant (F := Ideal) S20000x64 .f32 0x00000000#32) (ix2 p q)
      = ∑ k : Fin 8, A (ix2 p k) * T (ix2 k q) := by
  show FloatOps.matmul dot_S20000x8_S8x64_S20000x64_1_0_0_1_n_n none A T (constant (F := Ideal) S20000x64 .f32 0x00000000#32) (ix2 p q) = _
  rw [Ideal.matmul_constant_zero_apply, ← Equiv.sum_comp (contrEquiv1 dot_S20000x8_S8x64_S20000x64_1_0_0_1_n_n 8 rfl rfl).symm]
  refine Finset.sum_congr rfl fun k _ => ?_
  have hk := contrEquiv1_symm_val dot_S20000x8_S8x64_S20000x64_1_0_0_1_n_n 8 rfl rfl k
  have el : dot_S20000x8_S8x64_S20000x64_1_0_0_1_n_n.lhsIdx (ix2 p q)
      ((contrEquiv1 dot_S20000x8_S8x64_S20000x64_1_0_0_1_n_n 8 rfl rfl).symm k) = ix2 p k := funext fun a => Fin.ext (by
    match a with
    | ⟨0, _⟩ => exact lhs_ax0 _ _
    | ⟨1, _⟩ => exact (lhs_ax1 _ _).trans hk)
  have er : dot_S20000x8_S8x64_S20000x64_1_0_0_1_n_n.rhsIdx (ix2 p q)
      ((contrEquiv1 dot_S20000x8_S8x64_S20000x64_1_0_0_1_n_n 8 rfl rfl).symm k) = ix2 k q := funext fun a => Fin.ext (by
    match a with
    | ⟨0, _⟩ => exact (rhs_ax0 _ _).trans hk
    | ⟨1, _⟩ => exact rhs_ax1 _ _)
  rw [el, er]

/-- A table read through the one-hot row of the word of row p: the product of the one-hot array with the table. -/
theorem table_apply (v : IVec S20000x1 32) (T : FVec Ideal S8x64 .f32) (p : Fin 20000) (q : Fin 64) :
    matmul dot_S20000x8_S8x64_S20000x64_1_0_0_1_n_n none (ohArr v) (shapeCast S8x64 T shapeCasts_S8x64_S8x64)
        (constant (F := Ideal) S20000x64 .f32 0x00000000#32) (ix2 p q)
      = ∑ k : Fin 8, oh (v (ix2 p (0 : Fin 1))) k * T (ix2 k q) := by
  rw [shapeCast_self, matmul_apply_ix]
  exact Finset.sum_congr rfl fun k _ => by rw [oneHot_apply]

/-- The body's payload at (p, q), from the six loaded blocks. -/
theorem pay_apply (x0 : Vec Ideal S20000x64 .f32) (x1 : Vec Ideal S20000x1 .i32) (x2 x3 : Vec Ideal S8x64 .f32)
    (x4 x5 : Vec Ideal S1x64 .f32) (p : Fin 20000) (q : Fin 64) :
    k1_pay1 (F := Ideal) x0 x1 x2 x3 x4 x5 (ix2 p q)
      = ((x0 (ix2 p q) - ∑ k : Fin 8, oh (x1 (ix2 p (0 : Fin 1))) k * x2 (ix2 k q))
          * (∑ k : Fin 8, oh (x1 (ix2 p (0 : Fin 1))) k * x3 (ix2 k q)))
        * x4 (ix2 (0 : Fin 1) q) + x5 (ix2 (0 : Fin 1) q) := by
  show ((x0 (ix2 p q)
        - matmul dot_S20000x8_S8x64_S20000x64_1_0_0_1_n_n none (ohArr x1) (shapeCast S8x64 (x2 : FVec Ideal S8x64 .f32) shapeCasts_S8x64_S8x64)
            (constant (F := Ideal) S20000x64 .f32 0x00000000#32) (ix2 p q))
      * matmul dot_S20000x8_S8x64_S20000x64_1_0_0_1_n_n none (ohArr x1) (shapeCast S8x64 (x3 : FVec Ideal S8x64 .f32) shapeCasts_S8x64_S8x64)
            (constant (F := Ideal) S20000x64 .f32 0x00000000#32) (ix2 p q))
      * broadcastTo S20000x64 x4 broadcasts_S1x64_S20000x64 (ix2 p q)
      + broadcastTo S20000x64 x5 broadcasts_S1x64_S20000x64 (ix2 p q) = _
  rw [table_apply, table_apply, broadcastTo_1b_ab_apply, broadcastTo_1b_ab_apply]

/-! ## From blocks to the array -/

variable (V : (c : Dev nD) → (b : Ref sig .tc) → Buf (Elt Ideal) ((c : Thread nD τ).loc b))

theorem zeroOff : (![0, 0] : Fin 2 → Nat) = fun _ => 0 := funext fun a => by fin_cases a <;> rfl

/-- The second pass's result as one function of its six input arrays: applyK at every (row, column). -/
abbrev applyArr (X : Fv S1000000x64) (B : IVec S1000000x1 32) (M I : Fv S8x64) (Wt Bi : Fv S1x64) : Fv S1000000x64 :=
  fun i => applyK X B M I Wt Bi (i 0) (i 1)

/-- The payload at (p, q) of blocks that hold, where it reads them, the arrays' entries of row r: applyK at (r, q). -/
theorem point_eq (X : Fv S1000000x64) (B : IVec S1000000x1 32) (M I : Fv S8x64) (Wt Bi : Fv S1x64)
    (x0 : Vec Ideal S20000x64 .f32) (x1 : Vec Ideal S20000x1 .i32) (x2 x3 : Vec Ideal S8x64 .f32)
    (x4 x5 : Vec Ideal S1x64 .f32) (p : Fin 20000) (q : Fin 64) (r : Fin 1000000)
    (h0 : x0 (ix2 p q) = X (ix2 r q)) (h1 : x1 (ix2 p (0 : Fin 1)) = B (ix2 r (0 : Fin 1)))
    (h2 : ∀ k : Fin 8, x2 (ix2 k q) = M (ix2 k q)) (h3 : ∀ k : Fin 8, x3 (ix2 k q) = I (ix2 k q))
    (h4 : x4 (ix2 (0 : Fin 1) q) = Wt (ix2 (0 : Fin 1) q)) (h5 : x5 (ix2 (0 : Fin 1) q) = Bi (ix2 (0 : Fin 1) q)) :
    k1_pay1 (F := Ideal) x0 x1 x2 x3 x4 x5 (ix2 p q) = applyK X B M I Wt Bi r q := by
  rw [pay_apply, h0, h1, h4, h5]
  unfold applyK
  simp only [h2, h3]

/-- The printed index maps over the grid: the row blocks of the rows, of the words and of the output move together,
    point t at block t; the tables and the weight and bias rows stay at block 0. -/
theorem idx_facts : ∀ t : Fin cfg1.N,
      win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What point t writes back is the block of rows 20000·t … 20000·t + 19999 of applyArr of the six input arrays. -/
theorem flushed_eq (c : Dev nD) (t : Fin cfg1.N) :
    (dat1 (F := Ideal) V c).flushed 6 t = ((cfg1.win 6).blk t).view.read (Elt Ideal)
      (applyArr (V c main_arg0) (V c main_v0) (V c main_v63) (V c main_v84) (V c main_arg2) (V c main_arg3)) := by
  show (cfg1.win 6).cut (grid1.coords t) ((dat1 (F := Ideal) V c).after 6 t) = _
  rw [after1_6]
  unfold out1_6
  rw [View.canon_unit_zero zeroOff]
  simp only [View.ld_unit_zero (S := S20000x64) zeroOff, View.ld_unit_zero (S := S20000x1) zeroOff,
    View.ld_unit_zero (S := S8x64) zeroOff, View.ld_unit_zero (S := S1x64) zeroOff]
  obtain ⟨e60, e61, e00, e01, e10, e11, e20, e21, e30, e31, e40, e41, e50, e51⟩ := idx_facts t
  have hN : grid1.N = 50 := N_1
  have ht : t.val < grid1.N := t.isLt
  funext j
  obtain ⟨p, q, rfl⟩ : ∃ (p : Fin 20000) (q : Fin 64), j = ix2 p q := ⟨j 0, j 1, eq_ix2 j⟩
  have hp : p.val < 20000 := p.isLt
  have hq : q.val < 64 := q.isLt
  have hr : t.val * 20000 + p.val < 1000000 := by omega
  show k1_pay1 (F := Ideal) (iblk1 V c 0 t) (iblk1 V c 1 t) (iblk1 V c 2 t) (iblk1 V c 3 t) (iblk1 V c 4 t) (iblk1 V c 5 t) (ix2 p q)
    = applyArr (V c main_arg0) (V c main_v0) (V c main_v63) (V c main_v84) (V c main_arg2) (V c main_arg3)
        (((cfg1.win 6).blk t).view.emb (ix2 p q))
  have hemb : ((cfg1.win 6).blk t).view.emb (ix2 p q) = ix2 (⟨t.val * 20000 + p.val, hr⟩ : Fin 1000000) q := by
    funext a; apply Fin.ext
    match a with
    | ⟨0, _⟩ => show win1_6.index t (0 : Fin 2) * 20000 + 1 * p.val = t.val * 20000 + p.val; omega
    | ⟨1, _⟩ => show win1_6.index t (1 : Fin 2) * 64 + 1 * q.val = q.val; omega
  rw [hemb]
  refine point_eq (V c main_arg0) (V c main_v0) (V c main_v63) (V c main_v84) (V c main_arg2) (V c main_arg3)
    (iblk1 V c 0 t) (iblk1 V c 1 t) (iblk1 V c 2 t) (iblk1 V c 3 t) (iblk1 V c 4 t) (iblk1 V c 5 t)
    p q ⟨t.val * 20000 + p.val, hr⟩ ?_ ?_ ?_ ?_ ?_ ?_
  · show V c main_arg0 (((cfg1.win 0).blk t).view.emb (ix2 p q)) = V c main_arg0 (ix2 (⟨t.val * 20000 + p.val, hr⟩ : Fin 1000000) q)
    refine congrArg _ (funext fun a => Fin.ext ?_)
    match a with
    | ⟨0, _⟩ => show win1_0.index t (0 : Fin 2) * 20000 + 1 * p.val = t.val * 20000 + p.val; omega
    | ⟨1, _⟩ => show win1_0.index t (1 : Fin 2) * 64 + 1 * q.val = q.val; omega
  · show V c main_v0 (((cfg1.win 1).blk t).view.emb (ix2 p (0 : Fin 1))) = V c main_v0 (ix2 (⟨t.val * 20000 + p.val, hr⟩ : Fin 1000000) (0 : Fin 1))
    refine congrArg _ (funext fun a => Fin.ext ?_)
    match a with
    | ⟨0, _⟩ => show win1_1.index t (0 : Fin 2) * 20000 + 1 * p.val = t.val * 20000 + p.val; omega
    | ⟨1, _⟩ => show win1_1.index t (1 : Fin 2) * 1 + 1 * 0 = 0; omega
  · intro k
    have hk : k.val < 8 := k.isLt
    show V c main_v63 (((cfg1.win 2).blk t).view.emb (ix2 k q)) = V c main_v63 (ix2 k q)
    refine congrArg _ (funext fun a => Fin.ext ?_)
    match a with
    | ⟨0, _⟩ => show win1_2.index t (0 : Fin 2) * 8 + 1 * k.val = k.val; omega
    | ⟨1, _⟩ => show win1_2.index t (1 : Fin 2) * 64 + 1 * q.val = q.val; omega
  · intro k
    have hk : k.val < 8 := k.isLt
    show V c main_v84 (((cfg1.win 3).blk t).view.emb (ix2 k q)) = V c main_v84 (ix2 k q)
    refine congrArg _ (funext fun a => Fin.ext ?_)
    match a with
    | ⟨0, _⟩ => show win1_3.index t (0 : Fin 2) * 8 + 1 * k.val = k.val; omega
    | ⟨1, _⟩ => show win1_3.index t (1 : Fin 2) * 64 + 1 * q.val = q.val; omega
  · show V c main_arg2 (((cfg1.win 4).blk t).view.emb (ix2 (0 : Fin 1) q)) = V c main_arg2 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega
  · show V c main_arg3 (((cfg1.win 5).blk t).view.emb (ix2 (0 : Fin 1) q)) = V c main_arg3 (ix2 (0 : Fin 1) q)
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = q.val; omega

/-- An index of the output array lies in point t's block iff, on each axis, its coordinate lies in the block's range. -/
theorem mem_blk (t : Fin cfg1.N) (i : S1000000x64.Idx) :
    i ∈ ((cfg1.win 6).blk t).view.set ↔ ∀ a : Fin 2, win1_6.index t a * S20000x64.size a ≤ (i a).val
      ∧ (i a).val < win1_6.index t a * S20000x64.size a + S20000x64.size a := by
  show i ∈ ((View.whole main_v85).slice (win1_6.rect t)).set ↔ _
  rw [View.set_slice_whole, Rect.mem_set_unit]
  exact Iff.rfl

/-- Every entry of the output array is written back: row r lies in the block of point r / 20000 (50 blocks of 20000
    rows fill the 1000000 rows), and every point writes its block back. -/
theorem covered (i : S1000000x64.Idx) :
    ∃ t : Fin cfg1.N, (cfg1.win 6).flush t = true ∧ i ∈ ((cfg1.win 6).blk t).view.set := by
  have hi0 : (i 0).val < 1000000 := (i 0).isLt
  have hi1 : (i 1).val < 64 := (i 1).isLt
  have hN : grid1.N = 50 := N_1
  obtain ⟨t, ht⟩ : ∃ t : Fin cfg1.N, t.val = (i 0).val / 20000 :=
    ⟨⟨(i 0).val / 20000, by show (i 0).val / 20000 < grid1.N; omega⟩, rfl⟩
  obtain ⟨e60, e61, -⟩ := idx_facts t
  refine ⟨t, flush1_6 t, ?_⟩
  rw [mem_blk]
  intro a
  match a with
  | ⟨0, _⟩ =>
    show win1_6.index t (0 : Fin 2) * 20000 ≤ (i 0).val ∧ (i 0).val < win1_6.index t (0 : Fin 2) * 20000 + 20000
    omega
  | ⟨1, _⟩ =>
    show win1_6.index t (1 : Fin 2) * 64 ≤ (i 1).val ∧ (i 1).val < win1_6.index t (1 : Fin 2) * 64 + 64
    omega

/-- The output array after the last grid point is applyArr of the six input arrays. -/
theorem final (c : Dev nD) :
    (dat1 (F := Ideal) V c).arrAt 6 cfg1.N
      = applyArr (V c main_arg0) (V c main_v0) (V c main_v63) (V c main_v84) (V c main_arg2) (V c main_arg3) :=
  (dat1 (F := Ideal) V c).arrAt_eq_of_cover 6
    (applyArr (V c main_arg0) (V c main_v0) (V c main_v63) (V c main_v84) (V c main_arg2) (V c main_arg3))
    (fun t _ => flushed_eq V c t) covered

theorem r1_out (c : Dev nD) (r : Fin 1000000) (q : Fin 64) :
    ((dat1 (F := Ideal) V c).arrAt 6 cfg1.N : Fv S1000000x64) (ix2 r q)
      = applyK (V c main_arg0) (V c main_v0) (V c main_v63) (V c main_v84) (V c main_arg2) (V c main_arg3) r q :=
  congrFun (final V c) (ix2 r q)

end Cert.KV.R1

end
-- ==== Proof.KHost.lean ====
import proofs.«419685_j35708358099270_1_alg».proof.Proof.Gen.KernelIdeal.Frame
import proofs.«419685_j35708358099270_1_alg».proof.Proof.Spec

set_option maxRecDepth 16384

open scoped BigOperators

noncomputable section

namespace Cert.KV.Host

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- Output array w of the first pass after its last grid point, in the run from m. -/
abbrev A8 (w : Fin cfg0.W) (c : Dev nD) := (dat0 (F := Ideal) (V1 m ρ) c).arrAt w cfg0.N

/-- A buffer that no operation of a stretch of host operations writes holds after the stretch what it held
    before it: one inequality of references per operation, each decided. -/
local macro "host_keeps" : tactic => `(tactic| (
  refine StableHlo.after_of_forall_not_mem _ _ (List.forall_iff_forall_mem.mp ?_)
  simp only [hostOps0, hostOps1, List.Forall, StableHlo.nullary_writes, StableHlo.unary_writes,
    StableHlo.binary_writes, StableHlo.reshape_writes, Finset.mem_singleton]
  repeat' apply And.intro
  all_goals exact StableHlo.devRef_ne_of_ne (by decide)))

/-- The one host operation before the first pass (the reshape of the segment numbers) does not write x. -/
theorem W1_keep_arg0 (c : Dev nD) :
    W1 m ρ c (Proc.devRef .tc main_arg0) = W0 m ρ c (Proc.devRef .tc main_arg0) := by
  host_keeps

theorem V1_x (c : Dev nD) : V1 m ρ c main_arg0 = m ((c.tc : Thread nD τ).loc main_arg0) := by
  exact (W1_keep_arg0 m ρ c).trans rfl

theorem V1_bid (c : Dev nD) (r : Fin 1000000) :
    (V1 m ρ c main_v0 : IVec S1000000x1 32) (ix2 r (0 : Fin 1))
      = (m ((c.tc : Thread nD τ).loc main_arg1) : IVec S1000000 32) (ix1 r) := by
  -- the reshaped column is the argument read at the index with the same row-major position
  have e : (V1 m ρ c main_v0 : IVec S1000000x1 32)
      = fun i => shapeCast S1000000x1 (W0 m ρ c (Proc.devRef .tc main_arg1) : IVec S1000000 32)
          shapeCasts_S1000000_S1000000x1 i := by
    show StableHlo.after hostOps0 (W0 m ρ c) (Proc.devRef .tc main_v0) = _
    after_results
    rfl
  rw [e]
  show shapeCast S1000000x1 (W0 m ρ c (Proc.devRef .tc main_arg1) : IVec S1000000 32)
          shapeCasts_S1000000_S1000000x1 (ix2 r (0 : Fin 1)) = _
  -- position of (r, 0) in [1000000, 1] is r * 1 + 0, the position of r in [1000000]
  have hk : ((S1000000.rowMajor (ix1 r) : Fin _) : Nat) = S1000000x1.rowMajor (ix2 r (0 : Fin 1)) := by
    rw [Shape.rowMajor_val_one, Shape.rowMajor_val_two]
    show r.val = r.val * 1 + 0
    omega
  exact congrArg (m ((c.tc : Thread nD τ).loc main_arg1) : IVec S1000000 32)
    (Shape.reshapeEquiv_eq_of_rowMajor _ hk)

theorem V3_x (c : Dev nD) : V3 m ρ c main_arg0 = m ((c.tc : Thread nD τ).loc main_arg0) := by
  calc V3 m ρ c main_arg0
    _ = W2 m ρ c (Proc.devRef .tc main_arg0) := by host_keeps
    _ = W1 m ρ c (Proc.devRef .tc main_arg0) :=
        (W2_arr m ρ c 0).trans (((dat0 (V1 m ρ) c).arrAt_in 0 rfl _).trans (A_eq0 (V1 m ρ) c 0))
    _ = m ((c.tc : Thread nD τ).loc main_arg0) := V1_x m ρ c

theorem V3_bid (c : Dev nD) : V3 m ρ c main_v0 = V1 m ρ c main_v0 := by
  calc V3 m ρ c main_v0
    _ = W2 m ρ c (Proc.devRef .tc main_v0) := by host_keeps
    _ = V1 m ρ c main_v0 :=
        (W2_arr m ρ c 1).trans (((dat0 (V1 m ρ) c).arrAt_in 1 rfl _).trans (A_eq0 (V1 m ρ) c 1))

theorem V3_w (c : Dev nD) : V3 m ρ c main_arg2 = m ((c.tc : Thread nD τ).loc main_arg2) := by
  calc V3 m ρ c main_arg2
    _ = W2 m ρ c (Proc.devRef .tc main_arg2) := by host_keeps
    _ = W1 m ρ c (Proc.devRef .tc main_arg2) := W2_of_ne m ρ c main_arg2 (by decide)
    _ = W0 m ρ c (Proc.devRef .tc main_arg2) := by host_keeps
    _ = m ((c.tc : Thread nD τ).loc main_arg2) := rfl

theorem V3_bias (c : Dev nD) : V3 m ρ c main_arg3 = m ((c.tc : Thread nD τ).loc main_arg3) := by
  calc V3 m ρ c main_arg3
    _ = W2 m ρ c (Proc.devRef .tc main_arg3) := by host_keeps
    _ = W1 m ρ c (Proc.devRef .tc main_arg3) := W2_of_ne m ρ c main_arg3 (by decide)
    _ = W0 m ρ c (Proc.devRef .tc main_arg3) := by host_keeps
    _ = m ((c.tc : Thread nD τ).loc main_arg3) := rfl

/-! At the first pass's exit its five output arrays hold the folded write-backs (the five sums), and the two
    weight arguments, written by no operation and no window of the first pass, hold what was launched. -/

theorem W2_s0 (c : Dev nD) : W2 m ρ c (Proc.devRef .tc main_v1_0) = A8 m ρ 2 c := W2_arr m ρ c 2
theorem W2_s1 (c : Dev nD) : W2 m ρ c (Proc.devRef .tc main_v1_1) = A8 m ρ 3 c := W2_arr m ρ c 3
theorem W2_s2 (c : Dev nD) : W2 m ρ c (Proc.devRef .tc main_v1_2) = A8 m ρ 4 c := W2_arr m ρ c 4
theorem W2_s3 (c : Dev nD) : W2 m ρ c (Proc.devRef .tc main_v1_3) = A8 m ρ 5 c := W2_arr m ρ c 5
theorem W2_s4 (c : Dev nD) : W2 m ρ c (Proc.devRef .tc main_v1_4) = A8 m ρ 6 c := W2_arr m ρ c 6

theorem W2_mw (c : Dev nD) :
    W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_keeps
    _ = m ((c.tc : Thread nD τ).loc main_arg4) := rfl

theorem W2_vw (c : Dev nD) :
    W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps
    _ = m ((c.tc : Thread nD τ).loc main_arg5) := rfl

set_option maxHeartbeats 8000000 in
theorem V3_mean (c : Dev nD) :
    (V3 m ρ c main_v63 : Fv S8x64)
      = kMean (A8 m ρ 2 c) (A8 m ρ 4 c) (A8 m ρ 5 c) (m ((c.tc : Thread nD τ).loc main_arg4)) := by
  -- the mean table as the composition of the operations that feed it, over the contents at the first pass's exit
  show StableHlo.after hostOps1 (W2 m ρ c) (Proc.devRef .tc main_v63) = _
  after_results_simp
  -- the sums are the first pass's outputs, the weights the launched argument
  rw [W2_s0, W2_s2, W2_s3, W2_mw]
  -- the composition is the mixed mean, operation for operation
  simp only [kMean, tailMean, kMeanIn, kMeanBn, mix, pick, softmax3, rowMean, splat]
  rfl

set_option maxHeartbeats 8000000 in
theorem V3_inv (c : Dev nD) :
    (V3 m ρ c main_v84 : Fv S8x64)
      = kInv (A8 m ρ 2 c) (A8 m ρ 3 c) (A8 m ρ 4 c) (A8 m ρ 5 c) (A8 m ρ 6 c)
          (m ((c.tc : Thread nD τ).loc main_arg5)) := by
  -- the reciprocal-deviation table as the composition of the operations that feed it
  show StableHlo.after hostOps1 (W2 m ρ c) (Proc.devRef .tc main_v84) = _
  after_results_simp
  -- the five sums are the first pass's outputs, the weights the launched argument
  rw [W2_s0, W2_s1, W2_s2, W2_s3, W2_s4, W2_vw]
  -- the composition is 1 / sqrt (mixed variance + eps), operation for operation
  simp only [kInv, tailInv, kMeanIn, kVarIn, kMeanBn, kVarBn, mix, pick, softmax3, rowMean, varLn, splat]
  rfl

theorem W4_out (c : Dev nD) :
    W4 m ρ c (Proc.devRef .tc main_v85) = (dat1 (F := Ideal) (V3 m ρ) c).arrAt 6 cfg1.N := by
  exact W4_arr m ρ c 6

end Cert.KV.Host

end
-- ==== Proof.RefRunOpsTable.lean ====
import proofs.«419685_j35708358099270_1_alg».proof.Proof.Gen.ReferenceIdeal
import Idealize.ShloMosaic.Lib.StableHlo.Run

noncomputable section

namespace Cert.RV

open Idealize.ShloMosaic Idealize.ShloMosaic.TcCoe Idealize.SL.Sem Idealize.ShloMosaic.StableHlo
open Cert.ReferenceIdeal Cert.ReferenceIdeal.Gen

variable {F : FTy → Type} [FloatOps F]

/-- The operations of window 0 of @main's statements, calls inlined: 82 operations. -/
abbrev ops0 : List (HloOp τ sig (Elt F)) :=
  [ StableHlo.nullary main_cst (constant S_ .f32 0x3F800000#32),
    StableHlo.unary main_cst main_v0 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v1 (broadcastInDim S8 ![] bcast_S_S8 : (⟨S_, .f32⟩ : BufTy).Contents (Elt F) → (⟨S8, .f32⟩ : BufTy).Contents (Elt F)),
    StableHlo.unary main_arg1 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S8_S1000000x1_S1000000_n_0_0_1 x i u) : (⟨S8, .f32⟩ : BufTy).Contents (Elt F) → (⟨S1000000x1, .i32⟩ : BufTy).Contents (Elt F) → (⟨S1000000, .f32⟩ : BufTy).Contents (Elt F) → (⟨S8, .f32⟩ : BufTy).Contents (Elt F)),
    StableHlo.nullary main_cst_1 (constant S_ .f32 0x3F800000#32),
    StableHlo.unary main_cst_1 main_v4 (broadcastInDim S8 ![] bcast_S_S8 : (⟨S_, .f32⟩ : BufTy).Contents (Elt F) → (⟨S8, .f32⟩ : BufTy).Contents (Elt F)),
    StableHlo.binary main_v3 main_v4 main_v5 (maximumf : (⟨S8, .f32⟩ : BufTy).Contents (Elt F) → (⟨S8, .f32⟩ : BufTy).Contents (Elt F) → (⟨S8, .f32⟩ : BufTy).Contents (Elt F)),
    StableHlo.nullary main_cst_2 (constant S_ .f32 0x00000000#32),
    StableHlo.unary main_cst_2 main_v6 (broadcastInDim S8x64 ![] bcast_S_S8x64 : (⟨S_, .f32⟩ : BufTy).Contents (Elt F) → (⟨S8x64, .f32⟩ : BufTy).Contents (Elt F)),
    StableHlo.unary main_arg1 main_v7 (broadcastInDim S1000000x1 ![0] bcast_S1000000_S1000000x1_0 : (⟨S1000000, .i32⟩ : BufTy).Contents (Elt F) → (⟨S1000000x1, .i32⟩ : BufTy).Contents (Elt F)),
    StableHlo.ternary main_v6 main_v7 main_arg0 main_v8 ((fun x i u => Host.scatterAdd scatter_S8x64_S1000000x1_S1000000x64_1_0_0_1 x i u) : (⟨S8x64, .f32⟩ : BufTy).Contents (Elt F) → (⟨S1000000x1, .i32⟩ : BufTy).Contents (Elt F) → (⟨S1000000x64, .f32⟩ : BufTy).Contents (Elt F) → (⟨S8x64, .f32⟩ : BufTy).Contents (Elt F)),
    StableHlo.unary main_v5 main_v9 (broadcastInDim S8x1 ![0] bcast_S8_S8x1_0 : (⟨S8, .f32⟩ : BufTy).Contents (Elt F) → (⟨S8x1, .f32⟩ : BufTy).Contents (Elt F)),
    StableHlo.unary main_v9 main_v10 (broadcastInDim S8x64 ![0, 1] bcast_S8x1_S8x64_0_1 : (⟨S8x1, .f32⟩ : BufTy).Contents (Elt F) → (⟨S8x64, .f32⟩ : BufTy).Contents (Elt F)),
    StableHlo.binary main_v8 main_v10 main_v11 (Host.divf : (⟨S8x64, .f32⟩ : BufTy).Contents (Elt F) → (⟨S8x64, .f32⟩ : BufTy).Contents (Elt F) → (⟨S8x64, .f32⟩ : BufTy).Contents (Elt F)),
    StableHlo.nullary main_c (constantI S_ 32 0#32),
    StableHlo.unary main_c main_v12 (broadcastInDim S1000000 ![] bcast_S_S1000000 : (⟨S_, .i32⟩ : BufTy).Contents (Elt F) → (⟨S1000000, .i32⟩ : BufTy).Contents (Elt F)),
    StableHlo.binary main_arg1 main_v12 main_v13 (cmpi .slt : (⟨S1000000, .i32⟩ : BufTy).Contents (Elt F) → (⟨S1000000, .i32⟩ : BufTy).Contents (Elt F) → (⟨S1000000, .i1⟩ : BufTy).Contents (Elt F)),
    StableHlo.nullary main_c_3 (constantI S_ 32 8#32),
    StableHlo.unary main_c_3 main_v14 (broadcastInDim S1000000 ![] bcast_S_S1000000 : (⟨S_, .i32⟩ : BufTy).Contents (Elt F) → (⟨S1000000, .i32⟩ : BufTy).Contents (Elt F)),
    StableHlo.binary main_arg1 main_v14 main_v15 (addi : (⟨S1000000, .i32⟩ : BufTy).Contents (Elt F) → (⟨S1000000, .i32⟩ : BufTy).Contents (Elt F) → (⟨S1000000, .i32⟩ : BufTy).Contents (Elt F)),
    StableHlo.ternary main_v13 main_v15 main_arg1 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v16 main_v17 (broadcastInDim S1000000x1 ![0] bcast_S1000000_S1000000x1_0 : (⟨S1000000, .i32⟩ : BufTy).Contents (Elt F) → (⟨S1000000x1, .i32⟩ : BufTy).Contents (Elt F)),
    StableHlo.binary main_v11 main_v17 main_v18 ((fun x i => Host.gather gather_S8x64_S1000000x1_S1000000x64_1_0_n_n_0_1_164 x i) : (⟨S8x64, .f32⟩ : BufTy).Contents (Elt F) → (⟨S1000000x1, .i32⟩ : BufTy).Contents (Elt F) → (⟨S1000000x64, .f32⟩ : BufTy).Contents (Elt F)),
    StableHlo.binary main_arg0 main_v18 main_v19 (subf : (⟨S1000000x64, .f32⟩ : BufTy).Contents (Elt F) → (⟨S1000000x64, .f32⟩ : BufTy).Contents (Elt F) → (⟨S1000000x64, .f32⟩ : BufTy).Contents (Elt F)),
    StableHlo.binary main_v19 main_v19 main_v20 (mulf : (⟨S1000000x64, .f32⟩ : BufTy).Contents (Elt F) → (⟨S1000000x64, .f32⟩ : BufTy).Contents (Elt F) → (⟨S1000000x64, .f32⟩ : BufTy).Contents (Elt F)),
    StableHlo.nullary main_cst_4 (constant S_ .f32 0x00000000#32),
    StableHlo.unary main_cst_4 main_v21 (broadcastInDim S8x64 ![] bcast_S_S8x64 : (⟨S_, .f32⟩ : BufTy).Contents (Elt F) → (⟨S8x64, .f32⟩ : BufTy).Contents (Elt F)),
    StableHlo.unary main_arg1 main_v22 (broadcastInDim S1000000x1 ![0] bcast_S1000000_S1000000x1_0 : (⟨S1000000, .i32⟩ : BufTy).Contents (Elt F) → (⟨S1000000x1, .i32⟩ : BufTy).Contents (Elt F)),
    StableHlo.ternary main_v21 main_v22 main_v20 main_v23 ((fun x i u => Host.scatterAdd scatter_S8x64_S1000000x1_S1000000x64_1_0_0_1 x i u) : (⟨S8x64, .f32⟩ : BufTy).Contents (Elt F) → (⟨S1000000x1, .i32⟩ : BufTy).Contents (Elt F) → (⟨S1000000x64, .f32⟩ : BufTy).Contents (Elt F) → (⟨S8x64, .f32⟩ : BufTy).Contents (Elt F)),
    StableHlo.unary main_v5 main_v24 (broadcastInDim S8x1 ![0] bcast_S8_S8x1_0 : (⟨S8, .f32⟩ : BufTy).Contents (Elt F) → (⟨S8x1, .f32⟩ : BufTy).Contents (Elt F)),
    StableHlo.unary main_v24 main_v25 (broadcastInDim S8x64 ![0, 1] bcast_S8x1_S8x64_0_1 : (⟨S8x1, .f32⟩ : BufTy).Contents (Elt F) → (⟨S8x64, .f32⟩ : BufTy).Contents (Elt F)),
    StableHlo.binary main_v23 main_v25 main_v26 (Host.divf : (⟨S8x64, .f32⟩ : BufTy).Contents (Elt F) → (⟨S8x64, .f32⟩ : BufTy).Contents (Elt F) → (⟨S8x64, .f32⟩ : BufTy).Contents (Elt F)),
    StableHlo.nullary main_cst_5 (constant S_ .f32 0x00000000#32),
    StableHlo.binary main_v11 main_cst_5 main_v27 ((fun x v => Host.reduceAdd x v reducesTo_S8x64_S8_d1 h_S_) : (⟨S8x64, .f32⟩ : BufTy).Contents (Elt F) → (⟨S_, .f32⟩ : BufTy).Contents (Elt F) → (⟨S8, .f32⟩ : BufTy).Contents (Elt F)),
    StableHlo.unary main_v27 main_v28 (broadcastInDim S8x1 ![0] bcast_S8_S8x1_0 : (⟨S8, .f32⟩ : BufTy).Contents (Elt F) → (⟨S8x1, .f32⟩ : BufTy).Contents (Elt F)),
    StableHlo.nullary main_cst_6 (constant S_ .f32 0x42800000#32),
    StableHlo.unary main_cst_6 main_v29 (broadcastInDim S8x1 ![] bcast_S_S8x1 : (⟨S_, .f32⟩ : BufTy).Contents (Elt F) → (⟨S8x1, .f32⟩ : BufTy).Contents (Elt F)),
    StableHlo.binary main_v28 main_v29 main_v30 (Host.divf : (⟨S8x1, .f32⟩ : BufTy).Contents (Elt F) → (⟨S8x1, .f32⟩ : BufTy).Contents (Elt F) → (⟨S8x1, .f32⟩ : BufTy).Contents (Elt F)),
    StableHlo.binary main_v11 main_v11 main_v31 (mulf : (⟨S8x64, .f32⟩ : BufTy).Contents (Elt F) → (⟨S8x64, .f32⟩ : BufTy).Contents (Elt F) → (⟨S8x64, .f32⟩ : BufTy).Contents (Elt F)),
    StableHlo.binary main_v26 main_v31 main_v32 (addf : (⟨S8x64, .f32⟩ : BufTy).Contents (Elt F) → (⟨S8x64, .f32⟩ : BufTy).Contents (Elt F) → (⟨S8x64, .f32⟩ : BufTy).Contents (Elt F)),
    StableHlo.nullary main_cst_7 (constant S_ .f32 0x00000000#32),
    StableHlo.binary main_v32 main_cst_7 main_v33 ((fun x v => Host.reduceAdd x v reducesTo_S8x64_S8_d1 h_S_) : (⟨S8x64, .f32⟩ : BufTy).Contents (Elt F) → (⟨S_, .f32⟩ : BufTy).Contents (Elt F) → (⟨S8, .f32⟩ : BufTy).Contents (Elt F)),
    StableHlo.unary main_v33 main_v34 (broadcastInDim S8x1 ![0] bcast_S8_S8x1_0 : (⟨S8, .f32⟩ : BufTy).Contents (Elt F) → (⟨S8x1, .f32⟩ : BufTy).Contents (Elt F)),
    StableHlo.nullary main_cst_8 (constant S_ .f32 0x42800000#32),
    StableHlo.unary main_cst_8 main_v35 (broadcastInDim S8x1 ![] bcast_S_S8x1 : (⟨S_, .f32⟩ : BufTy).Contents (Elt F) → (⟨S8x1, .f32⟩ : BufTy).Contents (Elt F)),
    StableHlo.binary main_v34 main_v35 main_v36 (Host.divf : (⟨S8x1, .f32⟩ : BufTy).Contents (Elt F) → (⟨S8x1, .f32⟩ : BufTy).Contents (Elt F) → (⟨S8x1, .f32⟩ : BufTy).Contents (Elt F)),
    StableHlo.binary main_v30 main_v30 main_v37 (mulf : (⟨S8x1, .f32⟩ : BufTy).Contents (Elt F) → (⟨S8x1, .f32⟩ : BufTy).Contents (Elt F) → (⟨S8x1, .f32⟩ : BufTy).Contents (Elt F)),
    StableHlo.binary main_v36 main_v37 main_v38 (subf : (⟨S8x1, .f32⟩ : BufTy).Contents (Elt F) → (⟨S8x1, .f32⟩ : BufTy).Contents (Elt F) → (⟨S8x1, .f32⟩ : BufTy).Contents (Elt F)),
    StableHlo.nullary main_cst_9 (constant S_ .f32 0x00000000#32),
    StableHlo.binary main_arg0 main_cst_9 main_v39 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.unary main_v39 main_v40 (broadcastInDim S1x64 ![1] bcast_S64_S1x64_1 : (⟨S64, .f32⟩ : BufTy).Contents (Elt F) → (⟨S1x64, .f32⟩ : BufTy).Contents (Elt F)),
    StableHlo.nullary main_cst_10 (constant S_ .f32 0x49742400#32),
    StableHlo.unary main_cst_10 main_v41 (broadcastInDim S1x64 ![] bcast_S_S1x64 : (⟨S_, .f32⟩ : BufTy).Contents (Elt F) → (⟨S1x64, .f32⟩ : BufTy).Contents (Elt F)),
    StableHlo.binary main_v40 main_v41 main_v42 (Host.divf : (⟨S1x64, .f32⟩ : BufTy).Contents (Elt F) → (⟨S1x64, .f32⟩ : BufTy).Contents (Elt F) → (⟨S1x64, .f32⟩ : BufTy).Contents (Elt F)),
    StableHlo.nullary main_c_11 (constantI S_ 32 1#32),
    StableHlo.nullary main_call0_cst ((constant S_ .f32 0x00000000#32) : (⟨S_, .f32⟩ : BufTy).Contents (Elt F)),
    StableHlo.binary main_arg0 main_call0_cst main_call0_v0 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.unary main_call0_v0 main_call0_v1 ((broadcastInDim S1x64 ![1] bcast_S64_S1x64_1) : (⟨S64, .f32⟩ : BufTy).Contents (Elt F) → (⟨S1x64, .f32⟩ : BufTy).Contents (Elt F)),
    StableHlo.nullary main_call0_cst_0 ((constant S_ .f32 0x49742400#32) : (⟨S_, .f32⟩ : BufTy).Contents (Elt F)),
    StableHlo.unary main_call0_cst_0 main_call0_v2 ((broadcastInDim S1x64 ![] bcast_S_S1x64) : (⟨S_, .f32⟩ : BufTy).Contents (Elt F) → (⟨S1x64, .f32⟩ : BufTy).Contents (Elt F)),
    StableHlo.binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    StableHlo.unary main_call0_v3 main_call0_v4 ((broadcastInDim S1000000x64 ![0, 1] bcast_S1x64_S1000000x64_0_1) : (⟨S1x64, .f32⟩ : BufTy).Contents (Elt F) → (⟨S1000000x64, .f32⟩ : BufTy).Contents (Elt F)),
    StableHlo.binary main_arg0 main_call0_v4 main_call0_v5 (subf : (⟨S1000000x64, .f32⟩ : BufTy).Contents (Elt F) → (⟨S1000000x64, .f32⟩ : BufTy).Contents (Elt F) → (⟨S1000000x64, .f32⟩ : BufTy).Contents (Elt F)),
    StableHlo.binary main_call0_v5 main_call0_v5 main_call0_v6 (mulf : (⟨S1000000x64, .f32⟩ : BufTy).Contents (Elt F) → (⟨S1000000x64, .f32⟩ : BufTy).Contents (Elt F) → (⟨S1000000x64, .f32⟩ : BufTy).Contents (Elt F)),
    StableHlo.unary main_c_11 main_call0_v7 ((sitofp .f32) : (⟨S_, .i32⟩ : BufTy).Contents (Elt F) → (⟨S_, .f32⟩ : BufTy).Contents (Elt F)),
    StableHlo.nullary main_call0_cst_1 ((constant S_ .f32 0x49742400#32) : (⟨S_, .f32⟩ : BufTy).Contents (Elt F)),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 ((constant S_ .f32 0x00000000#32) : (⟨S_, .f32⟩ : BufTy).Contents (Elt F)),
    StableHlo.binary main_call0_v6 main_call0_cst_2 main_call0_v9 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.unary main_call0_v9 main_call0_v10 ((broadcastInDim S1x64 ![1] bcast_S64_S1x64_1) : (⟨S64, .f32⟩ : BufTy).Contents (Elt F) → (⟨S1x64, .f32⟩ : BufTy).Contents (Elt F)),
    StableHlo.unary main_call0_v8 main_call0_v11 ((broadcastInDim S1x64 ![] bcast_S_S1x64) : (⟨S_, .f32⟩ : BufTy).Contents (Elt F) → (⟨S1x64, .f32⟩ : BufTy).Contents (Elt F)),
    StableHlo.binary main_call0_v10 main_call0_v11 main_call0_v12 (Host.divf : (⟨S1x64, .f32⟩ : BufTy).Contents (Elt F) → (⟨S1x64, .f32⟩ : BufTy).Contents (Elt F) → (⟨S1x64, .f32⟩ : BufTy).Contents (Elt F)),
    StableHlo.nullary main_call0_cst_3 ((constant S_ .f32 0x00000000#32) : (⟨S_, .f32⟩ : BufTy).Contents (Elt F)),
    StableHlo.binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    StableHlo.nullary main_call0_cst_4 ((constant S_ .f32 0x7FC00000#32) : (⟨S_, .f32⟩ : BufTy).Contents (Elt F)),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 ((broadcastInDim S1x64 ![] bcast_S_S1x64) : (⟨S_, .f32⟩ : BufTy).Contents (Elt F) → (⟨S1x64, .f32⟩ : BufTy).Contents (Elt F)),
    StableHlo.ternary main_call0_v13 main_call0_v12 main_call0_call0_v1 main_v43 ((fun p a b => select (broadcastInDim S1x64 ![] bcast_S_S1x64 p) a b) : (⟨S_, .i1⟩ : BufTy).Contents (Elt F) → (⟨S1x64, .f32⟩ : BufTy).Contents (Elt F) → (⟨S1x64, .f32⟩ : BufTy).Contents (Elt F) → (⟨S1x64, .f32⟩ : BufTy).Contents (Elt F)),
    StableHlo.nullary main_cst_12 (constant S_ .f32 0xFF800000#32),
    StableHlo.binary main_arg4 main_cst_12 main_v44 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)) ]

/-- The operations of window 1 of @main's statements, calls inlined: 60 operations. -/
abbrev ops1 : List (HloOp τ sig (Elt F)) :=
  [ StableHlo.nullary main_cst_13 (constant S_ .f32 0xFF800000#32),
    StableHlo.binary main_cst_13 main_v44 main_v45 (maximumf : (⟨S_, .f32⟩ : BufTy).Contents (Elt F) → (⟨S_, .f32⟩ : BufTy).Contents (Elt F) → (⟨S_, .f32⟩ : BufTy).Contents (Elt F)),
    StableHlo.unary main_v45 main_v46 (broadcastInDim S1 ![] bcast_S_S1 : (⟨S_, .f32⟩ : BufTy).Contents (Elt F) → (⟨S1, .f32⟩ : BufTy).Contents (Elt F)),
    StableHlo.unary main_v46 main_v47 (broadcastInDim S3 ![0] bcast_S1_S3_0 : (⟨S1, .f32⟩ : BufTy).Contents (Elt F) → (⟨S3, .f32⟩ : BufTy).Contents (Elt F)),
    StableHlo.binary main_arg4 main_v47 main_v48 (subf : (⟨S3, .f32⟩ : BufTy).Contents (Elt F) → (⟨S3, .f32⟩ : BufTy).Contents (Elt F) → (⟨S3, .f32⟩ : BufTy).Contents (Elt F)),
    StableHlo.unary main_v48 main_v49 (Host.exp : (⟨S3, .f32⟩ : BufTy).Contents (Elt F) → (⟨S3, .f32⟩ : BufTy).Contents (Elt F)),
    StableHlo.nullary main_cst_14 (constant S_ .f32 0x00000000#32),
    StableHlo.binary main_v49 main_cst_14 main_v50 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v50 main_v51 (broadcastInDim S1 ![] bcast_S_S1 : (⟨S_, .f32⟩ : BufTy).Contents (Elt F) → (⟨S1, .f32⟩ : BufTy).Contents (Elt F)),
    StableHlo.unary main_v51 main_v52 (broadcastInDim S3 ![0] bcast_S1_S3_0 : (⟨S1, .f32⟩ : BufTy).Contents (Elt F) → (⟨S3, .f32⟩ : BufTy).Contents (Elt F)),
    StableHlo.binary main_v49 main_v52 main_v53 (Host.divf : (⟨S3, .f32⟩ : BufTy).Contents (Elt F) → (⟨S3, .f32⟩ : BufTy).Contents (Elt F) → (⟨S3, .f32⟩ : BufTy).Contents (Elt F)),
    StableHlo.nullary main_cst_15 (constant S_ .f32 0xFF800000#32),
    StableHlo.binary main_arg5 main_cst_15 main_v54 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_16 (constant S_ .f32 0xFF800000#32),
    StableHlo.binary main_cst_16 main_v54 main_v55 (maximumf : (⟨S_, .f32⟩ : BufTy).Contents (Elt F) → (⟨S_, .f32⟩ : BufTy).Contents (Elt F) → (⟨S_, .f32⟩ : BufTy).Contents (Elt F)),
    StableHlo.unary main_v55 main_v56 (broadcastInDim S1 ![] bcast_S_S1 : (⟨S_, .f32⟩ : BufTy).Contents (Elt F) → (⟨S1, .f32⟩ : BufTy).Contents (Elt F)),
    StableHlo.unary main_v56 main_v57 (broadcastInDim S3 ![0] bcast_S1_S3_0 : (⟨S1, .f32⟩ : BufTy).Contents (Elt F) → (⟨S3, .f32⟩ : BufTy).Contents (Elt F)),
    StableHlo.binary main_arg5 main_v57 main_v58 (subf : (⟨S3, .f32⟩ : BufTy).Contents (Elt F) → (⟨S3, .f32⟩ : BufTy).Contents (Elt F) → (⟨S3, .f32⟩ : BufTy).Contents (Elt F)),
    StableHlo.unary main_v58 main_v59 (Host.exp : (⟨S3, .f32⟩ : BufTy).Contents (Elt F) → (⟨S3, .f32⟩ : BufTy).Contents (Elt F)),
    StableHlo.nullary main_cst_17 (constant S_ .f32 0x00000000#32),
    StableHlo.binary main_v59 main_cst_17 main_v60 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v60 main_v61 (broadcastInDim S1 ![] bcast_S_S1 : (⟨S_, .f32⟩ : BufTy).Contents (Elt F) → (⟨S1, .f32⟩ : BufTy).Contents (Elt F)),
    StableHlo.unary main_v61 main_v62 (broadcastInDim S3 ![0] bcast_S1_S3_0 : (⟨S1, .f32⟩ : BufTy).Contents (Elt F) → (⟨S3, .f32⟩ : BufTy).Contents (Elt F)),
    StableHlo.binary main_v59 main_v62 main_v63 (Host.divf : (⟨S3, .f32⟩ : BufTy).Contents (Elt F) → (⟨S3, .f32⟩ : BufTy).Contents (Elt F) → (⟨S3, .f32⟩ : BufTy).Contents (Elt F)),
    StableHlo.unary main_v53 main_v64 ((extractStridedSlice S1 ![0] · slices_S3_S1_0) : (⟨S3, .f32⟩ : BufTy).Contents (Elt F) → (⟨S1, .f32⟩ : BufTy).Contents (Elt F)),
    StableHlo.reshape main_v64 main_v65 rfl shapeCasts_S1_S_,
    StableHlo.unary main_v65 main_v66 (broadcastInDim S8x64 ![] bcast_S_S8x64 : (⟨S_, .f32⟩ : BufTy).Contents (Elt F) → (⟨S8x64, .f32⟩ : BufTy).Contents (Elt F)),
    StableHlo.binary main_v66 main_v11 main_v67 (mulf : (⟨S8x64, .f32⟩ : BufTy).Contents (Elt F) → (⟨S8x64, .f32⟩ : BufTy).Contents (Elt F) → (⟨S8x64, .f32⟩ : BufTy).Contents (Elt F)),
    StableHlo.unary main_v53 main_v68 ((extractStridedSlice S1 ![1] · slices_S3_S1_1) : (⟨S3, .f32⟩ : BufTy).Contents (Elt F) → (⟨S1, .f32⟩ : BufTy).Contents (Elt F)),
    StableHlo.reshape main_v68 main_v69 rfl shapeCasts_S1_S_,
    StableHlo.unary main_v69 main_v70 (broadcastInDim S8x1 ![] bcast_S_S8x1 : (⟨S_, .f32⟩ : BufTy).Contents (Elt F) → (⟨S8x1, .f32⟩ : BufTy).Contents (Elt F)),
    StableHlo.binary main_v70 main_v30 main_v71 (mulf : (⟨S8x1, .f32⟩ : BufTy).Contents (Elt F) → (⟨S8x1, .f32⟩ : BufTy).Contents (Elt F) → (⟨S8x1, .f32⟩ : BufTy).Contents (Elt F)),
    StableHlo.unary main_v71 main_v72 (broadcastInDim S8x64 ![0, 1] bcast_S8x1_S8x64_0_1 : (⟨S8x1, .f32⟩ : BufTy).Contents (Elt F) → (⟨S8x64, .f32⟩ : BufTy).Contents (Elt F)),
    StableHlo.binary main_v67 main_v72 main_v73 (addf : (⟨S8x64, .f32⟩ : BufTy).Contents (Elt F) → (⟨S8x64, .f32⟩ : BufTy).Contents (Elt F) → (⟨S8x64, .f32⟩ : BufTy).Contents (Elt F)),
    StableHlo.unary main_v53 main_v74 ((extractStridedSlice S1 ![2] · slices_S3_S1_2) : (⟨S3, .f32⟩ : BufTy).Contents (Elt F) → (⟨S1, .f32⟩ : BufTy).Contents (Elt F)),
    StableHlo.reshape main_v74 main_v75 rfl shapeCasts_S1_S_,
    StableHlo.unary main_v75 main_v76 (broadcastInDim S1x64 ![] bcast_S_S1x64 : (⟨S_, .f32⟩ : BufTy).Contents (Elt F) → (⟨S1x64, .f32⟩ : BufTy).Contents (Elt F)),
    StableHlo.binary main_v76 main_v42 main_v77 (mulf : (⟨S1x64, .f32⟩ : BufTy).Contents (Elt F) → (⟨S1x64, .f32⟩ : BufTy).Contents (Elt F) → (⟨S1x64, .f32⟩ : BufTy).Contents (Elt F)),
    StableHlo.unary main_v77 main_v78 (broadcastInDim S8x64 ![0, 1] bcast_S1x64_S8x64_0_1 : (⟨S1x64, .f32⟩ : BufTy).Contents (Elt F) → (⟨S8x64, .f32⟩ : BufTy).Contents (Elt F)),
    StableHlo.binary main_v73 main_v78 main_v79 (addf : (⟨S8x64, .f32⟩ : BufTy).Contents (Elt F) → (⟨S8x64, .f32⟩ : BufTy).Contents (Elt F) → (⟨S8x64, .f32⟩ : BufTy).Contents (Elt F)),
    StableHlo.unary main_v63 main_v80 ((extractStridedSlice S1 ![0] · slices_S3_S1_0) : (⟨S3, .f32⟩ : BufTy).Contents (Elt F) → (⟨S1, .f32⟩ : BufTy).Contents (Elt F)),
    StableHlo.reshape main_v80 main_v81 rfl shapeCasts_S1_S_,
    StableHlo.unary main_v81 main_v82 (broadcastInDim S8x64 ![] bcast_S_S8x64 : (⟨S_, .f32⟩ : BufTy).Contents (Elt F) → (⟨S8x64, .f32⟩ : BufTy).Contents (Elt F)),
    StableHlo.binary main_v82 main_v26 main_v83 (mulf : (⟨S8x64, .f32⟩ : BufTy).Contents (Elt F) → (⟨S8x64, .f32⟩ : BufTy).Contents (Elt F) → (⟨S8x64, .f32⟩ : BufTy).Contents (Elt F)),
    StableHlo.unary main_v63 main_v84 ((extractStridedSlice S1 ![1] · slices_S3_S1_1) : (⟨S3, .f32⟩ : BufTy).Contents (Elt F) → (⟨S1, .f32⟩ : BufTy).Contents (Elt F)),
    StableHlo.reshape main_v84 main_v85 rfl shapeCasts_S1_S_,
    StableHlo.unary main_v85 main_v86 (broadcastInDim S8x1 ![] bcast_S_S8x1 : (⟨S_, .f32⟩ : BufTy).Contents (Elt F) → (⟨S8x1, .f32⟩ : BufTy).Contents (Elt F)),
    StableHlo.binary main_v86 main_v38 main_v87 (mulf : (⟨S8x1, .f32⟩ : BufTy).Contents (Elt F) → (⟨S8x1, .f32⟩ : BufTy).Contents (Elt F) → (⟨S8x1, .f32⟩ : BufTy).Contents (Elt F)),
    StableHlo.unary main_v87 main_v88 (broadcastInDim S8x64 ![0, 1] bcast_S8x1_S8x64_0_1 : (⟨S8x1, .f32⟩ : BufTy).Contents (Elt F) → (⟨S8x64, .f32⟩ : BufTy).Contents (Elt F)),
    StableHlo.binary main_v83 main_v88 main_v89 (addf : (⟨S8x64, .f32⟩ : BufTy).Contents (Elt F) → (⟨S8x64, .f32⟩ : BufTy).Contents (Elt F) → (⟨S8x64, .f32⟩ : BufTy).Contents (Elt F)),
    StableHlo.unary main_v63 main_v90 ((extractStridedSlice S1 ![2] · slices_S3_S1_2) : (⟨S3, .f32⟩ : BufTy).Contents (Elt F) → (⟨S1, .f32⟩ : BufTy).Contents (Elt F)),
    StableHlo.reshape main_v90 main_v91 rfl shapeCasts_S1_S_,
    StableHlo.unary main_v91 main_v92 (broadcastInDim S1x64 ![] bcast_S_S1x64 : (⟨S_, .f32⟩ : BufTy).Contents (Elt F) → (⟨S1x64, .f32⟩ : BufTy).Contents (Elt F)),
    StableHlo.binary main_v92 main_v43 main_v93 (mulf : (⟨S1x64, .f32⟩ : BufTy).Contents (Elt F) → (⟨S1x64, .f32⟩ : BufTy).Contents (Elt F) → (⟨S1x64, .f32⟩ : BufTy).Contents (Elt F)),
    StableHlo.unary main_v93 main_v94 (broadcastInDim S8x64 ![0, 1] bcast_S1x64_S8x64_0_1 : (⟨S1x64, .f32⟩ : BufTy).Contents (Elt F) → (⟨S8x64, .f32⟩ : BufTy).Contents (Elt F)),
    StableHlo.binary main_v89 main_v94 main_v95 (addf : (⟨S8x64, .f32⟩ : BufTy).Contents (Elt F) → (⟨S8x64, .f32⟩ : BufTy).Contents (Elt F) → (⟨S8x64, .f32⟩ : BufTy).Contents (Elt F)),
    StableHlo.nullary main_cst_18 (constant S_ .f32 0x3727C5AC#32),
    StableHlo.unary main_cst_18 main_v96 (broadcastInDim S8x64 ![] bcast_S_S8x64 : (⟨S_, .f32⟩ : BufTy).Contents (Elt F) → (⟨S8x64, .f32⟩ : BufTy).Contents (Elt F)),
    StableHlo.binary main_v95 main_v96 main_v97 (addf : (⟨S8x64, .f32⟩ : BufTy).Contents (Elt F) → (⟨S8x64, .f32⟩ : BufTy).Contents (Elt F) → (⟨S8x64, .f32⟩ : BufTy).Contents (Elt F)),
    StableHlo.unary main_v97 main_v98 (Host.sqrt : (⟨S8x64, .f32⟩ : BufTy).Contents (Elt F) → (⟨S8x64, .f32⟩ : BufTy).Contents (Elt F)) ]

/-- The operations of window 2 of @main's statements, calls inlined: 27 operations. -/
abbrev ops2 : List (HloOp τ sig (Elt F)) :=
  [ StableHlo.nullary main_cst_19 (constant S_ .f32 0x3F800000#32),
    StableHlo.unary main_cst_19 main_v99 (broadcastInDim S8x64 ![] bcast_S_S8x64 : (⟨S_, .f32⟩ : BufTy).Contents (Elt F) → (⟨S8x64, .f32⟩ : BufTy).Contents (Elt F)),
    StableHlo.binary main_v99 main_v98 main_v100 (Host.divf : (⟨S8x64, .f32⟩ : BufTy).Contents (Elt F) → (⟨S8x64, .f32⟩ : BufTy).Contents (Elt F) → (⟨S8x64, .f32⟩ : BufTy).Contents (Elt F)),
    StableHlo.nullary main_c_20 (constantI S_ 32 0#32),
    StableHlo.unary main_c_20 main_v101 (broadcastInDim S1000000 ![] bcast_S_S1000000 : (⟨S_, .i32⟩ : BufTy).Contents (Elt F) → (⟨S1000000, .i32⟩ : BufTy).Contents (Elt F)),
    StableHlo.binary main_arg1 main_v101 main_v102 (cmpi .slt : (⟨S1000000, .i32⟩ : BufTy).Contents (Elt F) → (⟨S1000000, .i32⟩ : BufTy).Contents (Elt F) → (⟨S1000000, .i1⟩ : BufTy).Contents (Elt F)),
    StableHlo.nullary main_c_21 (constantI S_ 32 8#32),
    StableHlo.unary main_c_21 main_v103 (broadcastInDim S1000000 ![] bcast_S_S1000000 : (⟨S_, .i32⟩ : BufTy).Contents (Elt F) → (⟨S1000000, .i32⟩ : BufTy).Contents (Elt F)),
    StableHlo.binary main_arg1 main_v103 main_v104 (addi : (⟨S1000000, .i32⟩ : BufTy).Contents (Elt F) → (⟨S1000000, .i32⟩ : BufTy).Contents (Elt F) → (⟨S1000000, .i32⟩ : BufTy).Contents (Elt F)),
    StableHlo.ternary main_v102 main_v104 main_arg1 main_v105 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v105 main_v106 (broadcastInDim S1000000x1 ![0] bcast_S1000000_S1000000x1_0 : (⟨S1000000, .i32⟩ : BufTy).Contents (Elt F) → (⟨S1000000x1, .i32⟩ : BufTy).Contents (Elt F)),
    StableHlo.binary main_v79 main_v106 main_v107 ((fun x i => Host.gather gather_S8x64_S1000000x1_S1000000x64_1_0_n_n_0_1_164 x i) : (⟨S8x64, .f32⟩ : BufTy).Contents (Elt F) → (⟨S1000000x1, .i32⟩ : BufTy).Contents (Elt F) → (⟨S1000000x64, .f32⟩ : BufTy).Contents (Elt F)),
    StableHlo.binary main_arg0 main_v107 main_v108 (subf : (⟨S1000000x64, .f32⟩ : BufTy).Contents (Elt F) → (⟨S1000000x64, .f32⟩ : BufTy).Contents (Elt F) → (⟨S1000000x64, .f32⟩ : BufTy).Contents (Elt F)),
    StableHlo.nullary main_c_22 (constantI S_ 32 0#32),
    StableHlo.unary main_c_22 main_v109 (broadcastInDim S1000000 ![] bcast_S_S1000000 : (⟨S_, .i32⟩ : BufTy).Contents (Elt F) → (⟨S1000000, .i32⟩ : BufTy).Contents (Elt F)),
    StableHlo.binary main_arg1 main_v109 main_v110 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 8#32),
    StableHlo.unary main_c_23 main_v111 (broadcastInDim S1000000 ![] bcast_S_S1000000 : (⟨S_, .i32⟩ : BufTy).Contents (Elt F) → (⟨S1000000, .i32⟩ : BufTy).Contents (Elt F)),
    StableHlo.binary main_arg1 main_v111 main_v112 (addi : (⟨S1000000, .i32⟩ : BufTy).Contents (Elt F) → (⟨S1000000, .i32⟩ : BufTy).Contents (Elt F) → (⟨S1000000, .i32⟩ : BufTy).Contents (Elt F)),
    StableHlo.ternary main_v110 main_v112 main_arg1 main_v113 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v113 main_v114 (broadcastInDim S1000000x1 ![0] bcast_S1000000_S1000000x1_0 : (⟨S1000000, .i32⟩ : BufTy).Contents (Elt F) → (⟨S1000000x1, .i32⟩ : BufTy).Contents (Elt F)),
    StableHlo.binary main_v100 main_v114 main_v115 ((fun x i => Host.gather gather_S8x64_S1000000x1_S1000000x64_1_0_n_n_0_1_164 x i) : (⟨S8x64, .f32⟩ : BufTy).Contents (Elt F) → (⟨S1000000x1, .i32⟩ : BufTy).Contents (Elt F) → (⟨S1000000x64, .f32⟩ : BufTy).Contents (Elt F)),
    StableHlo.binary main_v108 main_v115 main_v116 (mulf : (⟨S1000000x64, .f32⟩ : BufTy).Contents (Elt F) → (⟨S1000000x64, .f32⟩ : BufTy).Contents (Elt F) → (⟨S1000000x64, .f32⟩ : BufTy).Contents (Elt F)),
    StableHlo.unary main_arg2 main_v117 (broadcastInDim S1000000x64 ![0, 1] bcast_S1x64_S1000000x64_0_1 : (⟨S1x64, .f32⟩ : BufTy).Contents (Elt F) → (⟨S1000000x64, .f32⟩ : BufTy).Contents (Elt F)),
    StableHlo.binary main_v116 main_v117 main_v118 (mulf : (⟨S1000000x64, .f32⟩ : BufTy).Contents (Elt F) → (⟨S1000000x64, .f32⟩ : BufTy).Contents (Elt F) → (⟨S1000000x64, .f32⟩ : BufTy).Contents (Elt F)),
    StableHlo.unary main_arg3 main_v119 (broadcastInDim S1000000x64 ![0, 1] bcast_S1x64_S1000000x64_0_1 : (⟨S1x64, .f32⟩ : BufTy).Contents (Elt F) → (⟨S1000000x64, .f32⟩ : BufTy).Contents (Elt F)),
    StableHlo.binary main_v118 main_v119 main_v120 (addf : (⟨S1000000x64, .f32⟩ : BufTy).Contents (Elt F) → (⟨S1000000x64, .f32⟩ : BufTy).Contents (Elt F) → (⟨S1000000x64, .f32⟩ : BufTy).Contents (Elt F)) ]

end Cert.RV

end
-- ==== Proof.RefRunOps.lean ====
/-
  The reference program's @main is the straight line of its 169 host operations (the three lists ops0, ops1, ops2
  of the imported table, one per window of statements), and its run read back.

  @main is three windows of statements run in order; one statement of the first window is a call of the
  module-local function @_var on (%arg0, %c_11), whose body ends in a call of @_where. A call executes the
  callee's body on the operands, so the straight line @main runs is: the first window's operations up to the
  call, the twenty operations of @_var over the call's buffer record, the three of @_where over the nested
  record, and the rest. Each window is that list of operations (the window's definition unfolds to it), the
  program is the three lists one after the other, and the general run theorem for a straight line gives: every
  weakly fair execution terminates with every buffer at the fold of the operations' results over the launch
  contents.
-/
import proofs.«419685_j35708358099270_1_alg».proof.Proof.RefRunOpsTable

noncomputable section

namespace Cert.RV

open Idealize.ShloMosaic Idealize.ShloMosaic.TcCoe Idealize.SL.Sem Idealize.ShloMosaic.StableHlo
open Cert.ReferenceIdeal Cert.ReferenceIdeal.Gen

variable {F : FTy → Type} [FloatOps F]

/-- @main's operations, in order: the three windows' one after the other. -/
abbrev ops : List (HloOp τ sig (Elt F)) := ops0 ++ (ops1 ++ ops2)

/-- The fold over a concatenation is the fold over the second list from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first window is its list: the two callees' definitions unfold at the call and sequencing reassociates; a
    callee's operation over typed references is the plain operation over the buffers they hold, because at a literal
    buffer the typed reference's type equation is reflexivity and the transports along it are the identity. -/
theorem part0_eq (c : Dev nD) : main_part0 (F := F) c = seq ops0 := rfl

theorem part1_eq (c : Dev nD) : main_part1 (F := F) c = seq ops1 := rfl

theorem part2_eq (c : Dev nD) : main_part2 (F := F) c = seq ops2 := rfl

/-- @main is the straight line of all its operations. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of a window touches TensorCore buffers only: by cases on the literal list, each operation is one
    of the builders, whose buffers are its operands' and its result's. -/
theorem ops0_sub : ∀ op ∈ (ops0 : List (HloOp τ sig (Elt F))), op.bufs ⊆ tcRefs τ sig := by
  intro _ h
  repeat (cases h with
    | head => simp only [nullary_bufs_sub, unary_bufs_sub, binary_bufs_sub, ternary_bufs_sub, reshape_bufs_sub]
    | tail _ h => ?_)
  exact nomatch h

theorem ops1_sub : ∀ op ∈ (ops1 : List (HloOp τ sig (Elt F))), op.bufs ⊆ tcRefs τ sig := by
  intro _ h
  repeat (cases h with
    | head => simp only [nullary_bufs_sub, unary_bufs_sub, binary_bufs_sub, ternary_bufs_sub, reshape_bufs_sub]
    | tail _ h => ?_)
  exact nomatch h

theorem ops2_sub : ∀ op ∈ (ops2 : List (HloOp τ sig (Elt F))), op.bufs ⊆ tcRefs τ sig := by
  intro _ h
  repeat (cases h with
    | head => simp only [nullary_bufs_sub, unary_bufs_sub, binary_bufs_sub, ternary_bufs_sub, reshape_bufs_sub]
    | tail _ h => ?_)
  exact nomatch h

theorem ops_sub : (ops : List (HloOp τ sig (Elt F))).Forall fun op => op.bufs ⊆ tcRefs τ sig := by
  rw [List.forall_iff_forall_mem]
  intro op h
  rcases List.mem_append.mp h with h | h
  · exact ops0_sub op h
  · rcases List.mem_append.mp h with h | h
    · exact ops1_sub op h
    · exact ops2_sub op h

/-- No operation of a window leaves a buffer undetermined (none is an allocation): by cases on the literal list. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact ops0_fresh op h
  · rcases List.mem_append.mp h with h | h
    · exact ops1_fresh op h
    · exact ops2_fresh op h

/-- At the compiled mesh, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RV

end
-- ==== Proof.RefRun.lean ====
/-
  The reference's run: every weakly fair execution of @main ends with the result buffer at the reference's result
  rOut of the six argument arrays, the arguments unchanged.

  @main is a straight line of 169 host operations in three windows (the imported module: the run theorem for a
  straight line leaves every buffer at the fold of the operations' results over the launch contents). The fold is
  read window by window. The first window computes the statistics: the segment mean and variance (scatter-adds over
  the segment numbers, a gather of the mean back to the rows, centred squares), their layer statistics (row means),
  the batch mean, the unbiased batch variance (the callee with its guard), and the maximum of the mean weights. The
  second computes the two softmaxes and mixes the three means and the three variances. The third takes the reciprocal
  square root, gathers mean and reciprocal deviation back to the rows and applies the affine map. Composed, the result
  buffer holds rOut, term for term.
-/
import proofs.«419685_j35708358099270_1_alg».proof.Proof.RefRunOps
import proofs.«419685_j35708358099270_1_alg».proof.Proof.Spec

noncomputable section

namespace Cert.RV

open Idealize.ShloMosaic Idealize.ShloMosaic.TcCoe Idealize.SL.Sem Idealize.ShloMosaic.StableHlo
open Cert.ReferenceIdeal Cert.ReferenceIdeal.Gen Cert.Spec

/-! ## The reference's result, window by window

The straight line is three lists; the fold over their concatenation is the fold over the third from the fold over the
second from the fold over the first. Each window's fold is read at the buffers the later windows (or the result) use,
as the terms of the mathematics' statement over the contents the window starts from; the arguments' buffers are written
by no operation. -/

/-- The maximum of three weights, reduced from -∞. -/
def max3 (v : Fv S3) : Fv S_ :=
  Host.reduce FloatOps.maximumf v (constant (F := Ideal) S_ .f32 0xFF800000#32) reducesTo_S3_S_d0 h_S_

/-- The softmax of three weights from their maximum mx: exp (v - max(-∞, mx)) / ∑ exp (v - max(-∞, mx)). -/
def softmaxFrom (v : Fv S3) (mx : Fv S_) : Fv S3 :=
  let e : Fv S3 := Host.exp (subf v (broadcastInDim S3 ![0] bcast_S1_S3_0 (broadcastInDim S1 ![] bcast_S_S1
    (maximumf (constant (F := Ideal) S_ .f32 0xFF800000#32) mx))))
  Host.divf e (broadcastInDim S3 ![0] bcast_S1_S3_0 (broadcastInDim S1 ![] bcast_S_S1
    (Host.reduceAdd e (constant (F := Ideal) S_ .f32 0x00000000#32) reducesTo_S3_S_d0 h_S_)))

/-- The softmax is the softmax from the weights' own maximum. -/
theorem softmax3_eq (v : Fv S3) : softmax3 v = softmaxFrom v (max3 v) := rfl

section Windows

variable (V : Valuation τ sig (Elt Ideal))

/-! ### The first window: the statistics -/

theorem w0_v11 : after ops0 V (main_v11 : DevRef τ sig)
    = rMeanIn (V (main_arg0 : DevRef τ sig)) (V (main_arg1 : DevRef τ sig)) := by
  after_results_simp
  rfl

theorem w0_v26 : after ops0 V (main_v26 : DevRef τ sig)
    = rVarIn (V (main_arg0 : DevRef τ sig)) (V (main_arg1 : DevRef τ sig)) := by
  after_results_simp
  rfl

theorem w0_v30 : after ops0 V (main_v30 : DevRef τ sig)
    = rowMean (rMeanIn (V (main_arg0 : DevRef τ sig)) (V (main_arg1 : DevRef τ sig))) := by
  after_results_simp
  rfl

theorem w0_v38 : after ops0 V (main_v38 : DevRef τ sig)
    = varLn (rMeanIn (V (main_arg0 : DevRef τ sig)) (V (main_arg1 : DevRef τ sig)))
        (rVarIn (V (main_arg0 : DevRef τ sig)) (V (main_arg1 : DevRef τ sig))) := by
  after_results_simp
  rfl

theorem w0_v42 : after ops0 V (main_v42 : DevRef τ sig) = rMeanBn (V (main_arg0 : DevRef τ sig)) := by
  after_results_simp
  rfl

theorem w0_v43 : after ops0 V (main_v43 : DevRef τ sig) = rVarBn (V (main_arg0 : DevRef τ sig)) := by
  after_results_simp
  rfl

theorem w0_v44 : after ops0 V (main_v44 : DevRef τ sig) = max3 (V (main_arg4 : DevRef τ sig)) := by
  after_results_simp
  rfl

theorem w0_args :
    after ops0 V (main_arg0 : DevRef τ sig) = V (main_arg0 : DevRef τ sig)
    ∧ after ops0 V (main_arg1 : DevRef τ sig) = V (main_arg1 : DevRef τ sig)
    ∧ after ops0 V (main_arg2 : DevRef τ sig) = V (main_arg2 : DevRef τ sig)
    ∧ after ops0 V (main_arg3 : DevRef τ sig) = V (main_arg3 : DevRef τ sig)
    ∧ after ops0 V (main_arg4 : DevRef τ sig) = V (main_arg4 : DevRef τ sig)
    ∧ after ops0 V (main_arg5 : DevRef τ sig) = V (main_arg5 : DevRef τ sig) := by
  refine ⟨?_, ?_, ?_, ?_, ?_, ?_⟩ <;> after_results_simp

/-! ### The second window: the two softmaxes and the two mixtures -/

theorem w1_v79 : after ops1 V (main_v79 : DevRef τ sig)
    = mix (softmaxFrom (V (main_arg4 : DevRef τ sig)) (V (main_v44 : DevRef τ sig))) (V (main_v11 : DevRef τ sig))
        (V (main_v30 : DevRef τ sig)) (V (main_v42 : DevRef τ sig)) := by
  after_results_simp
  rfl

theorem w1_v98 : after ops1 V (main_v98 : DevRef τ sig)
    = Host.sqrt (addf
        (mix (softmax3 (V (main_arg5 : DevRef τ sig))) (V (main_v26 : DevRef τ sig)) (V (main_v38 : DevRef τ sig))
          (V (main_v43 : DevRef τ sig)))
        (splat S8x64 bcast_S_S8x64 0x3727C5AC#32)) := by
  after_results_simp
  rfl

theorem w1_args :
    after ops1 V (main_arg0 : DevRef τ sig) = V (main_arg0 : DevRef τ sig)
    ∧ after ops1 V (main_arg1 : DevRef τ sig) = V (main_arg1 : DevRef τ sig)
    ∧ after ops1 V (main_arg2 : DevRef τ sig) = V (main_arg2 : DevRef τ sig)
    ∧ after ops1 V (main_arg3 : DevRef τ sig) = V (main_arg3 : DevRef τ sig)
    ∧ after ops1 V (main_arg4 : DevRef τ sig) = V (main_arg4 : DevRef τ sig)
    ∧ after ops1 V (main_arg5 : DevRef τ sig) = V (main_arg5 : DevRef τ sig) := by
  refine ⟨?_, ?_, ?_, ?_, ?_, ?_⟩ <;> after_results_simp

/-! ### The third window: the reciprocal, the two gathers and the affine map -/

theorem w2_v120 : after ops2 V (main_v120 : DevRef τ sig)
    = addf
        (mulf
          (mulf (subf (V (main_arg0 : DevRef τ sig)) (segGather (V (main_v79 : DevRef τ sig)) (V (main_arg1 : DevRef τ sig))))
            (segGather (Host.divf (splat S8x64 bcast_S_S8x64 0x3F800000#32) (V (main_v98 : DevRef τ sig)))
              (V (main_arg1 : DevRef τ sig))))
          (broadcastInDim S1000000x64 ![0, 1] bcast_S1x64_S1000000x64_0_1 (V (main_arg2 : DevRef τ sig))))
        (broadcastInDim S1000000x64 ![0, 1] bcast_S1x64_S1000000x64_0_1 (V (main_arg3 : DevRef τ sig))) := by
  after_results_simp
  rfl

theorem w2_args :
    after ops2 V (main_arg0 : DevRef τ sig) = V (main_arg0 : DevRef τ sig)
    ∧ after ops2 V (main_arg1 : DevRef τ sig) = V (main_arg1 : DevRef τ sig)
    ∧ after ops2 V (main_arg2 : DevRef τ sig) = V (main_arg2 : DevRef τ sig)
    ∧ after ops2 V (main_arg3 : DevRef τ sig) = V (main_arg3 : DevRef τ sig)
    ∧ after ops2 V (main_arg4 : DevRef τ sig) = V (main_arg4 : DevRef τ sig)
    ∧ after ops2 V (main_arg5 : DevRef τ sig) = V (main_arg5 : DevRef τ sig) := by
  refine ⟨?_, ?_, ?_, ?_, ?_, ?_⟩ <;> after_results_simp

/-! ### The whole line -/

/-- The fold over the whole line is the three windows' folds composed. -/
theorem after_ops : after ops V = after ops2 (after ops1 (after ops0 V)) := by
  show after (ops0 ++ (ops1 ++ ops2)) V = _
  rw [after_append', after_append']

/-- No operation writes an argument's buffer. -/
theorem args_eq :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  obtain ⟨a0, a1, a2, a3, a4, a5⟩ := w0_args V
  obtain ⟨b0, b1, b2, b3, b4, b5⟩ := w1_args (after ops0 V)
  obtain ⟨c0, c1, c2, c3, c4, c5⟩ := w2_args (after ops1 (after ops0 V))
  rw [after_ops]
  exact ⟨c0.trans (b0.trans a0), c1.trans (b1.trans a1), c2.trans (b2.trans a2), c3.trans (b3.trans a3),
    c4.trans (b4.trans a4), c5.trans (b5.trans a5)⟩

/-- The result buffer ends at the reference's result of the six arguments. -/
theorem out_eq :
    after ops V (main_v120 : DevRef τ sig)
      = rOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  obtain ⟨a0, a1, a2, a3, a4, a5⟩ := w0_args V
  obtain ⟨b0, b1, b2, b3, b4, b5⟩ := w1_args (after ops0 V)
  rw [after_ops, w2_v120, w1_v79, w1_v98, b0, b1, b2, b3, w0_v11, w0_v26, w0_v30, w0_v38, w0_v42, w0_v43, w0_v44,
    a0, a1, a2, a3, a4, a5, ← softmax3_eq]
  rfl

end Windows

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v120)
          = rOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => by
      obtain ⟨a0, a1, a2, a3, a4, a5⟩ := args_eq (launchContents m c)
      exact ⟨(h c main_v120).trans (out_eq (launchContents m c)), (h c main_arg0).trans a0, (h c main_arg1).trans a1,
        (h c main_arg2).trans a2, (h c main_arg3).trans a3, (h c main_arg4).trans a4, (h c main_arg5).trans a5⟩)
    (run_main m ρ)

end Cert.RV

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.SegStats.lean ====
/-
  The segment statistics: the mean and variance of each segment k < 8 and column q, formed from the three sums
  ∑ x, ∑ x², ∑ 1 over the rows of the segment, equal the ones formed from scatter-adds, a gather of the mean back onto
  the rows and centred squares.

  Both sides are read at (k, q). The scatter-adds into a zero table are the sums over the rows whose segment word, read
  signed, is k; these are the rows whose word is the word of k. The mean is then the same quotient on both sides. For the
  variance, on a row of segment k the gathered mean is the mean of segment k, and for finite x the identity
  ∑ (x − m)² / n = ∑ x² / n − m², m = ∑ x / n, n = max(#rows, 1), holds over the reals.
-/
import proofs.«419685_j35708358099270_1_alg».proof.Proof.Spec
import proofs.«419685_j35708358099270_1_alg».proof.Proof.LibGatherScatter
import Idealize.ShloMosaic.PureOps.Ideal.Laws
import Idealize.ShloMosaic.Lib.IdealHost

open scoped BigOperators

noncomputable section

namespace Cert.Alg

open Idealize.ShloMosaic Idealize.ShloMosaic.ValueIdx Cert.ReferenceIdeal Cert.ReferenceIdeal.Facts₀ Cert.Spec

/-! ## The operations of the two definitions read at an index -/

/-- A splatted scalar reads the scalar everywhere. -/
theorem splat_apply (S : Shape) (h : S_.BroadcastsInDim S (![] : Fin 0 → Fin S.rank)) (w : BitVec 32) (j : S.Idx) :
    splat S h w j = Ideal.ofBits .f32 w := rfl

/-- The index column at row e is the segment word of e. -/
theorem colIdx_apply (b : IVec S1000000 32) (e : Fin 1000000) : colIdx b (ix2 e (0 : Fin 1)) = b (ix1 e) := by
  unfold colIdx broadcastInDim
  congr 1
  funext a
  obtain rfl : a = 0 := Subsingleton.elim _ _
  refine Fin.ext ?_
  split
  · next h1 => exact absurd h1 (by decide)
  · rfl

/-- A vector of 8 laid over the 64 columns reads, at (k, q), its entry k. -/
theorem bcast_S8_apply (v : Fv S8) (k : Fin 8) (q : Fin 64) :
    broadcastInDim S8x64 ![0, 1] bcast_S8x1_S8x64_0_1 (broadcastInDim S8x1 ![0] bcast_S8_S8x1_0 v) (ix2 k q) = v (ix1 k) := by
  unfold broadcastInDim
  congr 1
  funext a
  obtain rfl : a = 0 := Subsingleton.elim _ _
  refine Fin.ext ?_
  split
  · next h1 => exact absurd h1 (by decide)
  · rfl

/-- The rows of segment k, as the scatter sees them: the segment word read signed is k. -/
def segI (b : IVec S1000000 32) (k : Fin 8) : Finset (Fin 1000000) :=
  Finset.univ.filter fun e => (b (ix1 e)).toInt = (k.val : Int)

/-- The segment sum at (k, q): the sum of u (e, q) over the rows of segment k. -/
theorem segScatter_apply (b : IVec S1000000 32) (u : Fv S1000000x64) (k : Fin 8) (q : Fin 64) :
    segScatter b u (ix2 k q) = ∑ e ∈ segI b k, u (ix2 e q) := by
  have h := Cert.Proof.GS.scatterAdd_scatD_apply (N := 8) (E := 1000000) (D := 64)
    scatter_S8x64_S1000000x1_S1000000x64_1_0_0_1_wf (splat S8x64 bcast_S_S8x64 0x00000000#32) (colIdx b) u k q
  rw [splat_apply, Ideal.ofBits_zero_f32, zero_add] at h
  simp only [colIdx_apply] at h
  exact h

/-- The guarded count of segment k: max(#rows of segment k, 1). -/
theorem rCounts_apply (b : IVec S1000000 32) (k : Fin 8) :
    rCounts b (ix1 k) = max (∑ e ∈ segI b k, (1 : EReal)) 1 := by
  have h := Cert.Proof.GS.scatterAdd_scat1_apply (N := 8) (E := 1000000)
    scatter_S8_S1000000x1_S1000000_n_0_0_1_wf (splat S8 bcast_S_S8 0x00000000#32) (colIdx b)
    (splat S1000000 bcast_S_S1000000 0x3F800000#32) k
  rw [splat_apply, Ideal.ofBits_zero_f32, zero_add] at h
  simp only [colIdx_apply, splat_apply, Ideal.ofBits_one_f32] at h
  unfold rCounts
  rw [maximumf_apply, splat_apply, Ideal.ofBits_one_f32]
  exact congrArg (fun t => max t 1) h

theorem rCountsB_apply (b : IVec S1000000 32) (k : Fin 8) (q : Fin 64) :
    rCountsB b (ix2 k q) = max (∑ e ∈ segI b k, (1 : EReal)) 1 := by
  unfold rCountsB
  rw [bcast_S8_apply, rCounts_apply]

/-! ## The segment word -/

/-- The word of a segment number below 8 reads, signed, as that number. -/
theorem toInt_segWord (k : Fin 8) : (BitVec.ofNat 32 k.val).toInt = (k.val : Int) := by
  fin_cases k <;> rfl

/-- A word is the word of segment k exactly when, read signed, it is k. -/
theorem word_eq_iff (w : BitVec 32) (k : Fin 8) : w = BitVec.ofNat 32 k.val ↔ w.toInt = (k.val : Int) := by
  constructor
  · rintro rfl; exact toInt_segWord k
  · intro h; exact BitVec.eq_of_toInt_eq (h.trans (toInt_segWord k).symm)

/-- The rows the kernel's one-hot test selects are the rows the scatter sends to segment k. -/
theorem segW_eq_segI (b : IVec S1000000 32) (B : IVec S1000000x1 32)
    (hB : ∀ r : Fin 1000000, B (ix2 r (0 : Fin 1)) = b (ix1 r)) (k : Fin 8) : segW B k = segI b k := by
  unfold segW segI
  refine Finset.filter_congr fun r _ => ?_
  rw [hB r]; exact word_eq_iff _ k

/-- Wrapping leaves the word of a segment number alone: it is not negative. -/
theorem wrapIdx_of_seg (b : IVec S1000000 32) (e : Fin 1000000) (k : Fin 8) (h : b (ix1 e) = BitVec.ofNat 32 k.val) :
    wrapIdx b (ix1 e) = BitVec.ofNat 32 k.val := by
  unfold wrapIdx
  rw [select_apply]
  show Scalar.select (IntOp.cmpi .slt (b (ix1 e)) 0#32) (b (ix1 e) + 8#32) (b (ix1 e)) = _
  rw [h]
  fin_cases k <;> rfl

/-- The gathered table at a row of segment k is the table's row k. -/
theorem segGather_of_seg (T : Fv S8x64) (b : IVec S1000000 32) (e : Fin 1000000) (q : Fin 64) (k : Fin 8)
    (h : e ∈ segI b k) : segGather T b (ix2 e q) = T (ix2 k q) := by
  have hw : b (ix1 e) = BitVec.ofNat 32 k.val := (word_eq_iff _ k).mpr (Finset.mem_filter.mp h).2
  have hg := Cert.Proof.GS.gather_gathD_apply (N := 8) (E := 1000000) (D := 64) (by decide)
    gather_S8x64_S1000000x1_S1000000x64_1_0_n_n_0_1_164_wf T (colIdx (wrapIdx b)) e q
  rw [colIdx_apply, wrapIdx_of_seg b e k hw, Cert.Proof.GS.row_of_toInt (by decide) _ k (toInt_segWord k)] at hg
  exact hg

/-! ## The variance identity over the reals -/

/-- For a finite family f over S, with n = max(#S, 1) and m = (∑ f) / n: the mean of the centred squares is the mean of
    the squares minus the square of the mean. When S is empty every sum is 0; otherwise n = #S and
    ∑ (f − m)² = ∑ f² − 2 m ∑ f + #S · m² = ∑ f² − n m². -/
theorem real_var_identity {ι : Type} (S : Finset ι) (f : ι → ℝ) (n m : ℝ) (hn : n = max (S.card : ℝ) 1)
    (hm : m = (∑ e ∈ S, f e) * (1 / n)) :
    (∑ e ∈ S, (f e - m) * (f e - m)) * (1 / n) = (∑ e ∈ S, f e * f e) * (1 / n) - m * m := by
  have hexp : ∑ e ∈ S, (f e - m) * (f e - m)
      = (∑ e ∈ S, f e * f e) - 2 * m * (∑ e ∈ S, f e) + (S.card : ℝ) * (m * m) := by
    rw [Finset.mul_sum, ← nsmul_eq_mul, ← Finset.sum_const, ← Finset.sum_sub_distrib, ← Finset.sum_add_distrib]
    exact Finset.sum_congr rfl fun e _ => by ring
  rcases S.eq_empty_or_nonempty with rfl | hne
  · simp only [Finset.sum_empty, zero_mul] at hm
    subst hm
    simp
  · have hc : (1 : ℝ) ≤ (S.card : ℝ) := by exact_mod_cast hne.card_pos
    rw [max_eq_left hc] at hn
    have hn0 : n ≠ 0 := by rw [hn]; linarith
    have hA : (∑ e ∈ S, f e) = m * n := by rw [hm]; field_simp
    rw [hexp, hA, ← hn]
    field_simp
    ring

/-! ## From the reals to the extended reals -/

/-- The coercion of the reals into the extended reals commutes with finite sums. -/
theorem coe_sum {ι : Type} (S : Finset ι) (g : ι → ℝ) :
    ∑ e ∈ S, ((g e : ℝ) : EReal) = ((∑ e ∈ S, g e : ℝ) : EReal) := by
  classical
  induction S using Finset.induction_on with
  | empty => simp
  | insert a s ha ih => rw [Finset.sum_insert ha, Finset.sum_insert ha, ih, EReal.coe_add]

/-- The guarded count max(∑ 1, 1) is the real max(#S, 1). -/
theorem count_eq {ι : Type} (S : Finset ι) :
    max (∑ e ∈ S, (1 : EReal)) 1 = ((max (S.card : ℝ) 1 : ℝ) : EReal) := by
  have hs : ∑ e ∈ S, (1 : EReal) = (((S.card : ℝ)) : EReal) := by
    have h := coe_sum S (fun _ => (1 : ℝ))
    rw [EReal.coe_one] at h
    rw [h, Finset.sum_const, nsmul_eq_mul, mul_one]
  rw [hs, ← EReal.coe_one]
  exact (EReal.coe_strictMono.monotone.map_max).symm

/-- The variance identity for a real family, with the quotients taken in the extended reals. -/
theorem ereal_var_identity {ι : Type} (S : Finset ι) (f : ι → ℝ) (c μ : EReal)
    (hc : c = max (∑ e ∈ S, (1 : EReal)) 1) (hμ : μ = Ideal.div (∑ e ∈ S, ((f e : ℝ) : EReal)) c) :
    Ideal.div (∑ e ∈ S, (((f e : ℝ) : EReal) - μ) * (((f e : ℝ) : EReal) - μ)) c
      = Ideal.div (∑ e ∈ S, ((f e : ℝ) : EReal) * ((f e : ℝ) : EReal)) c - μ * μ := by
  have hn0 : max (S.card : ℝ) 1 ≠ 0 := by
    have : (1 : ℝ) ≤ max (S.card : ℝ) 1 := le_max_right _ _
    linarith
  rw [count_eq] at hc
  subst hc
  rw [Ideal.div_coe hn0, coe_sum, ← EReal.coe_mul] at hμ
  subst hμ
  rw [Ideal.div_coe hn0, Ideal.div_coe hn0]
  simp only [← EReal.coe_sub, ← EReal.coe_mul]
  rw [coe_sum, coe_sum]
  simp only [← EReal.coe_sub, ← EReal.coe_mul]
  exact congrArg _ (real_var_identity S f _ _ rfl rfl)

/-! ## The two segment statistics read at (k, q) -/

theorem kMeanIn_apply (s0 s2 : Fv S8x64) (j : S8x64.Idx) :
    kMeanIn s0 s2 j = Ideal.div (s0 j) (max (s2 j) 1) := by
  unfold kMeanIn
  rw [hostDivf_apply, maximumf_apply, splat_apply, Ideal.ofBits_one_f32]

theorem kVarIn_apply (s0 s1 s2 : Fv S8x64) (j : S8x64.Idx) :
    kVarIn s0 s1 s2 j = Ideal.div (s1 j) (max (s2 j) 1) - kMeanIn s0 s2 j * kMeanIn s0 s2 j := by
  unfold kVarIn
  rw [subf_apply, mulf_apply, hostDivf_apply, maximumf_apply, splat_apply, Ideal.ofBits_one_f32]

theorem rMeanIn_apply (x : Fv S1000000x64) (b : IVec S1000000 32) (k : Fin 8) (q : Fin 64) :
    rMeanIn x b (ix2 k q)
      = Ideal.div (∑ e ∈ segI b k, x (ix2 e q)) (max (∑ e ∈ segI b k, (1 : EReal)) 1) := by
  unfold rMeanIn
  rw [hostDivf_apply, segScatter_apply, rCountsB_apply]

/-- The reference's variance at (k, q): on the rows of segment k the gathered mean is the mean of segment k. -/
theorem rVarIn_apply (x : Fv S1000000x64) (b : IVec S1000000 32) (k : Fin 8) (q : Fin 64) :
    rVarIn x b (ix2 k q)
      = Ideal.div (∑ e ∈ segI b k, (x (ix2 e q) - rMeanIn x b (ix2 k q)) * (x (ix2 e q) - rMeanIn x b (ix2 k q)))
          (max (∑ e ∈ segI b k, (1 : EReal)) 1) := by
  unfold rVarIn
  rw [hostDivf_apply, segScatter_apply, rCountsB_apply]
  refine congrArg (fun t => Ideal.div t (max (∑ e ∈ segI b k, (1 : EReal)) 1)) ?_
  refine Finset.sum_congr rfl fun e he => ?_
  rw [mulf_apply, subf_apply, segGather_of_seg _ b e q k he]

/-! ## The two theorems -/

variable (x : Fv S1000000x64) (b : IVec S1000000 32) (B : IVec S1000000x1 32)

theorem meanIn_eq (hB : ∀ r : Fin 1000000, B (ix2 r (0 : Fin 1)) = b (ix1 r)) (s0 s2 : Fv S8x64)
    (h0 : ∀ (k : Fin 8) (q : Fin 64), s0 (ix2 k q) = ∑ r ∈ segW B k, x (ix2 r q))
    (h2 : ∀ (k : Fin 8) (q : Fin 64), s2 (ix2 k q) = ∑ r ∈ segW B k, (1 : EReal)) :
    kMeanIn s0 s2 = rMeanIn x b := by
  funext j
  obtain ⟨k, q, rfl⟩ : ∃ k q, j = ix2 k q := ⟨j 0, j 1, eq_ix2 j⟩
  rw [kMeanIn_apply, rMeanIn_apply, h0, h2, segW_eq_segI b B hB]

theorem varIn_eq (hx : ∀ i, ∃ v : ℝ, x i = (v : EReal))
    (hB : ∀ r : Fin 1000000, B (ix2 r (0 : Fin 1)) = b (ix1 r)) (s0 s1 s2 : Fv S8x64)
    (h0 : ∀ (k : Fin 8) (q : Fin 64), s0 (ix2 k q) = ∑ r ∈ segW B k, x (ix2 r q))
    (h1 : ∀ (k : Fin 8) (q : Fin 64), s1 (ix2 k q) = ∑ r ∈ segW B k, x (ix2 r q) * x (ix2 r q))
    (h2 : ∀ (k : Fin 8) (q : Fin 64), s2 (ix2 k q) = ∑ r ∈ segW B k, (1 : EReal)) :
    kVarIn s0 s1 s2 = rVarIn x b := by
  funext j
  obtain ⟨k, q, rfl⟩ : ∃ k q, j = ix2 k q := ⟨j 0, j 1, eq_ix2 j⟩
  choose f hf using hx
  rw [kVarIn_apply, rVarIn_apply, meanIn_eq x b B hB s0 s2 h0 h2, h1, h2, segW_eq_segI b B hB]
  simp only [hf]
  refine (ereal_var_identity (segI b k) (fun e => f (ix2 e q)) _ _ rfl ?_).symm
  rw [rMeanIn_apply]
  simp only [hf]

end Cert.Alg

end
-- ==== Proof.BatchStats.lean ====
/-
  The batch statistics: the mean and the unbiased variance of each of the 64 columns over all 1000000 rows.

  Both programs take the batch mean as (∑_r x r q) / 1000000 with the same divisor word, so the two agree as soon as
  the kernel's fourth sum s3 is the column sum. For the variance the reference takes ∑_r (x r q − μ)² / (1000000 − 1)
  under a guard 1000000 − 1 > 0 that holds, and the kernel's program takes (∑_r (x r q)² − 1000000 · μ · μ) / 999999;
  for finite x both are real numbers and the two numerators agree by ∑ (x − μ)² = ∑ x² − 2 μ ∑ x + N μ² with
  ∑ x = N μ.
-/
import proofs.«419685_j35708358099270_1_alg».proof.Proof.Spec
import proofs.«419685_j35708358099270_1_alg».proof.Proof.LibGatherScatter
import Idealize.ShloMosaic.PureOps.Ideal.Laws
import Idealize.ShloMosaic.Lib.IdealHost
import Idealize.ShloMosaic.Lib.StableHlo.Predicate

open scoped BigOperators

noncomputable section

namespace Cert.Alg

open Idealize.ShloMosaic Idealize.ShloMosaic.ValueIdx Cert.ReferenceIdeal Cert.ReferenceIdeal.Facts₀ Cert.Spec

variable (x : Fv S1000000x64) (b : IVec S1000000 32) (B : IVec S1000000x1 32)

namespace Batch

/-- The column sum read at (0, q): the host sum over the row axis starts from 0 and adds the column's 1000000 entries. -/
theorem colSum_apply (y : Fv S1000000x64) (q : Fin 64) :
    colSum y (ix2 (0 : Fin 1) q) = ∑ r : Fin 1000000, y (ix2 r q) := by
  unfold colSum
  have hr : Shape.Reduces S1000000x64 [0] S64 := by decide
  have h1 := StableHlo.Predicate.bcast_row1 bcast_S64_S1x64_1
    (Host.reduceAdd y (constant (F := Ideal) S_ .f32 0x00000000#32) reducesTo_S1000000x64_S64_d0 h_S_) q
  have e : (ix2 (0 : Fin 1) q : S1x64.Idx) = StableHlo.Predicate.i1q q := by
    funext a; match a with | ⟨0, _⟩ => rfl | ⟨1, _⟩ => rfl
  rw [e, h1, hostReduceAdd_apply, Ideal.hostReduceAdd_single _ hr, constant_apply, Ideal.ofBits_zero_f32, zero_add]
  refine Finset.sum_congr rfl fun k _ => congrArg y ?_
  funext a
  match a with
  | ⟨0, _⟩ => exact Fin.ext rfl
  | ⟨1, _⟩ => exact Fin.ext rfl

/-- Every index of a [1, 64] row is (0, q). -/
theorem row_idx (j : S1x64.Idx) : ∃ q : Fin 64, j = ix2 (0 : Fin 1) q := by
  refine ⟨j 1, ?_⟩
  funext a
  match a with
  | ⟨0, _⟩ => exact Subsingleton.elim (α := Fin 1) _ _
  | ⟨1, _⟩ => rfl

/-- The f32 pattern 0x49742400 is one million. -/
theorem ofBits_N : Ideal.ofBits .f32 0x49742400#32 = ((1000000 : ℝ) : EReal) := by
  simp [Ideal.ofBits, Ideal.ieee, -EReal.coe_mul]; norm_num

/-- The f32 pattern 0x497423F0 is one million less one. -/
theorem ofBits_N1 : Ideal.ofBits .f32 0x497423F0#32 = ((999999 : ℝ) : EReal) := by
  simp [Ideal.ofBits, Ideal.ieee, -EReal.coe_mul]; norm_num

/-- A finite sum of reals, taken among the extended reals, is the real sum. -/
theorem coe_sum {ι : Type} (s : Finset ι) (f : ι → ℝ) : ∑ i ∈ s, (f i : EReal) = ((∑ i ∈ s, f i : ℝ) : EReal) := by
  classical
  refine Finset.induction_on s (by simp) ?_
  intro a s ha ih
  rw [Finset.sum_insert ha, Finset.sum_insert ha, ih, EReal.coe_add]

/-- The centred squares sum to the sum of squares less N · mean · mean, for N = the number of terms. -/
theorem sum_centred_sq {ι : Type} [Fintype ι] (f : ι → ℝ) (N : ℝ) (hN : N ≠ 0) (hc : (Fintype.card ι : ℝ) = N) :
    ∑ i, (f i - (∑ i, f i) * (1 / N)) * (f i - (∑ i, f i) * (1 / N))
      = ∑ i, f i * f i - N * ((∑ i, f i) * (1 / N)) * ((∑ i, f i) * (1 / N)) := by
  set m := (∑ i, f i) * (1 / N) with hm
  have h1 : ∀ i, (f i - m) * (f i - m) = f i * f i - 2 * m * f i + m * m := fun i => by ring
  have hS : ∑ i, f i = N * m := by rw [hm]; field_simp
  simp only [h1]
  rw [Finset.sum_add_distrib, Finset.sum_sub_distrib, ← Finset.mul_sum, Finset.sum_const, Finset.card_univ,
    nsmul_eq_mul, hc, hS]
  ring

/-- A scalar pattern laid over a shape reads the pattern's value everywhere. -/
theorem splat_apply (S : Shape) (h : S_.BroadcastsInDim S (![] : Fin 0 → Fin S.rank)) (w : BitVec 32) (j : S.Idx) :
    splat S h w j = Ideal.ofBits .f32 w := by
  unfold splat
  rw [broadcastInDim_scalar_apply, constant_apply]

/-- The reference's divisor 1000000 - 1 is 999999. -/
theorem rDof_apply (i : S_.Idx) : rDof i = ((999999 : ℝ) : EReal) := by
  unfold rDof
  rw [subf_apply, constant_apply, sitofp_apply, ofBits_N]
  have h1 : ((1#32 : BitVec 32).toInt) = 1 := by decide
  show ((1000000 : ℝ) : EReal) - ((((1#32 : BitVec 32).toInt : ℤ) : ℝ) : EReal) = _
  rw [h1, ← EReal.coe_sub]
  norm_num

end Batch

open Batch

theorem meanBn_eq (s3 : Fv S1x64)
    (h3 : ∀ q : Fin 64, s3 (ix2 (0 : Fin 1) q) = ∑ r : Fin 1000000, x (ix2 r q)) :
    kMeanBn s3 = rMeanBn x := by
  have e : s3 = colSum x := by
    funext j
    obtain ⟨q, rfl⟩ := row_idx j
    rw [h3, colSum_apply]
  unfold kMeanBn rMeanBn
  rw [e]

theorem varBn_eq (hx : ∀ i, ∃ v : ℝ, x i = (v : EReal)) (s3 s4 : Fv S1x64)
    (h3 : ∀ q : Fin 64, s3 (ix2 (0 : Fin 1) q) = ∑ r : Fin 1000000, x (ix2 r q))
    (h4 : ∀ q : Fin 64, s4 (ix2 (0 : Fin 1) q) = ∑ r : Fin 1000000, x (ix2 r q) * x (ix2 r q)) :
    kVarBn s3 s4 = rVarBn x := by
  funext j
  obtain ⟨q, rfl⟩ := row_idx j
  choose f hf using hx
  have hS : ∑ r : Fin 1000000, x (ix2 r q) = ((∑ r : Fin 1000000, f (ix2 r q) : ℝ) : EReal) := by
    rw [← coe_sum]; exact Finset.sum_congr rfl fun r _ => hf _
  have hQ : ∑ r : Fin 1000000, x (ix2 r q) * x (ix2 r q)
      = ((∑ r : Fin 1000000, f (ix2 r q) * f (ix2 r q) : ℝ) : EReal) := by
    rw [← coe_sum]; exact Finset.sum_congr rfl fun r _ => by rw [hf, EReal.coe_mul]
  have hN : (1000000 : ℝ) ≠ 0 := by norm_num
  have hN1 : (999999 : ℝ) ≠ 0 := by norm_num
  -- the guard dof > 0 holds
  have hg : (broadcastInDim S1x64 ![] bcast_S_S1x64
      (cmpf .ogt rDof (constant (F := Ideal) S_ .f32 0x00000000#32)) : IVec S1x64 1) (ix2 (0 : Fin 1) q) = 1#1 := by
    rw [broadcastInDim_scalar_apply, cmpf_apply, rDof_apply, constant_apply, Ideal.ofBits_zero_f32, Ideal.cmpf_def]
    show BitVec.ofBool (decide ((0 : EReal) < ((999999 : ℝ) : EReal))) = 1#1
    rw [decide_eq_true (EReal.coe_pos.mpr (by norm_num))]
    rfl
  -- the batch mean at column q
  have hμ : rMeanBn x (ix2 (0 : Fin 1) q) = (((∑ r : Fin 1000000, f (ix2 r q)) * (1 / 1000000) : ℝ) : EReal) := by
    unfold rMeanBn
    rw [hostDivf_apply, colSum_apply, splat_apply, ofBits_N, Ideal.div_coe hN, hS, ← EReal.coe_mul]
  have hk : kMeanBn s3 (ix2 (0 : Fin 1) q) = (((∑ r : Fin 1000000, f (ix2 r q)) * (1 / 1000000) : ℝ) : EReal) := by
    rw [meanBn_eq x s3 h3, hμ]
  -- the kernel's side
  have hL : kVarBn s3 s4 (ix2 (0 : Fin 1) q)
      = (((∑ r : Fin 1000000, f (ix2 r q) * f (ix2 r q)
          - 1000000 * ((∑ r : Fin 1000000, f (ix2 r q)) * (1 / 1000000)) * ((∑ r : Fin 1000000, f (ix2 r q)) * (1 / 1000000)))
          * (1 / 999999) : ℝ) : EReal) := by
    unfold kVarBn
    rw [hostDivf_apply, subf_apply, mulf_apply, mulf_apply, splat_apply, splat_apply, hk, h4, hQ, ofBits_N, ofBits_N1,
      Ideal.div_coe hN1, ← EReal.coe_mul, ← EReal.coe_mul, ← EReal.coe_sub, ← EReal.coe_mul]
  -- the reference's side
  have hR : rVarBn x (ix2 (0 : Fin 1) q)
      = (((∑ r : Fin 1000000, (f (ix2 r q) - (∑ r : Fin 1000000, f (ix2 r q)) * (1 / 1000000))
            * (f (ix2 r q) - (∑ r : Fin 1000000, f (ix2 r q)) * (1 / 1000000))) * (1 / 999999) : ℝ) : EReal) := by
    unfold rVarBn
    rw [select_apply, hg, select_one, hostDivf_apply, colSum_apply, broadcastInDim_scalar_apply, rDof_apply,
      Ideal.div_coe hN1, EReal.coe_mul, ← coe_sum]
    refine congrArg (fun t : EReal => t * (((1 / 999999 : ℝ)) : EReal)) (Finset.sum_congr rfl fun r _ => ?_)
    have e : (ix2 r q : S1000000x64.Idx) = StableHlo.Predicate.ij r q := by
      funext a; match a with | ⟨0, _⟩ => rfl | ⟨1, _⟩ => rfl
    have e' : (StableHlo.Predicate.i1q q : S1x64.Idx) = ix2 (0 : Fin 1) q := by
      funext a; match a with | ⟨0, _⟩ => rfl | ⟨1, _⟩ => rfl
    rw [mulf_apply, subf_apply, e, StableHlo.Predicate.bcast_of_row, e', hμ, ← e, hf, ← EReal.coe_sub, ← EReal.coe_mul]
  rw [hL, hR, sum_centred_sq _ 1000000 hN (by rw [Fintype.card_fin]; norm_num)]

end Cert.Alg

end
-- ==== Proof.ApplyEq.lean ====
/-
  The second pass read at (r, q): the kernel's program reads the tables through the one-hot row of the segment word
  of row r, the reference through a gather at the segment number of row r. For a segment number k in [0, 8) the word
  is the word of k and no other, so the one-hot product ∑_k oh k · T k q keeps the single term T k q; the gather wraps
  only negative numbers, reads the number signed and clamps it into [0, 7], which leaves k alone, so it reads T k q
  too. The remaining arithmetic, (x − mean) · inv · w + bias with w and bias laid over the rows, is spelled the same
  on both sides.
-/
import proofs.«419685_j35708358099270_1_alg».proof.Proof.Spec
import proofs.«419685_j35708358099270_1_alg».proof.Proof.LibGatherScatter
import Idealize.ShloMosaic.PureOps.Ideal.Laws
import Idealize.ShloMosaic.Lib.IdealHost
import Idealize.ShloMosaic.Lib.StableHlo.Predicate

open scoped BigOperators

noncomputable section

namespace Cert.Alg

open Idealize.ShloMosaic Idealize.ShloMosaic.ValueIdx Cert.ReferenceIdeal Cert.ReferenceIdeal.Facts₀ Cert.Spec

variable (x : Fv S1000000x64) (b : IVec S1000000 32) (B : IVec S1000000x1 32)

namespace Apply

/-- The segment numbers as a column read at (r, 0): the segment number of row r. -/
theorem colIdx_apply (c : IVec S1000000 32) (r : Fin 1000000) : colIdx c (ix2 r (0 : Fin 1)) = c (ix1 r) := by
  unfold colIdx
  have e : (ix2 r (0 : Fin 1) : S1000000x1.Idx) = StableHlo.Predicate.ixP r := by
    funext a; match a with | ⟨0, _⟩ => rfl | ⟨1, _⟩ => rfl
  have e' : (Shape.Idx.ofFin r : S1000000.Idx) = ix1 r := by
    funext a; match a with | ⟨0, _⟩ => exact Fin.ext rfl
  rw [e, StableHlo.Predicate.bcast_col1, e']

/-- A segment number that is not negative is not counted from the end. -/
theorem wrapIdx_apply (r : Fin 1000000) (h0 : 0 ≤ (b (ix1 r)).toInt) : wrapIdx b (ix1 r) = b (ix1 r) := by
  unfold wrapIdx
  rw [select_apply]
  have hc : cmpi .slt b (broadcastInDim S1000000 ![] bcast_S_S1000000 (constantI S_ 32 0#32)) (ix1 r) = 0#1 := by
    show IntOp.cmpi .slt (b (ix1 r)) (broadcastInDim S1000000 ![] bcast_S_S1000000 (constantI S_ 32 0#32) (ix1 r)) = 0#1
    rw [broadcastInDim_scalar_apply]
    have hz : (0#32 : BitVec 32).toInt = 0 := by decide
    show BitVec.ofBool (decide ((b (ix1 r)).toInt < (0#32 : BitVec 32).toInt)) = 0#1
    rw [decide_eq_false (by rw [hz]; omega)]
    rfl
  rw [hc, select_zero]

/-- The gather reads, for a row whose segment number is k, row k of the table. -/
theorem segGather_apply (T : Fv S8x64) (r : Fin 1000000) (q : Fin 64) (k : Fin 8)
    (hk : (b (ix1 r)).toInt = (k.val : Int)) : segGather T b (ix2 r q) = T (ix2 k q) := by
  unfold segGather
  have hrec : gather_S8x64_S1000000x1_S1000000x64_1_0_n_n_0_1_164
      = Cert.Proof.GS.gathD 8 1000000 64 gather_S8x64_S1000000x1_S1000000x64_1_0_n_n_0_1_164_wf := rfl
  rw [hrec, Cert.Proof.GS.gather_gathD_apply (by norm_num : 0 < 8), colIdx_apply,
    wrapIdx_apply b r (by rw [hk]; exact Int.natCast_nonneg _), Cert.Proof.GS.row_of_toInt _ _ k hk]

/-- The product of a table's column with the one-hot row of the word of segment k is the table's entry at row k:
    every other term is 0 · T = 0 (among the extended reals too), the remaining one 1 · T. -/
theorem oh_sum (w : BitVec 32) (k0 : Fin 8) (hk : w.toInt = (k0.val : Int)) (T : Fv S8x64) (q : Fin 64) :
    ∑ k : Fin 8, oh w k * T (ix2 k q) = T (ix2 k0 q) := by
  have hsmall : ∀ k : Fin 8, (BitVec.ofNat 32 k.val).toInt = (k.val : Int) := fun k =>
    StableHlo.Predicate.toInt_ofNat_small _ (by have := k.isLt; omega)
  have hw : w = BitVec.ofNat 32 k0.val := BitVec.eq_of_toInt_eq (by rw [hk, hsmall])
  rw [Finset.sum_eq_single k0]
  · unfold oh; rw [if_pos hw, one_mul]
  · intro k _ hne
    unfold oh
    rw [if_neg, zero_mul]
    intro h
    apply hne
    have h2 : w.toInt = (k.val : Int) := by rw [h, hsmall]
    exact Fin.ext (by omega)
  · intro h; exact absurd (Finset.mem_univ _) h

end Apply

open Apply

theorem apply_eq (hb : ∀ r : Fin 1000000, 0 ≤ (b (ix1 r)).toInt ∧ (b (ix1 r)).toInt < 8)
    (hB : ∀ r : Fin 1000000, B (ix2 r (0 : Fin 1)) = b (ix1 r)) (M I : Fv S8x64) (w bias : Fv S1x64)
    (r : Fin 1000000) (q : Fin 64) :
    applyK x B M I w bias r q
      = (addf
          (mulf (mulf (subf x (segGather M b)) (segGather I b))
            (broadcastInDim S1000000x64 ![0, 1] bcast_S1x64_S1000000x64_0_1 w))
          (broadcastInDim S1000000x64 ![0, 1] bcast_S1x64_S1000000x64_0_1 bias) : Fv S1000000x64) (ix2 r q) := by
  obtain ⟨h0, h8⟩ := hb r
  have hk : (b (ix1 r)).toInt = (((⟨(b (ix1 r)).toInt.toNat, by omega⟩ : Fin 8).val : Nat) : Int) := by
    show _ = (((b (ix1 r)).toInt.toNat : Nat) : Int)
    omega
  have hG : ∀ T : Fv S8x64,
      ∑ k : Fin 8, oh (B (ix2 r (0 : Fin 1))) k * T (ix2 k q) = segGather T b (ix2 r q) := fun T => by
    rw [hB r, oh_sum _ _ hk, segGather_apply b T r q _ hk]
  have e : (ix2 r q : S1000000x64.Idx) = StableHlo.Predicate.ij r q := by
    funext a; match a with | ⟨0, _⟩ => rfl | ⟨1, _⟩ => rfl
  have e' : (StableHlo.Predicate.i1q q : S1x64.Idx) = ix2 (0 : Fin 1) q := by
    funext a; match a with | ⟨0, _⟩ => rfl | ⟨1, _⟩ => rfl
  unfold applyK
  rw [hG, hG, addf_apply, mulf_apply, mulf_apply, subf_apply, e, StableHlo.Predicate.bcast_of_row,
    StableHlo.Predicate.bcast_of_row, e']

end Cert.Alg

end
-- ==== Proof.PreFacts.lean ====
import proofs.«419685_j35708358099270_1_alg».proof.Defs
import proofs.«419685_j35708358099270_1_alg».proof.Proof.Gen.Pre_finite_inputs
import proofs.«419685_j35708358099270_1_alg».proof.Proof.Gen.KernelIdeal
import Idealize.ShloMosaic.Lib.ReduceAll
import Idealize.ShloMosaic.Lib.ValueIdx

noncomputable section

namespace Cert.PreFacts

open Idealize.ShloMosaic Idealize.ShloMosaic.TcCoe Idealize.ShloMosaic.ValueIdx Idealize.SL.Sem
open Cert.KernelIdeal

variable (m : (ℓ : Loc nD τ sig) → Buf (Elt Ideal) ℓ)

/-- The scalar shape has exactly one index. -/
instance : Subsingleton Cert.Pre_finite_inputs.S_.Idx := ⟨fun a b => funext fun d => d.elim0⟩

/-- The f32 pattern with all exponent bits set and a zero significand denotes plus infinity. -/
theorem inf_pattern : Ideal.ofBits .f32 0x7F800000#32 = (⊤ : EReal) := by
  simp [Ideal.ofBits, Ideal.ieee]

/-- An extended real whose absolute value, max x (-x), lies strictly below plus infinity is a real number:
    at either infinity the absolute value is plus infinity itself. -/
theorem real_of_abs_lt_top (x : EReal) (hx : max x (-x) < ⊤) : ∃ v : ℝ, x = (v : EReal) := by
  induction x using EReal.rec with
  | bot => simp at hx
  | coe v => exact ⟨v, rfl⟩
  | top => simp at hx

/-- The element test of the precondition, |x| < +inf as an ordered comparison, read back. -/
theorem real_of_cmp (x : EReal)
    (hx : Ideal.cmp .olt (max x (-x)) (Ideal.ofBits .f32 0x7F800000#32) = 1#1) : ∃ v : ℝ, x = (v : EReal) := by
  rw [inf_pattern] at hx
  refine real_of_abs_lt_top x ?_
  by_contra hn
  have hd : decide (max x (-x) < ⊤) = false := decide_eq_false hn
  have hz : Ideal.cmp .olt (max x (-x)) ⊤ = 0#1 := by
    show BitVec.ofBool (decide (max x (-x) < ⊤)) = 0#1
    rw [hd]; rfl
  rw [hz] at hx
  exact absurd hx (by decide)

/-- The argument x of a device, at its literal type: a 1000000 by 64 array of extended reals. -/
abbrev xarr (c : Dev nD) : FVec Ideal S1000000x64 .f32 := m ((c.tc : Thread nD τ).loc main_arg0)

/-- The segment words of a device, at their literal type: 1000000 words of 32 bits. -/
abbrev barr (c : Dev nD) : IVec S1000000 32 := m ((c.tc : Thread nD τ).loc main_arg1)

/-- The precondition is a conjunction of six all-reductions, nested to the left with the words' test last;
    its being the set bit gives the first reduction (over x) and the last (over the words) the set bit. -/
theorem pre_split (h : Cert.Pre_KernelIdeal m) (c : Dev nD) :
    (∀ i : S1000000x64.Idx,
        Ideal.cmp .olt (max (xarr m c i : EReal) (-(xarr m c i : EReal))) (Ideal.ofBits .f32 0x7F800000#32) = 1#1)
    ∧ (∀ j : S1000000.Idx,
        IntOp.andi (IntOp.cmpi .sge (barr m c j) 0#32) (IntOp.cmpi .slt (barr m c j) 8#32) = 1#1) := by
  have h0 := congrFun (h c) ix0
  unfold Cert.Pre_finite_inputs.fn Cert.Pre_finite_inputs.fn_part1 at h0
  dsimp only at h0
  obtain ⟨h1, hw⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨hx, -⟩ := IntOp.andi_eq_one.1 h4
  exact ⟨fun i => Host.reduce_andi_all _ _ _ _ ix0 hx i, fun j => Host.reduce_andi_all _ _ _ _ ix0 hw j⟩

theorem x_finite (h : Cert.Pre_KernelIdeal m) (c : Dev nD) (i : S1000000x64.Idx) :
    ∃ v : ℝ, (m ((c.tc : Thread nD τ).loc main_arg0) : FVec Ideal S1000000x64 .f32) i = (v : EReal) :=
  real_of_cmp _ ((pre_split m h c).1 i)

theorem b_range (h : Cert.Pre_KernelIdeal m) (c : Dev nD) (r : Fin 1000000) :
    0 ≤ ((m ((c.tc : Thread nD τ).loc main_arg1) : IVec S1000000 32) (ix1 r)).toInt
      ∧ ((m ((c.tc : Thread nD τ).loc main_arg1) : IVec S1000000 32) (ix1 r)).toInt < 8 := by
  obtain ⟨hge, hlt⟩ := IntOp.andi_eq_one.1 ((pre_split m h c).2 (ix1 r))
  have h0 : (0#32 : BitVec 32).toInt = 0 := by decide
  have h8 : (8#32 : BitVec 32).toInt = 8 := by decide
  have a := IntOp.cmpi_sge.1 hge
  have b := IntOp.cmpi_slt.1 hlt
  rw [h0] at a
  rw [h8] at b
  exact ⟨a, b⟩

end Cert.PreFacts

end
-- ==== Proof.Claims.lean ====
/-
  The five claims, assembled.

  The kernel's program: its run ends with the result array at what the second pass leaves (KRun, KHost.W4_out), which
  at (r, q) is the tables kMean / kInv of the first pass's five sums read through the one-hot row of the word of row r
  (KRegion1, KHost, KRegion0). The reference: its run ends at rOut of the arguments (RefRun). Under the precondition
  every entry of x is a real number, so the statistics formed from the five sums are the reference's (SegStats,
  BatchStats), and every word lies in [0, 8), so the product with the one-hot row is the gather (ApplyEq).
-/
import proofs.«419685_j35708358099270_1_alg».proof.Defs
import proofs.«419685_j35708358099270_1_alg».proof.Proof.Gen.Kernel.Frame
import proofs.«419685_j35708358099270_1_alg».proof.Proof.Gen.KernelIdeal.Frame
import proofs.«419685_j35708358099270_1_alg».proof.Proof.KRun
import proofs.«419685_j35708358099270_1_alg».proof.Proof.KRegion0
import proofs.«419685_j35708358099270_1_alg».proof.Proof.KRegion1
import proofs.«419685_j35708358099270_1_alg».proof.Proof.KHost
import proofs.«419685_j35708358099270_1_alg».proof.Proof.RefRun
import proofs.«419685_j35708358099270_1_alg».proof.Proof.SegStats
import proofs.«419685_j35708358099270_1_alg».proof.Proof.BatchStats
import proofs.«419685_j35708358099270_1_alg».proof.Proof.ApplyEq
import proofs.«419685_j35708358099270_1_alg».proof.Proof.PreFacts

set_option maxRecDepth 16384

open scoped BigOperators

noncomputable section

namespace Cert.Proof.Claims

open Idealize.ShloMosaic Idealize.ShloMosaic.TcCoe Idealize.ShloMosaic.ValueIdx Idealize.SL.Sem
open Cert.Spec

section KernelValue

open Cert.KernelIdeal Cert.KernelIdeal.Gen

variable (m : (ℓ : Loc nD τ sig) → Buf (Elt Ideal) ℓ) (ρ : Dev nD → PrngReg)

/-- The argument arrays, each at its literal type. -/
abbrev xA (c : Dev nD) : Fv S1000000x64 := m ((c.tc : Thread nD τ).loc main_arg0)
abbrev bA (c : Dev nD) : IVec S1000000 32 := m ((c.tc : Thread nD τ).loc main_arg1)
abbrev wA (c : Dev nD) : Fv S1x64 := m ((c.tc : Thread nD τ).loc main_arg2)
abbrev biasA (c : Dev nD) : Fv S1x64 := m ((c.tc : Thread nD τ).loc main_arg3)
abbrev mwA (c : Dev nD) : Fv S3 := m ((c.tc : Thread nD τ).loc main_arg4)
abbrev vwA (c : Dev nD) : Fv S3 := m ((c.tc : Thread nD τ).loc main_arg5)
/-- The segment words as the column the two passes read. -/
abbrev colA (c : Dev nD) : IVec S1000000x1 32 := V1 m ρ c main_v0
/-- The five sums the first pass leaves. -/
abbrev sumX (c : Dev nD) : Fv S8x64 := Cert.KV.Host.A8 m ρ 2 c
abbrev sumXX (c : Dev nD) : Fv S8x64 := Cert.KV.Host.A8 m ρ 3 c
abbrev cnt (c : Dev nD) : Fv S8x64 := Cert.KV.Host.A8 m ρ 4 c
abbrev colX (c : Dev nD) : Fv S1x64 := Cert.KV.Host.A8 m ρ 5 c
abbrev colXX (c : Dev nD) : Fv S1x64 := Cert.KV.Host.A8 m ρ 6 c

theorem sumX_eq (c : Dev nD) (k : Fin 8) (q : Fin 64) :
    sumX m ρ c (ix2 k q) = ∑ r ∈ segW (colA m ρ c) k, xA m c (ix2 r q) := by
  have e : Cert.KV.R0.X (V1 m ρ) c = xA m c := Cert.KV.Host.V1_x m ρ c
  have h := Cert.KV.R0.r0_sumX (V1 m ρ) c k q
  rw [e] at h
  exact h

theorem sumXX_eq (c : Dev nD) (k : Fin 8) (q : Fin 64) :
    sumXX m ρ c (ix2 k q) = ∑ r ∈ segW (colA m ρ c) k, xA m c (ix2 r q) * xA m c (ix2 r q) := by
  have e : Cert.KV.R0.X (V1 m ρ) c = xA m c := Cert.KV.Host.V1_x m ρ c
  have h := Cert.KV.R0.r0_sumXX (V1 m ρ) c k q
  rw [e] at h
  exact h

theorem cnt_eq (c : Dev nD) (k : Fin 8) (q : Fin 64) :
    cnt m ρ c (ix2 k q) = ∑ r ∈ segW (colA m ρ c) k, (1 : EReal) :=
  Cert.KV.R0.r0_cnt (V1 m ρ) c k q

theorem colX_eq (c : Dev nD) (q : Fin 64) :
    colX m ρ c (ix2 (0 : Fin 1) q) = ∑ r : Fin 1000000, xA m c (ix2 r q) := by
  have e : Cert.KV.R0.X (V1 m ρ) c = xA m c := Cert.KV.Host.V1_x m ρ c
  have h := Cert.KV.R0.r0_colX (V1 m ρ) c q
  rw [e] at h
  exact h

theorem colXX_eq (c : Dev nD) (q : Fin 64) :
    colXX m ρ c (ix2 (0 : Fin 1) q) = ∑ r : Fin 1000000, xA m c (ix2 r q) * xA m c (ix2 r q) := by
  have e : Cert.KV.R0.X (V1 m ρ) c = xA m c := Cert.KV.Host.V1_x m ρ c
  have h := Cert.KV.R0.r0_colXX (V1 m ρ) c q
  rw [e] at h
  exact h

/-- What the second pass leaves at (r, q), in terms of the argument arrays and the five sums. -/
theorem second_pass (c : Dev nD) (r : Fin 1000000) (q : Fin 64) :
    ((dat1 (F := Ideal) (V3 m ρ) c).arrAt 6 cfg1.N : Fv S1000000x64) (ix2 r q)
      = applyK (xA m c) (colA m ρ c) (kMean (sumX m ρ c) (cnt m ρ c) (colX m ρ c) (mwA m c))
          (kInv (sumX m ρ c) (sumXX m ρ c) (cnt m ρ c) (colX m ρ c) (colXX m ρ c) (vwA m c)) (wA m c) (biasA m c) r q := by
  refine (Cert.KV.R1.r1_out (V3 m ρ) c r q).trans ?_
  rw [Cert.KV.Host.V3_x m ρ c, Cert.KV.Host.V3_bid m ρ c, Cert.KV.Host.V3_w m ρ c, Cert.KV.Host.V3_bias m ρ c,
    Cert.KV.Host.V3_mean m ρ c, Cert.KV.Host.V3_inv m ρ c]

/-- Under the precondition the second pass's array is the reference's function of the argument arrays. -/
theorem second_pass_eq (hpre : Cert.Pre_KernelIdeal m) (c : Dev nD) :
    ((dat1 (F := Ideal) (V3 m ρ) c).arrAt 6 cfg1.N : Fv S1000000x64)
      = rOut (xA m c) (bA m c) (wA m c) (biasA m c) (mwA m c) (vwA m c) := by
  have hx : ∀ i, ∃ v : ℝ, xA m c i = (v : EReal) := Cert.PreFacts.x_finite m hpre c
  have hb : ∀ r : Fin 1000000, 0 ≤ (bA m c (ix1 r)).toInt ∧ (bA m c (ix1 r)).toInt < 8 := Cert.PreFacts.b_range m hpre c
  have hB : ∀ r : Fin 1000000, colA m ρ c (ix2 r (0 : Fin 1)) = bA m c (ix1 r) := Cert.KV.Host.V1_bid m ρ c
  funext j
  obtain ⟨r, q, rfl⟩ : ∃ (r : Fin 1000000) (q : Fin 64), j = ix2 r q := ⟨j 0, j 1, eq_ix2 j⟩
  rw [second_pass m ρ c r q]
  unfold kMean kInv
  rw [Cert.Alg.meanIn_eq (xA m c) (bA m c) (colA m ρ c) hB _ _ (sumX_eq m ρ c) (cnt_eq m ρ c),
    Cert.Alg.varIn_eq (xA m c) (bA m c) (colA m ρ c) hx hB _ _ _ (sumX_eq m ρ c) (sumXX_eq m ρ c) (cnt_eq m ρ c),
    Cert.Alg.meanBn_eq (xA m c) _ (colX_eq m ρ c),
    Cert.Alg.varBn_eq (xA m c) hx _ _ (colX_eq m ρ c) (colXX_eq m ρ c)]
  exact Cert.Alg.apply_eq (xA m c) (bA m c) (colA m ρ c) hb hB _ _ (wA m c) (biasA m c) r q

/-- Under the precondition the kernel's program leaves in its result array the reference's function of the argument
    arrays. -/
theorem kernel_value (hpre : Cert.Pre_KernelIdeal m) (c : Dev nD) :
    W4 m ρ c (Proc.devRef .tc main_v85)
      = rOut (xA m c) (bA m c) (wA m c) (biasA m c) (mwA m c) (vwA m c) :=
  (Cert.KV.Host.W4_out m ρ c).trans (second_pass_eq m ρ hpre c)

end KernelValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RV.ref_run m ρ)

theorem preserves : Cert.preserves_Kernel_KernelIdeal := trivial

/-- From memories agreeing on the arguments both idealized programs end with the same result array, rOut of the
    arguments. -/
theorem algebraic : Cert.algebraic_KernelIdeal_ReferenceIdeal := by
  intro m ρ m' ρ' hpre hagree
  refine ⟨_, (θ_run Cert.KernelIdeal.defs _ _).mono
      (fun _ h c => ⟨(h c).1.trans (kernel_value m ρ hpre c), (h c).2⟩)
      (Cert.KernelIdeal.KRun.run_out (F := Ideal) m ρ), ?_⟩
  refine (θ_run Cert.ReferenceIdeal.defs _ _).mono (fun _ h c => ⟨(h c).1.trans ?_, (h c).2⟩)
    (Cert.RV.ref_run m' ρ')
  rw [(hagree c).1, (hagree c).2.1, (hagree c).2.2.1, (hagree c).2.2.2.1, (hagree c).2.2.2.2.1,
    (hagree c).2.2.2.2.2]

end Cert.Proof.Claims

end
-- ==== Proof.lean ====
/-
  The certificate of the switchable normalisation kernel against its reference: the kernel's program makes two passes
  over x (five sums per segment and per column; then the normalisation through one-hot products), the reference
  scatter-adds, gathers and centres. Over the extended reals, for finite x and segment numbers in [0, 8), both end with
  the same array: Proof/Spec.lean states it, Proof/Claims.lean assembles the five claims.
-/
import proofs.«419685_j35708358099270_1_alg».proof.Defs
import proofs.«419685_j35708358099270_1_alg».proof.Proof.Gen.Kernel
import proofs.«419685_j35708358099270_1_alg».proof.Proof.Gen.KernelIdeal
import proofs.«419685_j35708358099270_1_alg».proof.Proof.Gen.ReferenceIdeal
import proofs.«419685_j35708358099270_1_alg».proof.Proof.Gen.Pre_finite_inputs
import proofs.«419685_j35708358099270_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
